-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S10 : Shape := ⟨1, ![10]⟩
abbrev S1024x3072 : Shape := ⟨2, ![1024, 3072]⟩
abbrev S3072 : Shape := ⟨1, ![3072]⟩
abbrev S1x3072 : Shape := ⟨2, ![1, 3072]⟩
abbrev S4x4096x1024 : Shape := ⟨3, ![4, 4096, 1024]⟩
abbrev S1x256x1024 : Shape := ⟨3, ![1, 256, 1024]⟩
abbrev S256x1024 : Shape := ⟨2, ![256, 1024]⟩
abbrev S256x3072 : Shape := ⟨2, ![256, 3072]⟩
abbrev S1x512x1024 : Shape := ⟨3, ![1, 512, 1024]⟩
abbrev S1 : Shape := ⟨1, ![1]⟩
abbrev S512x1 : Shape := ⟨2, ![512, 1]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩

abbrev nBuf : Space → Nat
  | .hbm => 24
  | .vmem => 29
  | .smem => 2
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x3072, .bf16⟩
  | .hbm, ⟨16, _⟩ => ⟨S3072, .f32⟩
  | .hbm, ⟨17, _⟩ => ⟨S1x3072, .f32⟩
  | .hbm, ⟨18, _⟩ => ⟨S4x2048x1024, .bf16⟩
  | .hbm, ⟨19, _⟩ => ⟨S4x4096x1024, .f32⟩
  | .hbm, ⟨20, _⟩ => ⟨S4x4096x1024, .f32⟩
  | .hbm, ⟨21, _⟩ => ⟨S4x2048x1024, .bf16⟩
  | .hbm, ⟨22, _⟩ => ⟨S4x2048x1024, .bf16⟩
  | .hbm, ⟨23, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x3072, .bf16⟩
  | .local _ .vmem, ⟨7, _⟩ => ⟨S1x3072, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .f32⟩
  | .local _ .vmem, ⟨25, _⟩ => ⟨S1x512x1024, .f32⟩
  | .local _ .vmem, ⟨26, _⟩ => ⟨S512x1, .f32⟩
  | .local _ .vmem, ⟨27, _⟩ => ⟨S512x1, .f32⟩
  | .local _ .vmem, ⟨28, _⟩ => ⟨S512x1024, .f32⟩
  | .local _ .smem, ⟨0, _⟩ => ⟨S10, .i32⟩
  | .local _ .smem, ⟨1, _⟩ => ⟨S10, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v10 : Ref sig .tc := ⟨.hbm, 23, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .eq v9 c1_i32_3
  let v_true : BitVec 1 := 1#1
  let v11 : BitVec 1 := Scalar.xori v10 v_true
  let v12 : BitVec 32 := Scalar.extui v11
  let c0_i32_4 : BitVec 32 := 0#32
  let v13 : BitVec 1 := Scalar.cmpi .ne v12 c0_i32_4
  v13

def k0_cond2 (i : grid0.Coords) : BitVec 1 :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .eq v9 c1_i32_3
  let v14 : BitVec 32 := Scalar.extui v10
  let c0_i32_5 : BitVec 32 := 0#32
  let v15 : BitVec 1 := Scalar.cmpi .ne v14 c0_i32_5
  v15

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .eq v26 c0_i32_10
  let c8_i32 : BitVec 32 := 8#32
  let v28 : BitVec 32 := Scalar.addi c8_i32 v16
  let v29 : BitVec 32 := Scalar.select v27 v28 v16
  let c0_i32_11 : BitVec 32 := 0#32
  let c0_i32_12 : BitVec 32 := 0#32
  ![arg0.toNat, v29.toNat, c0_i32_11.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 1 := Scalar.cmpi .eq v26 c0_i32_10
  let c8_i32 : BitVec 32 := 8#32
  let v28 : BitVec 32 := Scalar.addi c8_i32 v16
  let v29 : BitVec 32 := Scalar.select v27 v28 v16
  let c0_i32_11 : BitVec 32 := 0#32
  let c0_i32_12 : BitVec 32 := 0#32
  ![arg0.toNat, v29.toNat, c0_i32_11.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![4, 10], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond2 (v1 : BitVec 32) (v3 : BitVec 32) : BitVec 1 :=
  let v58 : BitVec 1 := Scalar.cmpi .eq v3 v1
  let v59 : BitVec 32 := Scalar.extui v58
  let c0_i32_29 : BitVec 32 := 0#32
  let v60 : BitVec 1 := Scalar.cmpi .ne v59 c0_i32_29
  v60

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_2 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S1024x1024_S1024x1024_1_0 : S1024x1024.Transposes [1, 0] S1024x1024
  bitsLt_bf16_f32 : FTy.bits .bf16 < FTy.bits .f32
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  numel1_S1 : S1.numel = 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S256x1024_S1024x3072_S256x3072_1_0_0_1_n_n_wf : DotDims.WF S256x1024 S1024x3072 S256x3072 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x2048x1024.size a
  hwx0_1 : ∀ i : grid0.Coords, EltTy.bits .f32 = 32 ∨ (Rect.block (s := S4x2048x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S4x2048x1024.size a
  hwx0_2 : ∀ i : grid0.Coords, EltTy.bits .f32 = 32 ∨ (Rect.block (s := S4x2048x1024) S1x256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .f32 = 32 ∨ (Rect.block (s := S1x3072) S1x3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S4x2048x1024.size a
  hwx0_5 : ∀ i : grid0.Coords, EltTy.bits .bf16 = 32 ∨ (Rect.block (s := S4x2048x1024) S1x256x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S4x4096x1024.size a
  hwx0_6 : ∀ i : grid0.Coords, EltTy.bits .f32 = 32 ∨ (Rect.block (s := S4x4096x1024) S1x256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S4x4096x1024.size a
  hwx0_7 : ∀ i : grid0.Coords, EltTy.bits .f32 = 32 ∨ (Rect.block (s := S4x4096x1024) S1x256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S4x2048x1024.size a
  hwx0_8 : ∀ i : grid0.Coords, EltTy.bits .bf16 = 32 ∨ (Rect.block (s := S4x2048x1024) S1x256x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S4x2048x1024.size a
  hwx0_9 : ∀ i : grid0.Coords, EltTy.bits .bf16 = 32 ∨ (Rect.block (s := S4x2048x1024) S1x256x1024.size (cc0_transform_9 i) (hinb0_9 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S1x256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S1x256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_2) S1x256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_3) S1x256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_4) S1x256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun i => !(k0_cond1 i == 1#1) | 6 => fun i => !(k0_cond1 i == 1#1) && !(k0_cond2 i == 1#1) | 7 => fun i => !(k0_cond1 i == 1#1) && !(k0_cond2 i == 1#1) | 8 => fun i => !(k0_cond2 i == 1#1) | 9 => fun i => !(k0_cond2 i == 1#1) | ⟨_ + 10, h⟩ => absurd h (Nat.not_lt.2 (Nat.le_add_left _ _))

abbrev spec1_0 : Pipeline.WinSpec sig grid1.rank :=
  Pipeline.WinSpec.ofSpec (Memref.whole main_v9_0) S1x512x1024.size reads1_0 false false 2 stage1_0 sem1_0 nbuf1_0 hstage1_0

abbrev spec1_1 : Pipeline.WinSpec sig grid1.rank :=
  Pipeline.WinSpec.ofSpec (Memref.whole main_v9_3) S1x512x1024.size reads1_1 false false 2 stage1_1 sem1_1 nbuf1_1 hstage1_1

abbrev spec1_2 : Pipeline.WinSpec sig grid1.rank :=
  Pipeline.WinSpec.ofSpec (Memref.whole main_v9_4) S1x512x1024.size reads1_2 false false 2 stage1_2 sem1_2 nbuf1_2 hstage1_2

abbrev spec1_3 : Pipeline.WinSpec sig grid1.rank :=
  Pipeline.WinSpec.ofSpec (Memref.whole main_v10) S1x512x1024.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x512x1024.size a ≤ S4x2048x1024.size a), EltTy.bits .bf16 = 32 ∨ (Rect.block (s := S4x2048x1024) S1x512x1024.size (cc1_transform_0 k1_off1_inb numel1_S1 pf i) h).WholeWords (EltTy.packing .bf16)) ∧
  (∀ i : grid1.Coords, ∃ h : (∀ a, (cc1_transform_1 k1_off1_inb numel1_S1 pf i a + 1) * S1x512x1024.size a ≤ S4x2048x1024.size a), EltTy.bits .bf16 = 32 ∨ (Rect.block (s := S4x2048x1024) S1x512x1024.size (cc1_transform_1 k1_off1_inb numel1_S1 pf i) h).WholeWords (EltTy.packing .bf16)) ∧
  (∀ i : grid1.Coords, ∃ h : (∀ a, (cc1_transform_2 k1_off1_inb numel1_S1 pf i a + 1) * S1x512x1024.size a ≤ S4x2048x1024.size a), EltTy.bits .bf16 = 32 ∨ (Rect.block (s := S4x2048x1024) S1x512x1024.size (cc1_transform_2 k1_off1_inb numel1_S1 pf i) h).WholeWords (EltTy.packing .bf16)) ∧
  (∀ i : grid1.Coords, ∃ h : (∀ a, (cc1_transform_3 k1_off1_inb numel1_S1 pf i a + 1) * S1x512x1024.size a ≤ S4x2048x1024.size a), EltTy.bits .f32 = 32 ∨ (Rect.block (s := S4x2048x1024) S1x512x1024.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond2 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x4096x1024 : Shape := ⟨3, ![4, 4096, 1024]⟩
abbrev S4x2048x4096 : Shape := ⟨3, ![4, 2048, 4096]⟩
abbrev S_ : Shape := ⟨0, ![]⟩
abbrev S4096 : Shape := ⟨1, ![4096]⟩
abbrev S1x4096 : Shape := ⟨2, ![1, 4096]⟩
abbrev S2048 : Shape := ⟨1, ![2048]⟩
abbrev S2048x1 : Shape := ⟨2, ![2048, 1]⟩
abbrev S2048x4096 : Shape := ⟨2, ![2048, 4096]⟩
abbrev S1x2048x4096 : Shape := ⟨3, ![1, 2048, 4096]⟩
abbrev S4x2048 : Shape := ⟨2, ![4, 2048]⟩
abbrev S4x2048x1 : Shape := ⟨3, ![4, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x4096x1024, .f32⟩
  | .hbm, ⟨22, _⟩ => ⟨S4x4096x1024, .f32⟩
  | .hbm, ⟨23, _⟩ => ⟨S4x2048x4096, .f32⟩
  | .hbm, ⟨24, _⟩ => ⟨S_, .f32⟩
  | .hbm, ⟨25, _⟩ => ⟨S_, .f32⟩
  | .hbm, ⟨26, _⟩ => ⟨S4x2048x4096, .f32⟩
  | .hbm, ⟨27, _⟩ => ⟨S4x2048x4096, .f32⟩
  | .hbm, ⟨28, _⟩ => ⟨S4096, .i32⟩
  | .hbm, ⟨29, _⟩ => ⟨S1x4096, .i32⟩
  | .hbm, ⟨30, _⟩ => ⟨S2048, .i32⟩
  | .hbm, ⟨31, _⟩ => ⟨S2048x1, .i32⟩
  | .hbm, ⟨32, _⟩ => ⟨S2048x4096, .i32⟩
  | .hbm, ⟨33, _⟩ => ⟨S2048x4096, .i32⟩
  | .hbm, ⟨34, _⟩ => ⟨S2048x4096, .i1⟩
  | .hbm, ⟨35, _⟩ => ⟨S1x2048x4096, .i1⟩
  | .hbm, ⟨36, _⟩ => ⟨S_, .f32⟩
  | .hbm, ⟨37, _⟩ => ⟨S_, .f32⟩
  | .hbm, ⟨38, _⟩ => ⟨S4x2048x4096, .i1⟩
  | .hbm, ⟨39, _⟩ => ⟨S4x2048x4096, .f32⟩
  | .hbm, ⟨40, _⟩ => ⟨S4x2048x4096, .f32⟩
  | .hbm, ⟨41, _⟩ => ⟨S_, .f32⟩
  | .hbm, ⟨42, _⟩ => ⟨S4x2048, .f32⟩
  | .hbm, ⟨43, _⟩ => ⟨S_, .f32⟩
  | .hbm, ⟨44, _⟩ => ⟨S4x2048, .f32⟩
  | .hbm, ⟨45, _⟩ => ⟨S4x2048, .f32⟩
  | .hbm, ⟨46, _⟩ => ⟨S4x2048x1, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S_, .f32⟩
  | .hbm, ⟨51, _⟩ => ⟨S4x2048, .f32⟩
  | .hbm, ⟨52, _⟩ => ⟨S4x2048x1, .f32⟩
  | .hbm, ⟨53, _⟩ => ⟨S4x2048x4096, .f32⟩
  | .hbm, ⟨54, _⟩ => ⟨S4x2048x4096, .f32⟩
  | .hbm, ⟨55, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  concatenates_S4x2048x1024_S4x2048x1024_S4x4096x1024_d1 : Shape.Concatenates [S4x2048x1024, S4x2048x1024] S4x4096x1024 1
  bcast_S_S4x2048x4096 : S_.BroadcastsInDim S4x2048x4096 (![] : Fin 0 → Fin S4x2048x4096.rank)
  bcast_S4096_S1x4096_1 : S4096.BroadcastsInDim S1x4096 (![1] : Fin 1 → Fin S1x4096.rank)
  bcast_S2048_S2048x1_0 : S2048.BroadcastsInDim S2048x1 (![0] : Fin 1 → Fin S2048x1.rank)
  bcast_S1x4096_S2048x4096_0_1 : S1x4096.BroadcastsInDim S2048x4096 (![0, 1] : Fin 2 → Fin S2048x4096.rank)
  bcast_S2048x1_S2048x4096_0_1 : S2048x1.BroadcastsInDim S2048x4096 (![0, 1] : Fin 2 → Fin S2048x4096.rank)
  bcast_S2048x4096_S1x2048x4096_1_2 : S2048x4096.BroadcastsInDim S1x2048x4096 (![1, 2] : Fin 2 → Fin S1x2048x4096.rank)
  bcast_S1x2048x4096_S4x2048x4096_0_1_2 : S1x2048x4096.BroadcastsInDim S4x2048x4096 (![0, 1, 2] : Fin 3 → Fin S4x2048x4096.rank)
  reducesTo_S4x2048x4096_S4x2048_d2 : S4x2048x4096.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x4096_0_1_2 : S4x2048x1.BroadcastsInDim S4x2048x4096 (![0, 1, 2] : Fin 3 → Fin S4x2048x4096.rank)
  dot_S4x2048x1024_S1024x1024_S4x2048x1024_2_1_01_0_n_n_wf : DotDims.WF S4x2048x1024 S1024x1024 S4x2048x1024 [2] [1] [0, 1] [0] [] []
  dot_S4x2048x1024_S4x4096x1024_S4x2048x4096_2_2_1_1_0_0_wf : DotDims.WF S4x2048x1024 S4x4096x1024 S4x2048x4096 [2] [2] [1] [1] [0] [0]
  dot_S4x2048x4096_S4x4096x1024_S4x2048x1024_2_1_1_2_0_0_wf : DotDims.WF S4x2048x4096 S4x4096x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x4096x1024_S4x2048x4096_2_2_1_1_0_0 : DotDims S4x2048x1024 S4x4096x1024 S4x2048x4096 where
  lhsContracting := [2]
  rhsContracting := [2]
  lhsNonContracting := [1]
  rhsNonContracting := [1]
  lhsBatch := [0]
  rhsBatch := [0]
  wf := dot_S4x2048x1024_S4x4096x1024_S4x2048x4096_2_2_1_1_0_0_wf
def dot_S4x2048x4096_S4x4096x1024_S4x2048x1024_2_1_1_2_0_0 : DotDims S4x2048x4096 S4x4096x1024 S4x2048x1024 where
  lhsContracting := [2]
  rhsContracting := [1]
  lhsNonContracting := [1]
  rhsNonContracting := [2]
  lhsBatch := [0]
  rhsBatch := [0]
  wf := dot_S4x2048x4096_S4x4096x1024_S4x2048x1024_2_1_1_2_0_0_wf

class Facts : Prop extends Facts₀ where

variable [Facts]
-- ==== Proof.Data0.lean ====
/-
  The first pallas_call (the fused projection and cache copy), as data for the pipeline rule.

  Its grid is 4 batches × 16 steps. Step `i` of a batch works on the pair index `j = i / 2`: an even step projects
  rows `256 j … 256 j + 255` of `x` through the fused weight matrix (one product `x_blk · W + β`, cut into the query,
  key and value thirds) and stores the query block and, into block `8 + j` of the key and value arrays, the new
  rows; an odd step copies block `j` of the cached keys and values into block `j` of those arrays and into the two
  narrow-format shadows. So after the body at a point each window's staging buffer holds:
  an input window its block; the query window the query third of the pair's product (stored at the even step,
  left in place at the odd one); the key and value windows the third or the copied cache block by the step's
  parity; the two shadow windows the cache blocks (stored at the odd step; what the even step leaves there is never
  written back and nothing is claimed of it).
-/
import proofs.«412249_j74225624809935_3_alg».proof.Proof.Gen.KernelIdeal.Launch
import proofs.«412249_j74225624809935_3_alg».proof.Proof.Gen.KernelIdeal.Skeleton
import proofs.«412249_j74225624809935_3_alg».proof.Proof.Gen.KernelIdeal.Points
import Idealize.ShloMosaic.Lib.Pipeline.Frame
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t) (iblk0 V c 3 t) (iblk0 V c 4 t)
    | ⟨6, _⟩ => if k0_cond1 (grid0.coords t) = 1#1 then k0_pay3 (iblk0 V c 0 t) (iblk0 V c 3 t) (iblk0 V c 4 t) else k0_pay7 (iblk0 V c 1 t)
    | ⟨7, _⟩ => if k0_cond1 (grid0.coords t) = 1#1 then k0_pay4 (iblk0 V c 0 t) (iblk0 V c 3 t) (iblk0 V c 4 t) else k0_pay8 (iblk0 V c 2 t)
    | ⟨8, _⟩ => k0_pay9 (iblk0 V c 1 t)
    | ⟨9, _⟩ => k0_pay10 (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = k0_pay2 (iblk0 V c 0 t) (iblk0 V c 3 t) (iblk0 V c 4 t) := by dsimp only [dat0]
theorem after0_6 (c : Dev nD) (t : Fin cfg0.N) :
    (dat0 V c).after 6 t = if k0_cond1 (grid0.coords t) = 1#1 then k0_pay3 (iblk0 V c 0 t) (iblk0 V c 3 t) (iblk0 V c 4 t) else k0_pay7 (iblk0 V c 1 t) := by
  dsimp only [dat0]
theorem after0_7 (c : Dev nD) (t : Fin cfg0.N) :
    (dat0 V c).after 7 t = if k0_cond1 (grid0.coords t) = 1#1 then k0_pay4 (iblk0 V c 0 t) (iblk0 V c 3 t) (iblk0 V c 4 t) else k0_pay8 (iblk0 V c 2 t) := by
  dsimp only [dat0]
theorem after0_8 (c : Dev nD) (t : Fin cfg0.N) : (dat0 V c).after 8 t = k0_pay9 (iblk0 V c 1 t) := by dsimp only [dat0]
theorem after0_9 (c : Dev nD) (t : Fin cfg0.N) : (dat0 V c).after 9 t = k0_pay10 (iblk0 V c 2 t) := by dsimp only [dat0]

end Cert.KernelIdeal.Hand

end
-- ==== Proof.Data1.lean ====
/-
  The second pallas_call (causal attention by blocks with a running maximum), as data for the pipeline rule.

  Its grid is 4 batches × 10 steps; two prefetched tables give, per step, the query block `q` and the key block
  `kv ≤ q` the step works on (the lower triangle of a 4 × 4 block matrix, row by row). Three scratch arrays carry a
  row's running maximum, normaliser and weighted sum from step to step: a step with `kv = 0` first resets them, every
  step folds its 512 × 512 tile of masked scores in, and a step with `kv = q` (the row's last) stores the quotient
  into the output block, which is written back there.
-/
import proofs.«412249_j74225624809935_3_alg».proof.Proof.Gen.KernelIdeal.Launch
import proofs.«412249_j74225624809935_3_alg».proof.Proof.Gen.KernelIdeal.Skeleton
import proofs.«412249_j74225624809935_3_alg».proof.Proof.Gen.KernelIdeal.Points
import Idealize.ShloMosaic.Lib.Pipeline.Frame
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The two prefetched tables' contents: the constants `@main` writes. -/
def tbl : pre1.Contents (Elt F) := fun k => match k with
  | ⟨0, _⟩ => fun i => lit0 (S10.rowMajor i)
  | ⟨1, _⟩ => fun i => lit1 (S10.rowMajor i)

-- That every table-indexed block lies inside its array with word-exact ends is a hypothesis of this module.
variable (hok : ok1 (F := F) (tbl (F := F)))

/-- The tables as admissible contents, and the pipeline at them. -/
abbrev adm1 : (pcfg1 (F := F)).Adm := ⟨tbl, hok⟩
abbrev cfgA : Pipeline.Cfg sig Λ₀ := cfg1 (adm1 hok)

variable (V : (c : Dev nD) → (b : Ref sig .tc) → Buf (Elt F) ((c : Thread nD τ).loc b))

/-- Window `w`'s block at point `t`, read off its array as the region finds it. -/
def iblk1 (c : Dev nD) (w : Fin (cfgA hok).W) (t : Fin (cfgA hok).N) :
    (((cfgA hok).win w).xblock ((cfgA hok).grid.coords t)).Idx → Elt F ((cfgA hok).win w).elt :=
  (((cfgA hok).win w).blk t).view.read (Elt F) (V c (Pipeline.arrRef spec1 w))

/-- The three scratch arrays' contents: running maximum, normaliser, weighted sum. -/
abbrev St1 (F : FTy → Type) : Type := Vec F S512x1 .f32 × Vec F S512x1 .f32 × Vec F S512x1024 .f32

/-- The query-block word and the key-block word the body reads from the tables at a point. -/
def qWord (i : grid1.Coords) : Elt F .i32 := (tbl (F := F)).atD 0 (k1_off1 i)
def kvWord (i : grid1.Coords) : Elt F .i32 := (tbl (F := F)).atD 1 (k1_off1 i)

/-- ONE STEP: the scratch contents after the body at point `t` from those before it. A step whose key block is
    the row's first starts from the reset contents (`-∞`, 0, 0); then the tile of masked scores of the step's
    query and key blocks is folded in with the step's value block. -/
def step1 (c : Dev nD) (t : Fin (cfgA hok).N) (prev : St1 F) : St1 F :=
  let i : grid1.Coords := (cfgA hok).grid.coords t
  let v1 : Elt F .i32 := qWord (F := F) i
  let v3 : Elt F .i32 := kvWord (F := F) i
  let p : St1 F := if Scalar.cmpi .ne (Scalar.extui (Scalar.cmpi .eq v3 0#32)) 0#32 = 1#1 then (k1_pay6, k1_pay7, k1_pay8) else prev
  let qb := iblk1 hok V c 0 t
  let kb := iblk1 hok V c 1 t
  let vb := iblk1 hok V c 2 t
  let s27 := k1_pay10 v1 v3 qb kb
  let m31 := k1_pay11 v1 v3 qb kb p.1
  let a34 := k1_pay12 v1 v3 qb kb p.1 p.1
  let b35 := k1_pay13 v1 v3 qb kb p.1
  (k1_pay4 m31, k1_pay2 s27 a34 b35 p.2.1, k1_pay3 (k1_pay9 vb) s27 a34 b35 p.2.2)

/-- THE TRAJECTORY: the scratch contents after point `n`. What they hold before the first point does not matter
    (that point resets them); the reset contents stand in for it. -/
def traj1 (c : Dev nD) : (n : ℕ) → n < (cfgA hok).N → St1 F
  | 0, h => step1 hok V c ⟨0, h⟩ (k1_pay6, k1_pay7, k1_pay8)
  | n + 1, h => step1 hok V c ⟨n + 1, h⟩ (traj1 c n (Nat.lt_of_succ_lt h))

/-- The scratch contents before point `t`. -/
def prev1 (c : Dev nD) (t : Fin (cfgA hok).N) : St1 F :=
  if h : t.val = 0 then (k1_pay6, k1_pay7, k1_pay8) else traj1 hok V c (t.val - 1) (by have := t.isLt; omega)

theorem traj1_eq (c : Dev nD) (t : Fin (cfgA hok).N) : traj1 hok V c t.val t.isLt = step1 hok V c t (prev1 hok V c t) := by
  obtain ⟨n, hn⟩ := t
  cases n with
  | zero => rfl
  | succ n => unfold prev1; simp only [Nat.add_one_ne_zero, dif_neg, not_false_eq_true]; rfl

/-- What the output window's staging buffer holds after the body at a point that stores it (a row's last step):
    the weighted sum over the normaliser. -/
def out1 (c : Dev nD) (t : Fin (cfgA hok).N) : Vec F S1x512x1024 .f32 :=
  k1_pay5 (traj1 hok V c t.val t.isLt).2.2 (traj1 hok V c t.val t.isLt).2.1

end Cert.KernelIdeal.Hand

end
-- ==== Proof.Reg0.lean ====
/-
  The body of the first pallas_call (the fused projection and cache copy) against its proof data.

  At a point of the 4 × 16 grid the body does one of two things, by the parity of the step. An even step loads
  the x block, the fused weights and the fused bias, forms the one product `x_blk · W + β` and stores its query,
  key and value thirds, each over the whole of its staging buffer. An odd step loads the two cache blocks and stores
  each twice, once as it is and once narrowed, again each over a whole buffer. Every load reads a whole buffer, so
  a loaded value is the buffer's contents; every store covers its buffer, so what a stored buffer holds afterwards
  is the stored value alone. Hence the two triples below, one per parity, and from them the obligation at a generic
  point: the windows the step does not touch pass through as found. Two facts of the schedule enter. The inputs
  hold their blocks whether or not they were fetched at the point (the block index did not move). And the query
  window, stored at the even step but written back only at the odd one, holds at the odd step what the even step
  left — which is the odd step's own query third, since x block, weights and bias are the same at both.
-/
import proofs.«412249_j74225624809935_3_alg».proof.Proof.Data0
import Idealize.ShloMosaic.Lib.Tactic
import Idealize.ShloMosaic.Lib.Exec
import Idealize.ShloMosaic.Lib.Pipeline.FrameBody
import Idealize.ShloMosaic.Lib.Pipeline.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Whole-buffer loads and stores

Every access of the body goes through the rectangle of its buffer's own sizes at zero offsets: a load through it
reads the contents, and ONE store through it leaves its payload, whatever the buffer held. -/

theorem read_store_whole {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, View.mem_set_unit_zero hz inb y⟩)).trans
    (View.canon_unit_zero hz inb w)

theorem readAt_whole {κ : Kind} {sp : Space} {S : Shape} {e : EltTy} (v : View sig κ sp S e) (f : v.ty.Contents (Elt F))
    {off : Fin S.rank → Nat} (hz : off = fun _ => 0) (inb : ∀ a, off a + S.size a ≤ S.size a) :
    v.readAt (Elt F) (Rect.unit off S.size inb).toLoadRect f = v.read (Elt F) f :=
  (View.readAt_eq_ld v f _).trans (View.ld_unit_zero hz inb _)

theorem hz3 : (![0, 0, 0] : Fin 3 → Nat) = fun _ => 0 := by funext a; fin_cases a <;> rfl
theorem hz2 : (![0, 0] : Fin 2 → Nat) = fun _ => 0 := by funext a; fin_cases a <;> rfl

/-! ## The body's two triples -/

set_option maxHeartbeats 1000000 in
/-- An even step (the first condition holds, the second does not), on whole staging memrefs: from the x block,
    the weights and the bias at read contents and the three outputs it stores at anything, the body runs to the
    inputs as they were and the outputs at the three thirds of the product. -/
theorem sound_kernel0_even (c : Dev nD) (E : Set ℕ) (i : grid0.Coords) (h1 : k0_cond1 i = 1#1) (h2 : ¬ k0_cond2 i = 1#1)
    (arg2 : Memref sig .tc .vmem S1x256x1024 .f32) (harg2 : arg2.IsWhole) (arg3 : Memref sig .tc .vmem S1x256x1024 .f32) (harg3 : arg3.IsWhole)
    (arg4 : Memref sig .tc .vmem S1x256x1024 .f32) (harg4 : arg4.IsWhole) (arg5 : Memref sig .tc .vmem S1024x3072 .bf16) (harg5 : arg5.IsWhole)
    (arg6 : Memref sig .tc .vmem S1x3072 .f32) (harg6 : arg6.IsWhole) (arg7 : Memref sig .tc .vmem S1x256x1024 .bf16) (harg7 : arg7.IsWhole)
    (arg8 : Memref sig .tc .vmem S1x256x1024 .f32) (harg8 : arg8.IsWhole) (arg9 : Memref sig .tc .vmem S1x256x1024 .f32) (harg9 : arg9.IsWhole)
    (arg10 : Memref sig .tc .vmem S1x256x1024 .bf16) (harg10 : arg10.IsWhole) (arg11 : Memref sig .tc .vmem S1x256x1024 .bf16) (harg11 : arg11.IsWhole)
    (x0 : Vec F S1x256x1024 .f32) (x3 : Vec F S1024x3072 .bf16) (x4 : Vec F S1x3072 .f32) (K : PUnit → sProp 𝕄) :
    iprop(owns (c : Thread nD τ) arg2 fullShare x0 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg5 fullShare x3 ∗ owns (c : Thread nD τ) arg6 fullShare x4
            ∗ owns (c : Thread nD τ) arg7 fullShare (k0_pay2 x0 x3 x4) ∗ owns (c : Thread nD τ) arg8 fullShare (k0_pay3 x0 x3 x4)
            ∗ owns (c : Thread nD τ) arg9 fullShare (k0_pay4 x0 x3 x4)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  simp only [cc0__proj_kernel_eq_skeleton]; unfold cc0__proj_kernel_skel
  unfold owns
  iintro ⟨⟨%f0, %hf0, H0⟩, ⟨%f3, %hf3, H3⟩, ⟨%f4, %hf4, H4⟩, ⟨%d5, %f5, -, H5⟩, ⟨%d6, %f6, -, H6⟩, ⟨%d7, %f7, -, H7⟩, Hk⟩
  subst hf0; subst hf3; subst hf4
  sl_exec
  sl_step
  iapply Hk
  isplitl [H0]
  · iexists f0; isplitr; · ipureintro; rfl
    iexact H0
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_store_whole _ _ hz3, readAt_whole _ _ hz3, readAt_whole _ _ hz2, readAt_whole _ _ hz2]
  isplitl [H6]
  · iexists _; isplitr
    swap; · iexact H6
    ipureintro
    rw [read_store_whole _ _ hz3, readAt_whole _ _ hz3, readAt_whole _ _ hz2, readAt_whole _ _ hz2]
  iexists _; isplitr
  swap; · iexact H7
  ipureintro
  rw [read_store_whole _ _ hz3, readAt_whole _ _ hz3, readAt_whole _ _ hz2, readAt_whole _ _ hz2]

set_option maxHeartbeats 1000000 in
/-- An odd step (the second condition holds, the first does not): from the two cache blocks at read contents and
    the four outputs it stores at anything, the body runs to the inputs as they were and the outputs at the copies. -/
theorem sound_kernel0_odd (c : Dev nD) (E : Set ℕ) (i : grid0.Coords) (h1 : ¬ k0_cond1 i = 1#1) (h2 : k0_cond2 i = 1#1)
    (arg2 : Memref sig .tc .vmem S1x256x1024 .f32) (harg2 : arg2.IsWhole) (arg3 : Memref sig .tc .vmem S1x256x1024 .f32) (harg3 : arg3.IsWhole)
    (arg4 : Memref sig .tc .vmem S1x256x1024 .f32) (harg4 : arg4.IsWhole) (arg5 : Memref sig .tc .vmem S1024x3072 .bf16) (harg5 : arg5.IsWhole)
    (arg6 : Memref sig .tc .vmem S1x3072 .f32) (harg6 : arg6.IsWhole) (arg7 : Memref sig .tc .vmem S1x256x1024 .bf16) (harg7 : arg7.IsWhole)
    (arg8 : Memref sig .tc .vmem S1x256x1024 .f32) (harg8 : arg8.IsWhole) (arg9 : Memref sig .tc .vmem S1x256x1024 .f32) (harg9 : arg9.IsWhole)
    (arg10 : Memref sig .tc .vmem S1x256x1024 .bf16) (harg10 : arg10.IsWhole) (arg11 : Memref sig .tc .vmem S1x256x1024 .bf16) (harg11 : arg11.IsWhole)
    (x1 : Vec F S1x256x1024 .f32) (x2 : Vec F S1x256x1024 .f32) (K : PUnit → sProp 𝕄) :
    iprop(owns (c : Thread nD τ) arg3 fullShare x1 ∗ owns (c : Thread nD τ) arg4 fullShare x2
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg3 fullShare x1 ∗ owns (c : Thread nD τ) arg4 fullShare x2
            ∗ owns (c : Thread nD τ) arg8 fullShare (k0_pay7 x1) ∗ owns (c : Thread nD τ) arg9 fullShare (k0_pay8 x2)
            ∗ owns (c : Thread nD τ) arg10 fullShare (k0_pay9 x1) ∗ owns (c : Thread nD τ) arg11 fullShare (k0_pay10 x2)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9 arg10 harg10 arg11 harg11) K := by
  simp only [cc0__proj_kernel_eq_skeleton]; unfold cc0__proj_kernel_skel
  unfold owns
  iintro ⟨⟨%f1, %hf1, H1⟩, ⟨%f2, %hf2, H2⟩, ⟨%d6, %f6, -, H6⟩, ⟨%d7, %f7, -, H7⟩, ⟨%d8, %f8, -, H8⟩, ⟨%d9, %f9, -, H9⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  isplitl [H6]
  · iexists _; isplitr
    swap; · iexact H6
    ipureintro
    rw [read_store_whole _ _ hz3, readAt_whole _ _ hz3]
  isplitl [H7]
  · iexists _; isplitr
    swap; · iexact H7
    ipureintro
    rw [read_store_whole _ _ hz3, readAt_whole _ _ hz3]
  isplitl [H8]
  · iexists _; isplitr
    swap; · iexact H8
    ipureintro
    rw [read_store_whole _ _ hz3, readAt_whole _ _ hz3]
  iexists _; isplitr
  swap; · iexact H9
  ipureintro
  rw [read_store_whole _ _ hz3, readAt_whole _ _ hz3]

/-! ## The step's parity, decided over the grid

The body branches on the parity of the second grid coordinate; along the 64 points that is the parity of the
point. The two conditions as the kernel computes them, and what the configuration's idle table says of the
output windows, checked point by point. -/

/-- The projection branch runs at the even points. -/
theorem proj_iff_even : ∀ t : Fin cfg0.N, k0_cond1 (grid0.coords t) = 1#1 ↔ t.val % 2 = 0 :=
  (by decide +kernel : ∀ t : Fin grid0.N, k0_cond1 (grid0.coords t) = 1#1 ↔ t.val % 2 = 0)
/-- The cache-copy branch runs at the odd points. -/
theorem copy_iff_odd : ∀ t : Fin cfg0.N, k0_cond2 (grid0.coords t) = 1#1 ↔ t.val % 2 = 1 :=
  (by decide +kernel : ∀ t : Fin grid0.N, k0_cond2 (grid0.coords t) = 1#1 ↔ t.val % 2 = 1)

/-- The query window is stored at the even points and left alone at the odd ones. -/
theorem query_live_even : ∀ t : Fin cfg0.N, t.val % 2 = 0 → cfg0.idle 5 (grid0.coords t) = false :=
  (by decide +kernel : ∀ t : Fin grid0.N, t.val % 2 = 0 → idle0 5 (grid0.coords t) = false)
/-- The key and value windows are stored at every point. -/
theorem key_live : ∀ t : Fin cfg0.N, cfg0.idle 6 (grid0.coords t) = false :=
  (by decide +kernel : ∀ t : Fin grid0.N, idle0 6 (grid0.coords t) = false)
theorem value_live : ∀ t : Fin cfg0.N, cfg0.idle 7 (grid0.coords t) = false :=
  (by decide +kernel : ∀ t : Fin grid0.N, idle0 7 (grid0.coords t) = false)
/-- The two shadow windows are stored at the odd points and left alone at the even ones, -/
theorem kshadow_idle_even : ∀ t : Fin cfg0.N, t.val % 2 = 0 → cfg0.idle 8 (grid0.coords t) = true :=
  (by decide +kernel : ∀ t : Fin grid0.N, t.val % 2 = 0 → idle0 8 (grid0.coords t) = true)
theorem kshadow_live_odd : ∀ t : Fin cfg0.N, t.val % 2 = 1 → cfg0.idle 8 (grid0.coords t) = false :=
  (by decide +kernel : ∀ t : Fin grid0.N, t.val % 2 = 1 → idle0 8 (grid0.coords t) = false)
theorem vshadow_idle_even : ∀ t : Fin cfg0.N, t.val % 2 = 0 → cfg0.idle 9 (grid0.coords t) = true :=
  (by decide +kernel : ∀ t : Fin grid0.N, t.val % 2 = 0 → idle0 9 (grid0.coords t) = true)
theorem vshadow_live_odd : ∀ t : Fin cfg0.N, t.val % 2 = 1 → cfg0.idle 9 (grid0.coords t) = false :=
  (by decide +kernel : ∀ t : Fin grid0.N, t.val % 2 = 1 → idle0 9 (grid0.coords t) = false)

/-! ## What an uncut window keeps, and the three shapes of a window's post -/

section Generic
variable {Λ : Idealize.SL.Sem.Labels} {cfg : Cfg sig Λ} {c : Dev nD} (dat : Dat τ (Elt F) Unit ℕ (UR sig nD τ) ℕ cfg c)

/-- A window whose blocks tile its array keeps, from one point to the next, all of what the body left. -/
theorem kept_uncut (w : Fin cfg.W) (t : Fin cfg.N) (hc : ∀ a, (cfg.win w).clip (cfg.grid.coords t) a = none)
    (d : (cfg.win w).block.Idx → Elt F (cfg.win w).elt) : dat.kept w t d = dat.after w t := by
  unfold Dat.kept
  rw [Pipeline.fill_of_clip_none w _ hc d (dat.after w t), Window.fill_cut]

/-- At a point where the body stores the window, the post is the buffer at `after`. -/
theorem leaves_stored (w : Fin cfg.W) (t : Fin cfg.N) (hi : cfg.idle w (cfg.grid.coords t) = false) :
    dat.leavesExact w t = owns c ((cfg.win w).stage (cfg.slots t w)) fullShare (dat.after w t) := by
  unfold Dat.leavesExact; rw [hi]

/-- At a point that writes the block back, stored there or not, the post is the buffer at `after`. -/
theorem leaves_written (w : Fin cfg.W) (t : Fin cfg.N) (hf : (cfg.win w).flush t = true) :
    dat.leavesExact w t = owns c ((cfg.win w).stage (cfg.slots t w)) fullShare (dat.after w t) := by
  unfold Dat.leavesExact; rw [hf]; cases cfg.idle w (cfg.grid.coords t) <;> rfl

end Generic

variable (V : (c : Dev nD) → (b : Ref sig .tc) → Buf (Elt F) ((c : Thread nD τ).loc b))

/-! ## What the body finds in each window's buffer

The five inputs hold their blocks at every point, fetched there or not. Of the outputs only the query window is
ever read back by the schedule: at an odd point it still holds what the even point before stored, which is the
query third for THIS point too, the pair index not having moved. The other outputs' buffers are fresh. -/

/-- The x block. -/
theorem before0_0 (c : Dev nD) (t : Fin cfg0.N) (d) : (dat0 V c).before 0 t d = iblk0 V c 0 t := by
  refine ((dat0 V c).before_in_eq_fetched 0 rfl (fun _ => rfl) (fun _ _ _ => rfl) (fun s => ?_) t d).trans ?_
  · rw [after0_0]; unfold Dat.blockOf iblk0; rw [A_eq0]; try rfl
  · unfold Dat.fetched Dat.blockOf iblk0; rw [A_eq0]; try rfl
/-- The cached key block. -/
theorem before0_1 (c : Dev nD) (t : Fin cfg0.N) (d) : (dat0 V c).before 1 t d = iblk0 V c 1 t := by
  refine ((dat0 V c).before_in_eq_fetched 1 rfl (fun _ => rfl) (fun _ _ _ => rfl) (fun s => ?_) t d).trans ?_
  · rw [after0_1]; unfold Dat.blockOf iblk0; rw [A_eq0]; try rfl
  · unfold Dat.fetched Dat.blockOf iblk0; rw [A_eq0]; try rfl
/-- The cached value block. -/
theorem before0_2 (c : Dev nD) (t : Fin cfg0.N) (d) : (dat0 V c).before 2 t d = iblk0 V c 2 t := by
  refine ((dat0 V c).before_in_eq_fetched 2 rfl (fun _ => rfl) (fun _ _ _ => rfl) (fun s => ?_) t d).trans ?_
  · rw [after0_2]; unfold Dat.blockOf iblk0; rw [A_eq0]; try rfl
  · unfold Dat.fetched Dat.blockOf iblk0; rw [A_eq0]; try rfl
/-- The fused weight matrix. -/
theorem before0_3 (c : Dev nD) (t : Fin cfg0.N) (d) : (dat0 V c).before 3 t d = iblk0 V c 3 t := by
  refine ((dat0 V c).before_in_eq_fetched 3 rfl (fun _ => rfl) (fun _ _ _ => rfl) (fun s => ?_) t d).trans ?_
  · rw [after0_3]; unfold Dat.blockOf iblk0; rw [A_eq0]; try rfl
  · unfold Dat.fetched Dat.blockOf iblk0; rw [A_eq0]; try rfl
/-- The fused bias. -/
theorem before0_4 (c : Dev nD) (t : Fin cfg0.N) (d) : (dat0 V c).before 4 t d = iblk0 V c 4 t := by
  refine ((dat0 V c).before_in_eq_fetched 4 rfl (fun _ => rfl) (fun _ _ _ => rfl) (fun s => ?_) t d).trans ?_
  · rw [after0_4]; unfold Dat.blockOf iblk0; rw [A_eq0]; try rfl
  · unfold Dat.fetched Dat.blockOf iblk0; rw [A_eq0]; try rfl

/-- The point before `t`. -/
abbrev prev (t : Fin cfg0.N) : Fin cfg0.N := ⟨t.val - 1, Nat.lt_of_le_of_lt (Nat.sub_le _ _) t.isLt⟩

/-- At an odd point the x block is the one of the even point before: no fetch came between, and the body leaves
    the block in place. -/
theorem x_block_odd (c : Dev nD) (t : Fin cfg0.N) (ht : t.val % 2 = 1) :
    (iblk0 V c 0 t : Vec F S1x256x1024 .f32) = iblk0 V c 0 (prev t) := by
  have hf : (cfg0.win 0).fetch t = false := Bool.eq_false_iff.mpr fun h => by have := (fetch0_0 t).mp h; omega
  exact (before0_0 V c t ((dat0 V c).after 0 t)).symm.trans
    (((dat0 V c).before_unfetched_in 0 rfl t hf (fun _ => rfl) _).trans
      ((kept_uncut (dat0 V c) 0 (prev t) (fun _ => rfl) _).trans (after0_0 V c (prev t))))
/-- So are the weights, -/
theorem w_block_odd (c : Dev nD) (t : Fin cfg0.N) (ht : t.val % 2 = 1) :
    (iblk0 V c 3 t : Vec F S1024x3072 .bf16) = iblk0 V c 3 (prev t) := by
  have hf : (cfg0.win 3).fetch t = false := Bool.eq_false_iff.mpr fun h => by have := (fetch0_3 t).mp h; omega
  exact (before0_3 V c t ((dat0 V c).after 3 t)).symm.trans
    (((dat0 V c).before_unfetched_in 3 rfl t hf (fun _ => rfl) _).trans
      ((kept_uncut (dat0 V c) 3 (prev t) (fun _ => rfl) _).trans (after0_3 V c (prev t))))
/-- and the bias. -/
theorem b_block_odd (c : Dev nD) (t : Fin cfg0.N) (ht : t.val % 2 = 1) :
    (iblk0 V c 4 t : Vec F S1x3072 .f32) = iblk0 V c 4 (prev t) := by
  have hf : (cfg0.win 4).fetch t = false := Bool.eq_false_iff.mpr fun h => by have := (fetch0_4 t).mp h; omega
  exact (before0_4 V c t ((dat0 V c).after 4 t)).symm.trans
    (((dat0 V c).before_unfetched_in 4 rfl t hf (fun _ => rfl) _).trans
      ((kept_uncut (dat0 V c) 4 (prev t) (fun _ => rfl) _).trans (after0_4 V c (prev t))))

/-- The query window at an even point: fresh (the first point, or the point before wrote the block back). -/
theorem before0_5_even (c : Dev nD) (t : Fin cfg0.N) (ht : t.val % 2 = 0) (d) : (dat0 V c).before 5 t d = d :=
  (dat0 V c).before_out_reset 5 rfl t (by
    by_cases h0 : t.val = 0
    · exact .inl h0
    · exact .inr ⟨h0, (flush0_5 (prev t)).mpr (by show (t.val - 1) % 2 = 1; omega)⟩) d

/-- The query window at an odd point: the query third the even point before stored, which is this point's. -/
theorem before0_5_odd (c : Dev nD) (t : Fin cfg0.N) (ht : t.val % 2 = 1) (d) :
    (dat0 V c).before 5 t d = (dat0 V c).after 5 t := by
  have h0 : t.val ≠ 0 := by omega
  have hfl : (cfg0.win 5).flush (prev t) = false := Bool.eq_false_iff.mpr fun h => by
    have := (flush0_5 (prev t)).mp h
    have e : (prev t).val = t.val - 1 := rfl
    omega
  rw [(dat0 V c).before_of_pos 5 t h0 ((cfg0.win 5).fetch_out rfl t) d, if_neg (by rw [hfl]; exact Bool.false_ne_true)]
  unfold Dat.left
  rw [query_live_even (prev t) (by show (t.val - 1) % 2 = 0; omega)]
  show (dat0 V c).kept 5 (prev t) d = _
  rw [kept_uncut (dat0 V c) 5 (prev t) (fun _ => rfl) d, after0_5, after0_5, ← x_block_odd V c t ht, ← w_block_odd V c t ht,
    ← b_block_odd V c t ht]

/-- The key window is written back at every point: fresh at each. -/
theorem before0_6 (c : Dev nD) (t : Fin cfg0.N) (d) : (dat0 V c).before 6 t d = d :=
  (dat0 V c).before_out_reset 6 rfl t (by
    by_cases h0 : t.val = 0
    · exact .inl h0
    · exact .inr ⟨h0, flush0_6 _⟩) d
/-- So is the value window. -/
theorem before0_7 (c : Dev nD) (t : Fin cfg0.N) (d) : (dat0 V c).before 7 t d = d :=
  (dat0 V c).before_out_reset 7 rfl t (by
    by_cases h0 : t.val = 0
    · exact .inl h0
    · exact .inr ⟨h0, flush0_7 _⟩) d

/-- The key shadow at an even point: fresh. -/
theorem before0_8_even (c : Dev nD) (t : Fin cfg0.N) (ht : t.val % 2 = 0) (d) : (dat0 V c).before 8 t d = d :=
  (dat0 V c).before_out_reset 8 rfl t (by
    by_cases h0 : t.val = 0
    · exact .inl h0
    · exact .inr ⟨h0, (flush0_8 (prev t)).mpr (by show (t.val - 1) % 2 = 1; omega)⟩) d
/-- The key shadow at any point: at an odd one what the even point before found, the body not having touched it. -/
theorem before0_8 (c : Dev nD) (t : Fin cfg0.N) (d) : (dat0 V c).before 8 t d = d := by
  by_cases ht : t.val % 2 = 0
  · exact before0_8_even V c t ht d
  · have h0 : t.val ≠ 0 := by omega
    have hfl : (cfg0.win 8).flush (prev t) = false := Bool.eq_false_iff.mpr fun h => by
      have := (flush0_8 (prev t)).mp h
      have e : (prev t).val = t.val - 1 := rfl
      omega
    rw [(dat0 V c).before_of_pos 8 t h0 ((cfg0.win 8).fetch_out rfl t) d, if_neg (by rw [hfl]; exact Bool.false_ne_true)]
    unfold Dat.left
    rw [kshadow_idle_even (prev t) (by show (t.val - 1) % 2 = 0; omega)]
    exact before0_8_even V c (prev t) (by show (t.val - 1) % 2 = 0; omega) d

/-- The value shadow likewise. -/
theorem before0_9_even (c : Dev nD) (t : Fin cfg0.N) (ht : t.val % 2 = 0) (d) : (dat0 V c).before 9 t d = d :=
  (dat0 V c).before_out_reset 9 rfl t (by
    by_cases h0 : t.val = 0
    · exact .inl h0
    · exact .inr ⟨h0, (flush0_9 (prev t)).mpr (by show (t.val - 1) % 2 = 1; omega)⟩) d
theorem before0_9 (c : Dev nD) (t : Fin cfg0.N) (d) : (dat0 V c).before 9 t d = d := by
  by_cases ht : t.val % 2 = 0
  · exact before0_9_even V c t ht d
  · have h0 : t.val ≠ 0 := by omega
    have hfl : (cfg0.win 9).flush (prev t) = false := Bool.eq_false_iff.mpr fun h => by
      have := (flush0_9 (prev t)).mp h
      have e : (prev t).val = t.val - 1 := rfl
      omega
    rw [(dat0 V c).before_of_pos 9 t h0 ((cfg0.win 9).fetch_out rfl t) d, if_neg (by rw [hfl]; exact Bool.false_ne_true)]
    unfold Dat.left
    rw [vshadow_idle_even (prev t) (by show (t.val - 1) % 2 = 0; omega)]
    exact before0_9_even V c (prev t) (by show (t.val - 1) % 2 = 0; omega) d

/-! ## The body obligation, at a generic point -/

/-- What the body is handed at point `t`: the invariant, nothing owed, and each window's current buffer at what it
    then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it hands back: each window's buffer at what the step leaves there, or, for a window the step neither
    stores nor writes back, as found. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t ∗ (dat0 V c).leavesExact 7 t
    ∗ (dat0 V c).leavesExact 8 t ∗ (dat0 V c).leavesExact 9 t)

set_option maxHeartbeats 4000000 in
/-- The body at any point, by the step's parity. Even: the projection triple on the x block, the weights and the
    bias; the cache windows pass through unread and the shadows untouched. Odd: the copy triple on the two cache
    blocks; the x block, the weights and the bias pass through, and the query window, which the step does not
    touch but the schedule writes back, already holds this point's query third. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl]
  rw [leaves_stored (dat0 V c) 0 t rfl, leaves_stored (dat0 V c) 1 t rfl, leaves_stored (dat0 V c) 2 t rfl,
    leaves_stored (dat0 V c) 3 t rfl, leaves_stored (dat0 V c) 4 t rfl, leaves_stored (dat0 V c) 6 t (key_live t),
    leaves_stored (dat0 V c) 7 t (value_live t)]
  simp only [before0_0, before0_1, before0_2, before0_3, before0_4]
  rw [after0_0, after0_1, after0_2, after0_3, after0_4, after0_6, after0_7]
  by_cases hp : t.val % 2 = 0
  · have h1 : k0_cond1 (grid0.coords t) = 1#1 := (proj_iff_even t).mpr hp
    have h2 : ¬ k0_cond2 (grid0.coords t) = 1#1 := fun h => by have := (copy_iff_odd t).mp h; omega
    rw [leaves_stored (dat0 V c) 5 t (query_live_even t hp),
      Dat.leavesExact_idle (dat0 V c) 8 t (kshadow_idle_even t hp) (Bool.eq_false_iff.mpr fun h => by have := (flush0_8 t).mp h; omega),
      Dat.leavesExact_idle (dat0 V c) 9 t (vshadow_idle_even t hp) (Bool.eq_false_iff.mpr fun h => by have := (flush0_9 t).mp h; omega),
      after0_5, if_pos h1, if_pos h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_even c Set.univ (grid0.coords t) h1 h2 _ _ _ _ _ _ _ _ _ _ _ _ _ _ _ _ _ _ _ _
      (iblk0 V c 0 t) (iblk0 V c 3 t) (iblk0 V c 4 t) _)
    isplitl [H0]; · iexact H0
    isplitl [H3]; · iexact H3
    isplitl [H4]; · iexact H4
    isplitl [H5]; · iexists _; iexact H5
    isplitl [H6]; · iexists _; iexact H6
    isplitl [H7]; · iexists _; iexact H7
    iintro ⟨H0, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · have hp' : t.val % 2 = 1 := by omega
    have h1 : ¬ k0_cond1 (grid0.coords t) = 1#1 := fun h => hp ((proj_iff_even t).mp h)
    have h2 : k0_cond2 (grid0.coords t) = 1#1 := (copy_iff_odd t).mpr hp'
    rw [leaves_written (dat0 V c) 5 t ((flush0_5 t).mpr hp'),
      leaves_stored (dat0 V c) 8 t (kshadow_live_odd t hp'), leaves_stored (dat0 V c) 9 t (vshadow_live_odd t hp'),
      after0_8, after0_9, if_neg h1, if_neg h1]
    simp only [before0_5_odd V c t hp']
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_odd c Set.univ (grid0.coords t) h1 h2 _ _ _ _ _ _ _ _ _ _ _ _ _ _ _ _ _ _ _ _
      (iblk0 V c 1 t) (iblk0 V c 2 t) _)
    isplitl [H1]; · iexact H1
    isplitl [H2]; · iexact H2
    isplitl [H6]; · iexists _; iexact H6
    isplitl [H7]; · iexists _; iexact H7
    isplitl [H8]; · iexists _; iexact H8
    isplitl [H9]; · iexists _; iexact H9
    iintro ⟨H1, H2, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

set_option maxRecDepth 65536 in
/-- The library's body obligation, at every point. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.Reg1Sched.lean ====
/-
  The second pallas_call's schedule, decided.

  Two constant tables give each of the 10 steps of a batch a query-block word and a key-block word. The body
  resets its running state at a step whose key-block word is 0 and stores the output at a step whose two words
  agree (its two conditions, as the program computes them); the output window's block index is (batch,
  query-block word, 0). Everything below is a fact of the two tables and the 40 points alone, checked point by
  point on copies of the tables' words that do not mention the float type, then carried to the words the proof data
  read: the resetting steps of a batch are 0, 1, 3, 6 (in particular the grid's first step resets); the storing
  steps are 0, 2, 5, 9; the output block index moves, or the grid ends, exactly after a storing step — so the
  pipeline writes the output block back at the storing steps and at no other, and the configuration's idle table
  calls the output window idle exactly at the steps that do not store.
-/
import proofs.«412249_j74225624809935_3_alg».proof.Proof.Data1
import Idealize.ShloMosaic.Lib.Pipeline.TableIdle

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The step's place in the tables lies inside them. -/
theorem step_inb : ∀ i : grid1.Coords, ∀ a, k1_off1 i a + 1 ≤ S10.size a := by decide +kernel

/-- The query-block word of a step, read off the first table's constants. -/
def qB (i : grid1.Coords) : BitVec 32 := lit0 (S10.rowMajor fun a => ⟨k1_off1 i a, step_inb i a⟩)
/-- The key-block word of a step, read off the second table's constants. -/
def kB (i : grid1.Coords) : BitVec 32 := lit1 (S10.rowMajor fun a => ⟨k1_off1 i a, step_inb i a⟩)

theorem qWord_eq (i : grid1.Coords) : qWord (F := F) i = qB i := by
  unfold qWord qB
  show (if h : ∀ a, k1_off1 i a + 1 ≤ S10.size a then (tbl (F := F)) 0 (fun a => ⟨k1_off1 i a, h a⟩) else default) = _
  rw [dif_pos (step_inb i)]; rfl

theorem kvWord_eq (i : grid1.Coords) : kvWord (F := F) i = kB i := by
  unfold kvWord kB
  show (if h : ∀ a, k1_off1 i a + 1 ≤ S10.size a then (tbl (F := F)) 1 (fun a => ⟨k1_off1 i a, h a⟩) else default) = _
  rw [dif_pos (step_inb i)]; rfl

/-- The output window's block index at a step: the batch, the step's query block, 0. -/
def oix (i : grid1.Coords) : Fin 3 → Nat :=
  ![(BitVec.ofNat 32 (i 0).val).toNat,
    (lit0 (S10.rowMajor ((Rect.unit (s := S10) ![(Scalar.indexCast (BitVec.ofNat 32 (i 1).val)).toNat] S1.size (k1_off1_inb i)).emb
      (Shape.Idx.first (numel1_S1.symm ▸ Nat.one_pos))))).toNat,
    (0#32 : BitVec 32).toNat]

theorem out_index_eq (i : grid1.Coords) : cc1_transform_3 k1_off1_inb numel1_S1 (tbl (F := F)) i = oix i := rfl

variable (hok : ok1 (F := F) (tbl (F := F)))

theorem out_index (t : Fin (cfgA hok).N) : ((cfgA hok).win (3 : Fin 4)).index t = oix (grid1.coords t) :=
  out_index_eq (F := F) (grid1.coords t)

/-- A row's first step resets: at the first point the key-block word is 0. -/
theorem first_resets_B : ∀ t : Fin grid1.N, t.val = 0 →
    Scalar.cmpi .ne (Scalar.extui (Scalar.cmpi .eq (kB (grid1.coords t)) 0#32)) 0#32 = 1#1 := by decide +kernel

/-- After a step that is not its row's last the output block index does not move, and the step is not the grid's last. -/
theorem no_store_B : ∀ t : Fin grid1.N, ¬(k1_cond2 (qB (grid1.coords t)) (kB (grid1.coords t)) = 1#1) →
    t.val + 1 ≠ grid1.N ∧ ∀ h : t.val + 1 < grid1.N, ∀ a, oix (grid1.coords ⟨t.val + 1, h⟩) a = oix (grid1.coords t) a := by
  decide +kernel

theorem first_resets (t : Fin (cfgA hok).N) (h0 : t.val = 0) :
    Scalar.cmpi .ne (Scalar.extui (Scalar.cmpi .eq (kvWord (F := F) ((cfgA hok).grid.coords t)) 0#32)) 0#32 = 1#1 := by
  rw [kvWord_eq]; exact first_resets_B t h0

theorem no_flush_of_no_store (t : Fin (cfgA hok).N)
    (h : ¬(k1_cond2 (qWord (F := F) ((cfgA hok).grid.coords t)) (kvWord (F := F) ((cfgA hok).grid.coords t)) = 1#1)) :
    ((cfgA hok).win (3 : Fin 4)).flush t = false := by
  rw [qWord_eq, kvWord_eq] at h
  obtain ⟨hN, hix⟩ := no_store_B t h
  refine Bool.eq_false_iff.mpr fun hf => ?_
  unfold Window.flush at hf
  simp only [Bool.and_eq_true, Bool.or_eq_true, decide_eq_true_eq] at hf
  obtain ⟨-, h1 | ⟨hlt, hne⟩⟩ := hf
  · exact hN h1
  · rw [out_index, out_index] at hne
    exact hne (funext (hix hlt))

/-! ## Which steps reset, which store, and where the output block is written back -/

/-- The steps of a batch whose key-block word is 0 (they reset the running state): steps 0, 1, 3, 6. -/
theorem reset_B_iff : ∀ t : Fin grid1.N,
    Scalar.cmpi .ne (Scalar.extui (Scalar.cmpi .eq (kB (grid1.coords t)) 0#32)) 0#32 = 1#1 ↔
      (t.val % 10 = 0 ∨ t.val % 10 = 1 ∨ t.val % 10 = 3 ∨ t.val % 10 = 6) := by decide +kernel

/-- The steps of a batch whose two words agree (they store the output): steps 0, 2, 5, 9. -/
theorem store_B_iff : ∀ t : Fin grid1.N, k1_cond2 (qB (grid1.coords t)) (kB (grid1.coords t)) = 1#1 ↔
    (t.val % 10 = 0 ∨ t.val % 10 = 2 ∨ t.val % 10 = 5 ∨ t.val % 10 = 9) := by decide +kernel

/-- After a storing step the output block index moves, or the grid ends. -/
theorem store_B_moves : ∀ t : Fin grid1.N, k1_cond2 (qB (grid1.coords t)) (kB (grid1.coords t)) = 1#1 →
    (t.val + 1 = grid1.N ∨ ∃ h : t.val + 1 < grid1.N, ∃ a, oix (grid1.coords ⟨t.val + 1, h⟩) a ≠ oix (grid1.coords t) a) := by
  decide +kernel

theorem sched_reset_iff (t : Fin (cfgA hok).N) :
    Scalar.cmpi .ne (Scalar.extui (Scalar.cmpi .eq (kvWord (F := F) ((cfgA hok).grid.coords t)) 0#32)) 0#32 = 1#1 ↔
      (t.val % 10 = 0 ∨ t.val % 10 = 1 ∨ t.val % 10 = 3 ∨ t.val % 10 = 6) := by
  rw [kvWord_eq]; exact reset_B_iff t

theorem sched_store_iff (t : Fin (cfgA hok).N) :
    k1_cond2 (qWord (F := F) ((cfgA hok).grid.coords t)) (kvWord (F := F) ((cfgA hok).grid.coords t)) = 1#1 ↔
      (t.val % 10 = 0 ∨ t.val % 10 = 2 ∨ t.val % 10 = 5 ∨ t.val % 10 = 9) := by
  rw [qWord_eq, kvWord_eq]; exact store_B_iff t

/-- The output block is written back at every storing step, -/
theorem flush_of_store (t : Fin (cfgA hok).N)
    (h : k1_cond2 (qWord (F := F) ((cfgA hok).grid.coords t)) (kvWord (F := F) ((cfgA hok).grid.coords t)) = 1#1) :
    ((cfgA hok).win (3 : Fin 4)).flush t = true := by
  rw [qWord_eq, kvWord_eq] at h
  unfold Window.flush
  simp only [Bool.and_eq_true, Bool.or_eq_true, decide_eq_true_eq]
  refine ⟨trivial, ?_⟩
  rcases store_B_moves t h with h1 | ⟨hlt, a, hne⟩
  · exact .inl h1
  · refine .inr ⟨hlt, fun he => hne ?_⟩
    have e := congrFun he a
    rwa [out_index, out_index] at e

/-- and only there. -/
theorem flush_iff_store (t : Fin (cfgA hok).N) :
    ((cfgA hok).win (3 : Fin 4)).flush t = true ↔
      k1_cond2 (qWord (F := F) ((cfgA hok).grid.coords t)) (kvWord (F := F) ((cfgA hok).grid.coords t)) = 1#1 := by
  refine ⟨fun hf => Classical.byContradiction fun hn => ?_, flush_of_store hok t⟩
  rw [no_flush_of_no_store hok t hn] at hf
  exact Bool.false_ne_true hf

/-- The configuration's idle table for the output window: idle exactly at the steps that do not store. -/
theorem out_idle_iff (t : Fin (cfgA hok).N) :
    (cfgA hok).idle (3 : Fin 4) ((cfgA hok).grid.coords t) = true ↔
      ¬(k1_cond2 (qWord (F := F) ((cfgA hok).grid.coords t)) (kvWord (F := F) ((cfgA hok).grid.coords t)) = 1#1) := by
  show (!(k1_cond2 (qWord (F := F) ((cfgA hok).grid.coords t)) (kvWord (F := F) ((cfgA hok).grid.coords t)) == 1#1)) = true ↔ _
  rw [Bool.not_eq_true', beq_eq_false_iff_ne]

theorem out_live_iff (t : Fin (cfgA hok).N) :
    (cfgA hok).idle (3 : Fin 4) ((cfgA hok).grid.coords t) = false ↔
      k1_cond2 (qWord (F := F) ((cfgA hok).grid.coords t)) (kvWord (F := F) ((cfgA hok).grid.coords t)) = 1#1 := by
  show (!(k1_cond2 (qWord (F := F) ((cfgA hok).grid.coords t)) (kvWord (F := F) ((cfgA hok).grid.coords t)) == 1#1)) = false ↔ _
  rw [Bool.not_eq_false', beq_iff_eq]

end Cert.KernelIdeal.Hand

end
-- ==== Proof.Reg1.lean ====
/-
  The second pallas_call — causal attention by blocks with a running maximum — as the pipeline rule's proof data, and
  its body obligation.

  A batch's ten steps walk the lower triangle of a 4 × 4 block matrix row by row; two constant tables give each step its
  query block `q` and its key block `kv ≤ q`. Three carried buffers hold a row's running maximum, normaliser and weighted
  sum. A step with `kv = 0` starts from the reset contents (-∞, 0, 0); every step folds its 512 × 512 tile of masked
  scores in (`fold1`); a step with `kv = q` stores the weighted sum over the normaliser into the output block, which is
  written back exactly there. So the body has four control paths, told apart by the two words it loads: reset or carry,
  store or not. For each the body's run is stated once over any whole staging buffers and any table contents that decide
  the two conditions so, and what it leaves is read back as the fold; at a grid point the case is the point's, the inputs'
  buffers hold their blocks, and where nothing is stored the output's buffer goes back as it came.

  The side condition on the tables (`tbl_ok`): every block index is (batch, a table word, 0) with both below 4.
-/
import proofs.«412249_j74225624809935_3_alg».proof.Proof.Data1
import proofs.«412249_j74225624809935_3_alg».proof.Proof.Reg1Sched
import Idealize.ShloMosaic.Lib.Tactic
import Idealize.ShloMosaic.Lib.Exec
import Idealize.ShloMosaic.Lib.Pipeline.TableIdle
import Idealize.ShloMosaic.Lib.Pipeline.FrameBody
import Idealize.ShloMosaic.Lib.Pipeline.Frame
import Idealize.ShloMosaic.Lib.Pipeline.Kit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The two tables and the three carried buffers as the kernel is handed them: whole. -/
abbrev tbQ : Memref sig .tc .smem S10 .i32 := Memref.whole main_c
abbrev tbK : Memref sig .tc .smem S10 .i32 := Memref.whole main_c_0
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2

/-- The word a scalar load at the point's step reads of contents `T` of the query-block table, of the key-block table. -/
abbrev wordQ (T : S10.Idx → Elt F .i32) (i : grid1.Coords) : Elt F .i32 :=
  View.readAt (Elt F) tbQ.view (Rect.unit (s := S10) (k1_off1 i) S1.size (k1_off1_inb i)).toLoadRect T (Shape.Idx.first (numel1_S1.symm ▸ Nat.one_pos))
abbrev wordK (T : S10.Idx → Elt F .i32) (i : grid1.Coords) : Elt F .i32 :=
  View.readAt (Elt F) tbK.view (Rect.unit (s := S10) (k1_off1 i) S1.size (k1_off1_inb i)).toLoadRect T (Shape.Idx.first (numel1_S1.symm ▸ Nat.one_pos))

/-- Whether the step resets the carried buffers (its key block is the row's first). -/
abbrev Resets1 (v3 : BitVec 32) : Prop := Scalar.cmpi .ne (Scalar.extui (Scalar.cmpi .eq v3 0#32)) 0#32 = 1#1

/-- A block `(b, q, 0)` of extents 1 × 512 × 1024 with `b, q < 4` lies inside the 4 × 2048 × 1024 array, and its rows are
    whole rows of the array (so its ends are word-exact at a two-per-word element type too). -/
theorem r1_blk_facts : ∀ (b q : Fin 4), ∃ h : (∀ a, (![b.val, q.val, 0] a + 1) * S1x512x1024.size a ≤ S4x2048x1024.size a),
    (Rect.block (s := S4x2048x1024) S1x512x1024.size ![b.val, q.val, 0] h).WholeWords 2 := by decide +kernel

/-- Every word of either table names one of the four block rows. -/
theorem r1_lit_lt : ∀ s : Fin 10, (lit0 s).toNat < 4 ∧ (lit1 s).toNat < 4 := by decide

theorem r1_blk_ok (e : EltTy) (he : e.bits = 32 ∨ e.packing = 2) (T : Fin 3 → ℕ) (b q : ℕ) (hb : b < 4) (hq : q < 4) (hT : T = ![b, q, 0]) :
    ∃ h : (∀ a, (T a + 1) * S1x512x1024.size a ≤ S4x2048x1024.size a), e.bits = 32 ∨ (Rect.block (s := S4x2048x1024) S1x512x1024.size T h).WholeWords e.packing := by
  subst hT
  obtain ⟨h, hw⟩ := r1_blk_facts ⟨b, hb⟩ ⟨q, hq⟩
  refine ⟨h, ?_⟩
  rcases he with he | he
  · exact .inl he
  · rw [he]; exact .inr hw

theorem r1_batch_lt (i : grid1.Coords) : (BitVec.ofNat 32 (i 0).val).toNat < 4 := by
  rw [BitVec.toNat_ofNat]; exact lt_of_le_of_lt (Nat.mod_le _ _) (i 0).isLt

/-- THE SIDE CONDITION at the constant tables: every window's block index is (batch, a table word, 0) with the batch and the
    word below 4, so every block lies inside its array and spans whole rows of it. -/
theorem tbl_ok : ok1 (F := F) (tbl (F := F)) := by
  refine ⟨fun i => ?_, fun i => ?_, fun i => ?_, fun i => ?_⟩
  · exact r1_blk_ok .bf16 (.inr rfl) _ _ _ (r1_batch_lt i) (r1_lit_lt _).1 rfl
  · exact r1_blk_ok .bf16 (.inr rfl) _ _ _ (r1_batch_lt i) (r1_lit_lt _).2 rfl
  · exact r1_blk_ok .bf16 (.inr rfl) _ _ _ (r1_batch_lt i) (r1_lit_lt _).2 rfl
  · exact r1_blk_ok .f32 (.inl rfl) _ _ _ (r1_batch_lt i) (r1_lit_lt _).1 rfl

/-- ONE STEP's fold of a tile of masked scores into carried contents `p` (running maximum, normaliser, weighted sum). -/
def fold1 (v1 v3 : Elt F .i32) (qb kb vb : Vec F S1x512x1024 .bf16) (p : St1 F) : St1 F :=
  let s27 := k1_pay10 v1 v3 qb kb
  let m31 := k1_pay11 v1 v3 qb kb p.1
  let a34 := k1_pay12 v1 v3 qb kb p.1 p.1
  let b35 := k1_pay13 v1 v3 qb kb p.1
  (k1_pay4 m31, k1_pay2 s27 a34 b35 p.2.1, k1_pay3 (k1_pay9 vb) s27 a34 b35 p.2.2)

/-- A whole buffer written over junk holds the canonical contents of the writes. -/
theorem r1_whole_writes_junk (b : Ref sig .tc) (L : List (View.Piece (Elt F) b.ty.shape b.ty.elt)) :
    (View.whole b).writes (Elt F) (View.whole b).junk L = View.canon L :=
  View.read_writes_junk_eq_canon (Val := Elt F) (View.whole b) L

theorem r1_hz2 : (![0, 0] : Fin 2 → ℕ) = fun _ => 0 := by funext a; fin_cases a <;> rfl
theorem r1_hz3 : (![0, 0, 0] : Fin 3 → ℕ) = fun _ => 0 := by funext a; fin_cases a <;> rfl

/-- A load of a whole staging buffer held at the canonical contents of a block reads the block. -/
theorem r1_rd_rep {sp : Space} {S : Shape} {e : EltTy} (m : Memref sig .tc sp S e) (x : S.Idx → Elt F e)
    {off : Fin S.rank → ℕ} (h : off = fun _ => 0) (inb : ∀ a, off a + S.size a ≤ S.size a) :
    View.readAt (Elt F) m.view (Rect.unit off S.size inb).toLoadRect (m.view.rep x) = x := by
  show View.ld (m.view.read (Elt F) (m.view.rep x)) (Rect.unit off S.size inb) = x
  rw [View.read_rep]; exact View.ld_unit_zero h inb x

/-- A load of a whole buffer through its whole shape reads its contents. -/
theorem r1_rd_whole (b : Ref sig .tc) (f : b.ty.Contents (Elt F))
    {off : Fin b.ty.shape.rank → ℕ} (h : off = fun _ => 0) (inb : ∀ a, off a + b.ty.shape.size a ≤ b.ty.shape.size a) :
    View.readAt (Elt F) (View.whole b) (Rect.unit off b.ty.shape.size inb).toLoadRect f = f :=
  View.ld_unit_zero (Val := Elt F) h inb f

/-- A load through the whole shape after stores the last of which was through the whole shape reads that store's payload. -/
theorem r1_rc_cons {sp : Space} {S : Shape} {e : EltTy} (v : View sig .tc sp S e)
    {off : Fin S.rank → ℕ} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon', View.canon_cons_unit_zero h inb w L]
  exact View.ld_unit_zero h inb w

/-- A load of a carried buffer through its whole shape reads its contents. -/
theorem r1_rd_M (f : Vec F S512x1 .f32) (inb : ∀ a, (![0, 0] : Fin 2 → ℕ) a + S512x1.size a ≤ S512x1.size a) :
    View.readAt (s := S512x1) (e := .f32) (Elt F) (View.whole cc1_scratch0) (Rect.unit (s := S512x1) ![0, 0] S512x1.size inb).toLoadRect f = f :=
  View.ld_unit_zero (Val := Elt F) (S := S512x1) r1_hz2 inb f
theorem r1_rd_L (f : Vec F S512x1 .f32) (inb : ∀ a, (![0, 0] : Fin 2 → ℕ) a + S512x1.size a ≤ S512x1.size a) :
    View.readAt (s := S512x1) (e := .f32) (Elt F) (View.whole cc1_scratch1) (Rect.unit (s := S512x1) ![0, 0] S512x1.size inb).toLoadRect f = f :=
  View.ld_unit_zero (Val := Elt F) (S := S512x1) r1_hz2 inb f
theorem r1_rd_A (f : Vec F S512x1024 .f32) (inb : ∀ a, (![0, 0] : Fin 2 → ℕ) a + S512x1024.size a ≤ S512x1024.size a) :
    View.readAt (s := S512x1024) (e := .f32) (Elt F) (View.whole cc1_scratch2) (Rect.unit (s := S512x1024) ![0, 0] S512x1024.size inb).toLoadRect f = f :=
  View.ld_unit_zero (Val := Elt F) (S := S512x1024) r1_hz2 inb f

/-- A buffer stored through its whole shape reads the payload, whatever it held. -/
theorem r1_read_store_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon (Val := Elt F) v f _ (fun y => ⟨_, List.mem_singleton_self _, View.mem_set_unit_zero h inb y⟩)]
  exact View.canon_unit_zero h inb w
set_option maxHeartbeats 8000000 in
/-- THE BODY at a step that resets the carried buffers and stores the output block: what it leaves in the carried
    buffers and the pieces it stores into the output's staging buffer, with the run that shows it — on whole staging memrefs holding the query, key and value
    blocks, the tables at any words that decide the two conditions so, the carried buffers at anything. -/
noncomputable def runRS (c : Dev nD) (i : grid1.Coords)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .f32) (harg7 : arg7.IsWhole)
    (T0 T1 : S10.Idx → Elt F .i32) (xq xk xv : S1x512x1024.Idx → Elt F .bf16)
    (hr : Resets1 (wordK (F := F) T1 i)) (hs : k1_cond2 (wordQ (F := F) T0 i) (wordK (F := F) T1 i) = 1#1) :
    Σ' (o7 : List (View.Piece (Elt F) S1x512x1024 .f32)), { o : St1 F //
      ∀ (a0 : Vec F S512x1 .f32) (a1 : Vec F S512x1 .f32) (a2 : Vec F S512x1024 .f32) (K : PUnit → sProp 𝕄),
        iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (∃ d, owns (c : Thread nD τ) arg7 fullShare d)
          ∗ (scM.view.loc (c : Thread nD τ) ↦{fullShare} a0) ∗ (scL.view.loc (c : Thread nD τ) ↦{fullShare} a1) ∗ (scA.view.loc (c : Thread nD τ) ↦{fullShare} a2)
          ∗ (iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (∃ f, arg7.view.loc (c : Thread nD τ) ↦[arg7.view.set]{fullShare} arg7.view.writes (Elt F) f o7)
              ∗ (scM.view.loc (c : Thread nD τ) ↦{fullShare} o.1) ∗ (scL.view.loc (c : Thread nD τ) ↦{fullShare} o.2.1) ∗ (scA.view.loc (c : Thread nD τ) ↦{fullShare} o.2.2)) -∗ K ⟨⟩))
          ⊢ wp frame (wpE (defs₀ (F := F)) Variants.none c none) Set.univ
              (cc1__flash_kernel i tbQ (Memref.isWhole_whole _) tbK (Memref.isWhole_whole _) arg4 harg4 arg5 harg5 arg6 harg6 arg7 harg7 scM (Memref.isWhole_whole _) scL (Memref.isWhole_whole _) scA (Memref.isWhole_whole _)) K } :=
  ⟨_, ⟨_, _, _⟩, fun a0 a1 a2 K => by
    unfold owns
    rw [cc1__flash_kernel_eq_skeleton]; unfold cc1__flash_kernel_skel
    rw [k1_part1_eq_skeleton]; unfold k1_part1_skel
    iintro ⟨HT0, HT1, H4, H5, H6, ⟨%d7, %f7, -, H7⟩, HS0, HS1, HS2, Hk⟩
    sl_exec! (disch := first | (guard_target = Scalar.cmpi _ _ _ = _; exact hr) | (guard_target = k1_cond2 _ _ = _; exact hs))
    sl_step
    iapply Hk
    isplitl [HT0]; · iexact HT0
    isplitl [HT1]; · iexact HT1
    isplitl [H4]; · iexact H4
    isplitl [H5]; · iexact H5
    isplitl [H6]; · iexact H6
    isplitl [H7]; · iexists _; iexact H7
    isplitl [HS0]; · iexact HS0
    isplitl [HS1]; · iexact HS1
    iexact HS2⟩

set_option maxHeartbeats 8000000 in
/-- THE BODY at a step that resets the carried buffers and stores no output: what it leaves in the carried
    buffers, with the run that shows it — on whole staging memrefs holding the query, key and value
    blocks, the tables at any words that decide the two conditions so, the carried buffers at anything. -/
noncomputable def runRN (c : Dev nD) (i : grid1.Coords)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .f32) (harg7 : arg7.IsWhole)
    (T0 T1 : S10.Idx → Elt F .i32) (xq xk xv : S1x512x1024.Idx → Elt F .bf16)
    (hr : Resets1 (wordK (F := F) T1 i)) (hs : ¬(k1_cond2 (wordQ (F := F) T0 i) (wordK (F := F) T1 i) = 1#1)) :
    { o : St1 F //
      ∀ (a0 : Vec F S512x1 .f32) (a1 : Vec F S512x1 .f32) (a2 : Vec F S512x1024 .f32) (K : PUnit → sProp 𝕄),
        iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (scM.view.loc (c : Thread nD τ) ↦{fullShare} a0) ∗ (scL.view.loc (c : Thread nD τ) ↦{fullShare} a1) ∗ (scA.view.loc (c : Thread nD τ) ↦{fullShare} a2)
          ∗ (iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
              ∗ (scM.view.loc (c : Thread nD τ) ↦{fullShare} o.1) ∗ (scL.view.loc (c : Thread nD τ) ↦{fullShare} o.2.1) ∗ (scA.view.loc (c : Thread nD τ) ↦{fullShare} o.2.2)) -∗ K ⟨⟩))
          ⊢ wp frame (wpE (defs₀ (F := F)) Variants.none c none) Set.univ
              (cc1__flash_kernel i tbQ (Memref.isWhole_whole _) tbK (Memref.isWhole_whole _) arg4 harg4 arg5 harg5 arg6 harg6 arg7 harg7 scM (Memref.isWhole_whole _) scL (Memref.isWhole_whole _) scA (Memref.isWhole_whole _)) K } :=
  ⟨⟨_, _, _⟩, fun a0 a1 a2 K => by
    rw [cc1__flash_kernel_eq_skeleton]; unfold cc1__flash_kernel_skel
    rw [k1_part1_eq_skeleton]; unfold k1_part1_skel
    iintro ⟨HT0, HT1, H4, H5, H6, HS0, HS1, HS2, Hk⟩
    sl_exec! (disch := first | (guard_target = Scalar.cmpi _ _ _ = _; exact hr) | (guard_target = ¬(k1_cond2 _ _ = _); exact hs))
    sl_step
    iapply Hk
    isplitl [HT0]; · iexact HT0
    isplitl [HT1]; · iexact HT1
    isplitl [H4]; · iexact H4
    isplitl [H5]; · iexact H5
    isplitl [H6]; · iexact H6
    isplitl [HS0]; · iexact HS0
    isplitl [HS1]; · iexact HS1
    iexact HS2⟩

set_option maxHeartbeats 8000000 in
/-- THE BODY at a step that carries them from the step before and stores the output block: what it leaves in the carried
    buffers and the pieces it stores into the output's staging buffer, with the run that shows it — on whole staging memrefs holding the query, key and value
    blocks, the tables at any words that decide the two conditions so, the carried buffers at `p`. -/
noncomputable def runCS (c : Dev nD) (i : grid1.Coords)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .f32) (harg7 : arg7.IsWhole)
    (T0 T1 : S10.Idx → Elt F .i32) (xq xk xv : S1x512x1024.Idx → Elt F .bf16) (p : St1 F)
    (hr : ¬Resets1 (wordK (F := F) T1 i)) (hs : k1_cond2 (wordQ (F := F) T0 i) (wordK (F := F) T1 i) = 1#1) :
    Σ' (o7 : List (View.Piece (Elt F) S1x512x1024 .f32)), { o : St1 F //
      ∀ (K : PUnit → sProp 𝕄),
        iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (∃ d, owns (c : Thread nD τ) arg7 fullShare d)
          ∗ (scM.view.loc (c : Thread nD τ) ↦{fullShare} p.1) ∗ (scL.view.loc (c : Thread nD τ) ↦{fullShare} p.2.1) ∗ (scA.view.loc (c : Thread nD τ) ↦{fullShare} p.2.2)
          ∗ (iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (∃ f, arg7.view.loc (c : Thread nD τ) ↦[arg7.view.set]{fullShare} arg7.view.writes (Elt F) f o7)
              ∗ (scM.view.loc (c : Thread nD τ) ↦{fullShare} o.1) ∗ (scL.view.loc (c : Thread nD τ) ↦{fullShare} o.2.1) ∗ (scA.view.loc (c : Thread nD τ) ↦{fullShare} o.2.2)) -∗ K ⟨⟩))
          ⊢ wp frame (wpE (defs₀ (F := F)) Variants.none c none) Set.univ
              (cc1__flash_kernel i tbQ (Memref.isWhole_whole _) tbK (Memref.isWhole_whole _) arg4 harg4 arg5 harg5 arg6 harg6 arg7 harg7 scM (Memref.isWhole_whole _) scL (Memref.isWhole_whole _) scA (Memref.isWhole_whole _)) K } :=
  ⟨_, ⟨_, _, _⟩, fun K => by
    unfold owns
    rw [cc1__flash_kernel_eq_skeleton]; unfold cc1__flash_kernel_skel
    rw [k1_part1_eq_skeleton]; unfold k1_part1_skel
    iintro ⟨HT0, HT1, H4, H5, H6, ⟨%d7, %f7, -, H7⟩, HS0, HS1, HS2, Hk⟩
    sl_exec! (disch := first | (guard_target = ¬(Scalar.cmpi _ _ _ = _); exact hr) | (guard_target = k1_cond2 _ _ = _; exact hs))
    sl_step
    iapply Hk
    isplitl [HT0]; · iexact HT0
    isplitl [HT1]; · iexact HT1
    isplitl [H4]; · iexact H4
    isplitl [H5]; · iexact H5
    isplitl [H6]; · iexact H6
    isplitl [H7]; · iexists _; iexact H7
    isplitl [HS0]; · iexact HS0
    isplitl [HS1]; · iexact HS1
    iexact HS2⟩

set_option maxHeartbeats 8000000 in
/-- THE BODY at a step that carries them from the step before and stores no output: what it leaves in the carried
    buffers, with the run that shows it — on whole staging memrefs holding the query, key and value
    blocks, the tables at any words that decide the two conditions so, the carried buffers at `p`. -/
noncomputable def runCN (c : Dev nD) (i : grid1.Coords)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .f32) (harg7 : arg7.IsWhole)
    (T0 T1 : S10.Idx → Elt F .i32) (xq xk xv : S1x512x1024.Idx → Elt F .bf16) (p : St1 F)
    (hr : ¬Resets1 (wordK (F := F) T1 i)) (hs : ¬(k1_cond2 (wordQ (F := F) T0 i) (wordK (F := F) T1 i) = 1#1)) :
    { o : St1 F //
      ∀ (K : PUnit → sProp 𝕄),
        iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (scM.view.loc (c : Thread nD τ) ↦{fullShare} p.1) ∗ (scL.view.loc (c : Thread nD τ) ↦{fullShare} p.2.1) ∗ (scA.view.loc (c : Thread nD τ) ↦{fullShare} p.2.2)
          ∗ (iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
              ∗ (scM.view.loc (c : Thread nD τ) ↦{fullShare} o.1) ∗ (scL.view.loc (c : Thread nD τ) ↦{fullShare} o.2.1) ∗ (scA.view.loc (c : Thread nD τ) ↦{fullShare} o.2.2)) -∗ K ⟨⟩))
          ⊢ wp frame (wpE (defs₀ (F := F)) Variants.none c none) Set.univ
              (cc1__flash_kernel i tbQ (Memref.isWhole_whole _) tbK (Memref.isWhole_whole _) arg4 harg4 arg5 harg5 arg6 harg6 arg7 harg7 scM (Memref.isWhole_whole _) scL (Memref.isWhole_whole _) scA (Memref.isWhole_whole _)) K } :=
  ⟨⟨_, _, _⟩, fun K => by
    rw [cc1__flash_kernel_eq_skeleton]; unfold cc1__flash_kernel_skel
    rw [k1_part1_eq_skeleton]; unfold k1_part1_skel
    iintro ⟨HT0, HT1, H4, H5, H6, HS0, HS1, HS2, Hk⟩
    sl_exec! (disch := first | (guard_target = ¬(Scalar.cmpi _ _ _ = _); exact hr) | (guard_target = ¬(k1_cond2 _ _ = _); exact hs))
    sl_step
    iapply Hk
    isplitl [HT0]; · iexact HT0
    isplitl [HT1]; · iexact HT1
    isplitl [H4]; · iexact H4
    isplitl [H5]; · iexact H5
    isplitl [H6]; · iexact H6
    isplitl [HS0]; · iexact HS0
    isplitl [HS1]; · iexact HS1
    iexact HS2⟩

/-- What that run leaves in the carried buffers is the step's fold of the tile into the reset contents. -/
theorem runRS_eq (c : Dev nD) (i : grid1.Coords)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .f32) (harg7 : arg7.IsWhole)
    (T0 T1 : S10.Idx → Elt F .i32) (xq xk xv : S1x512x1024.Idx → Elt F .bf16)
    (hr : Resets1 (wordK (F := F) T1 i)) (hs : k1_cond2 (wordQ (F := F) T0 i) (wordK (F := F) T1 i) = 1#1) :
    (runRS c i arg4 harg4 arg5 harg5 arg6 harg6 arg7 harg7 T0 T1 xq xk xv hr hs).2.1 = fold1 (wordQ T0 i) (wordK T1 i) xq xk xv (k1_pay6, k1_pay7, k1_pay8) := by
  unfold runRS fold1
  dsimp only
  sl_unfold_run_names
  refine congrArg₂ Prod.mk ?_ (congrArg₂ Prod.mk ?_ ?_)
  · refine ((r1_whole_writes_junk (F := F) cc1_scratch0 _).trans (View.canon_cons_unit_zero (Val := Elt F) (S := S512x1) r1_hz2 _ _ _)).trans ?_
    simp only [r1_rd_rep (F := F) (S := S1x512x1024) _ _ r1_hz3, r1_rd_M (F := F), r1_rd_L (F := F), r1_rd_A (F := F),
      r1_rc_cons (F := F) scM.view r1_hz2, r1_rc_cons (F := F) scL.view r1_hz2, r1_rc_cons (F := F) scA.view r1_hz2]
  · refine ((r1_whole_writes_junk (F := F) cc1_scratch1 _).trans (View.canon_cons_unit_zero (Val := Elt F) (S := S512x1) r1_hz2 _ _ _)).trans ?_
    simp only [r1_rd_rep (F := F) (S := S1x512x1024) _ _ r1_hz3, r1_rd_M (F := F), r1_rd_L (F := F), r1_rd_A (F := F),
      r1_rc_cons (F := F) scM.view r1_hz2, r1_rc_cons (F := F) scL.view r1_hz2, r1_rc_cons (F := F) scA.view r1_hz2]
  · refine ((r1_whole_writes_junk (F := F) cc1_scratch2 _).trans (View.canon_cons_unit_zero (Val := Elt F) (S := S512x1024) r1_hz2 _ _ _)).trans ?_
    simp only [r1_rd_rep (F := F) (S := S1x512x1024) _ _ r1_hz3, r1_rd_M (F := F), r1_rd_L (F := F), r1_rd_A (F := F),
      r1_rc_cons (F := F) scM.view r1_hz2, r1_rc_cons (F := F) scL.view r1_hz2, r1_rc_cons (F := F) scA.view r1_hz2]

/-- and the output's staging buffer, whatever it held, reads the weighted sum over the normaliser. -/
theorem runRS_out (c : Dev nD) (i : grid1.Coords)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .f32) (harg7 : arg7.IsWhole)
    (T0 T1 : S10.Idx → Elt F .i32) (xq xk xv : S1x512x1024.Idx → Elt F .bf16)
    (hr : Resets1 (wordK (F := F) T1 i)) (hs : k1_cond2 (wordQ (F := F) T0 i) (wordK (F := F) T1 i) = 1#1) (f : arg7.view.ty.Contents (Elt F)) :
    arg7.view.read (Elt F) (arg7.view.writes (Elt F) f (runRS c i arg4 harg4 arg5 harg5 arg6 harg6 arg7 harg7 T0 T1 xq xk xv hr hs).1)
      = k1_pay5 (fold1 (wordQ T0 i) (wordK T1 i) xq xk xv (k1_pay6, k1_pay7, k1_pay8)).2.2 (fold1 (wordQ T0 i) (wordK T1 i) xq xk xv (k1_pay6, k1_pay7, k1_pay8)).2.1 := by
  unfold runRS fold1
  dsimp only
  sl_unfold_run_names
  refine (r1_read_store_whole (F := F) (S := S1x512x1024) arg7.view f r1_hz3 _ _).trans ?_
  simp only [r1_rd_rep (F := F) (S := S1x512x1024) _ _ r1_hz3, r1_rd_M (F := F), r1_rd_L (F := F), r1_rd_A (F := F),
      r1_rc_cons (F := F) scM.view r1_hz2, r1_rc_cons (F := F) scL.view r1_hz2, r1_rc_cons (F := F) scA.view r1_hz2]

/-- What that run leaves in the carried buffers is the step's fold of the tile into the reset contents. -/
theorem runRN_eq (c : Dev nD) (i : grid1.Coords)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .f32) (harg7 : arg7.IsWhole)
    (T0 T1 : S10.Idx → Elt F .i32) (xq xk xv : S1x512x1024.Idx → Elt F .bf16)
    (hr : Resets1 (wordK (F := F) T1 i)) (hs : ¬(k1_cond2 (wordQ (F := F) T0 i) (wordK (F := F) T1 i) = 1#1)) :
    (runRN c i arg4 harg4 arg5 harg5 arg6 harg6 arg7 harg7 T0 T1 xq xk xv hr hs).1 = fold1 (wordQ T0 i) (wordK T1 i) xq xk xv (k1_pay6, k1_pay7, k1_pay8) := by
  unfold runRN fold1
  dsimp only
  sl_unfold_run_names
  refine congrArg₂ Prod.mk ?_ (congrArg₂ Prod.mk ?_ ?_)
  · refine ((r1_whole_writes_junk (F := F) cc1_scratch0 _).trans (View.canon_cons_unit_zero (Val := Elt F) (S := S512x1) r1_hz2 _ _ _)).trans ?_
    simp only [r1_rd_rep (F := F) (S := S1x512x1024) _ _ r1_hz3, r1_rd_M (F := F), r1_rd_L (F := F), r1_rd_A (F := F),
      r1_rc_cons (F := F) scM.view r1_hz2, r1_rc_cons (F := F) scL.view r1_hz2, r1_rc_cons (F := F) scA.view r1_hz2]
  · refine ((r1_whole_writes_junk (F := F) cc1_scratch1 _).trans (View.canon_cons_unit_zero (Val := Elt F) (S := S512x1) r1_hz2 _ _ _)).trans ?_
    simp only [r1_rd_rep (F := F) (S := S1x512x1024) _ _ r1_hz3, r1_rd_M (F := F), r1_rd_L (F := F), r1_rd_A (F := F),
      r1_rc_cons (F := F) scM.view r1_hz2, r1_rc_cons (F := F) scL.view r1_hz2, r1_rc_cons (F := F) scA.view r1_hz2]
  · refine ((r1_whole_writes_junk (F := F) cc1_scratch2 _).trans (View.canon_cons_unit_zero (Val := Elt F) (S := S512x1024) r1_hz2 _ _ _)).trans ?_
    simp only [r1_rd_rep (F := F) (S := S1x512x1024) _ _ r1_hz3, r1_rd_M (F := F), r1_rd_L (F := F), r1_rd_A (F := F),
      r1_rc_cons (F := F) scM.view r1_hz2, r1_rc_cons (F := F) scL.view r1_hz2, r1_rc_cons (F := F) scA.view r1_hz2]

/-- What that run leaves in the carried buffers is the step's fold of the tile into `p`. -/
theorem runCS_eq (c : Dev nD) (i : grid1.Coords)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .f32) (harg7 : arg7.IsWhole)
    (T0 T1 : S10.Idx → Elt F .i32) (xq xk xv : S1x512x1024.Idx → Elt F .bf16) (p : St1 F)
    (hr : ¬Resets1 (wordK (F := F) T1 i)) (hs : k1_cond2 (wordQ (F := F) T0 i) (wordK (F := F) T1 i) = 1#1) :
    (runCS c i arg4 harg4 arg5 harg5 arg6 harg6 arg7 harg7 T0 T1 xq xk xv p hr hs).2.1 = fold1 (wordQ T0 i) (wordK T1 i) xq xk xv p := by
  unfold runCS fold1
  dsimp only
  sl_unfold_run_names
  refine congrArg₂ Prod.mk ?_ (congrArg₂ Prod.mk ?_ ?_)
  · refine ((r1_whole_writes_junk (F := F) cc1_scratch0 _).trans (View.canon_cons_unit_zero (Val := Elt F) (S := S512x1) r1_hz2 _ _ _)).trans ?_
    simp only [r1_rd_rep (F := F) (S := S1x512x1024) _ _ r1_hz3, r1_rd_M (F := F), r1_rd_L (F := F), r1_rd_A (F := F),
      r1_rc_cons (F := F) scM.view r1_hz2, r1_rc_cons (F := F) scL.view r1_hz2, r1_rc_cons (F := F) scA.view r1_hz2]
  · refine ((r1_whole_writes_junk (F := F) cc1_scratch1 _).trans (View.canon_cons_unit_zero (Val := Elt F) (S := S512x1) r1_hz2 _ _ _)).trans ?_
    simp only [r1_rd_rep (F := F) (S := S1x512x1024) _ _ r1_hz3, r1_rd_M (F := F), r1_rd_L (F := F), r1_rd_A (F := F),
      r1_rc_cons (F := F) scM.view r1_hz2, r1_rc_cons (F := F) scL.view r1_hz2, r1_rc_cons (F := F) scA.view r1_hz2]
  · refine ((r1_whole_writes_junk (F := F) cc1_scratch2 _).trans (View.canon_cons_unit_zero (Val := Elt F) (S := S512x1024) r1_hz2 _ _ _)).trans ?_
    simp only [r1_rd_rep (F := F) (S := S1x512x1024) _ _ r1_hz3, r1_rd_M (F := F), r1_rd_L (F := F), r1_rd_A (F := F),
      r1_rc_cons (F := F) scM.view r1_hz2, r1_rc_cons (F := F) scL.view r1_hz2, r1_rc_cons (F := F) scA.view r1_hz2]

/-- and the output's staging buffer, whatever it held, reads the weighted sum over the normaliser. -/
theorem runCS_out (c : Dev nD) (i : grid1.Coords)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .f32) (harg7 : arg7.IsWhole)
    (T0 T1 : S10.Idx → Elt F .i32) (xq xk xv : S1x512x1024.Idx → Elt F .bf16) (p : St1 F)
    (hr : ¬Resets1 (wordK (F := F) T1 i)) (hs : k1_cond2 (wordQ (F := F) T0 i) (wordK (F := F) T1 i) = 1#1) (f : arg7.view.ty.Contents (Elt F)) :
    arg7.view.read (Elt F) (arg7.view.writes (Elt F) f (runCS c i arg4 harg4 arg5 harg5 arg6 harg6 arg7 harg7 T0 T1 xq xk xv p hr hs).1)
      = k1_pay5 (fold1 (wordQ T0 i) (wordK T1 i) xq xk xv p).2.2 (fold1 (wordQ T0 i) (wordK T1 i) xq xk xv p).2.1 := by
  unfold runCS fold1
  dsimp only
  sl_unfold_run_names
  refine (r1_read_store_whole (F := F) (S := S1x512x1024) arg7.view f r1_hz3 _ _).trans ?_
  simp only [r1_rd_rep (F := F) (S := S1x512x1024) _ _ r1_hz3, r1_rd_M (F := F), r1_rd_L (F := F), r1_rd_A (F := F),
      r1_rc_cons (F := F) scM.view r1_hz2, r1_rc_cons (F := F) scL.view r1_hz2, r1_rc_cons (F := F) scA.view r1_hz2]

/-- What that run leaves in the carried buffers is the step's fold of the tile into `p`. -/
theorem runCN_eq (c : Dev nD) (i : grid1.Coords)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .f32) (harg7 : arg7.IsWhole)
    (T0 T1 : S10.Idx → Elt F .i32) (xq xk xv : S1x512x1024.Idx → Elt F .bf16) (p : St1 F)
    (hr : ¬Resets1 (wordK (F := F) T1 i)) (hs : ¬(k1_cond2 (wordQ (F := F) T0 i) (wordK (F := F) T1 i) = 1#1)) :
    (runCN c i arg4 harg4 arg5 harg5 arg6 harg6 arg7 harg7 T0 T1 xq xk xv p hr hs).1 = fold1 (wordQ T0 i) (wordK T1 i) xq xk xv p := by
  unfold runCN fold1
  dsimp only
  sl_unfold_run_names
  refine congrArg₂ Prod.mk ?_ (congrArg₂ Prod.mk ?_ ?_)
  · refine ((r1_whole_writes_junk (F := F) cc1_scratch0 _).trans (View.canon_cons_unit_zero (Val := Elt F) (S := S512x1) r1_hz2 _ _ _)).trans ?_
    simp only [r1_rd_rep (F := F) (S := S1x512x1024) _ _ r1_hz3, r1_rd_M (F := F), r1_rd_L (F := F), r1_rd_A (F := F),
      r1_rc_cons (F := F) scM.view r1_hz2, r1_rc_cons (F := F) scL.view r1_hz2, r1_rc_cons (F := F) scA.view r1_hz2]
  · refine ((r1_whole_writes_junk (F := F) cc1_scratch1 _).trans (View.canon_cons_unit_zero (Val := Elt F) (S := S512x1) r1_hz2 _ _ _)).trans ?_
    simp only [r1_rd_rep (F := F) (S := S1x512x1024) _ _ r1_hz3, r1_rd_M (F := F), r1_rd_L (F := F), r1_rd_A (F := F),
      r1_rc_cons (F := F) scM.view r1_hz2, r1_rc_cons (F := F) scL.view r1_hz2, r1_rc_cons (F := F) scA.view r1_hz2]
  · refine ((r1_whole_writes_junk (F := F) cc1_scratch2 _).trans (View.canon_cons_unit_zero (Val := Elt F) (S := S512x1024) r1_hz2 _ _ _)).trans ?_
    simp only [r1_rd_rep (F := F) (S := S1x512x1024) _ _ r1_hz3, r1_rd_M (F := F), r1_rd_L (F := F), r1_rd_A (F := F),
      r1_rc_cons (F := F) scM.view r1_hz2, r1_rc_cons (F := F) scL.view r1_hz2, r1_rc_cons (F := F) scA.view r1_hz2]
/-- The body's triple at such a step, over the step's fold: from the tables, the three blocks, the output's staging buffer at anything and the carried buffers
    at anything, it runs to any continuation that holds them with the carried buffers at the fold and the output's buffer at the quotient. -/
theorem stepRS (c : Dev nD) (i : grid1.Coords)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .f32) (harg7 : arg7.IsWhole)
    (T0 T1 : S10.Idx → Elt F .i32) (xq xk xv : S1x512x1024.Idx → Elt F .bf16)
    (hr : Resets1 (wordK (F := F) T1 i)) (hs : k1_cond2 (wordQ (F := F) T0 i) (wordK (F := F) T1 i) = 1#1)
    (a0 : Vec F S512x1 .f32) (a1 : Vec F S512x1 .f32) (a2 : Vec F S512x1024 .f32) (K : PUnit → sProp 𝕄) :
    iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (∃ d, owns (c : Thread nD τ) arg7 fullShare d)
          ∗ (scM.view.loc (c : Thread nD τ) ↦{fullShare} a0) ∗ (scL.view.loc (c : Thread nD τ) ↦{fullShare} a1) ∗ (scA.view.loc (c : Thread nD τ) ↦{fullShare} a2)
          ∗ (iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ owns (c : Thread nD τ) arg7 fullShare (k1_pay5 (fold1 (wordQ T0 i) (wordK T1 i) xq xk xv (k1_pay6, k1_pay7, k1_pay8)).2.2 (fold1 (wordQ T0 i) (wordK T1 i) xq xk xv (k1_pay6, k1_pay7, k1_pay8)).2.1)
              ∗ (scM.view.loc (c : Thread nD τ) ↦{fullShare} (fold1 (wordQ T0 i) (wordK T1 i) xq xk xv (k1_pay6, k1_pay7, k1_pay8)).1) ∗ (scL.view.loc (c : Thread nD τ) ↦{fullShare} (fold1 (wordQ T0 i) (wordK T1 i) xq xk xv (k1_pay6, k1_pay7, k1_pay8)).2.1) ∗ (scA.view.loc (c : Thread nD τ) ↦{fullShare} (fold1 (wordQ T0 i) (wordK T1 i) xq xk xv (k1_pay6, k1_pay7, k1_pay8)).2.2)) -∗ K ⟨⟩))
      ⊢ wp frame (wpE (defs₀ (F := F)) Variants.none c none) Set.univ
              (cc1__flash_kernel i tbQ (Memref.isWhole_whole _) tbK (Memref.isWhole_whole _) arg4 harg4 arg5 harg5 arg6 harg6 arg7 harg7 scM (Memref.isWhole_whole _) scL (Memref.isWhole_whole _) scA (Memref.isWhole_whole _)) K := by
  have h := (runRS c i arg4 harg4 arg5 harg5 arg6 harg6 arg7 harg7 T0 T1 xq xk xv hr hs).2.2 a0 a1 a2 K
  rw [runRS_eq] at h
  refine .trans ?_ h
  iintro ⟨HT0, HT1, H4, H5, H6, H7, HS0, HS1, HS2, Hk⟩
  isplitl [HT0]; · iexact HT0
  isplitl [HT1]; · iexact HT1
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨HT0, HT1, H4, H5, H6, ⟨%f, H7⟩, HS0, HS1, HS2⟩
  iapply Hk
  isplitl [HT0]; · iexact HT0
  isplitl [HT1]; · iexact HT1
  isplitl [H4]; · iexact H4
  isplitl [H5]; · iexact H5
  isplitl [H6]; · iexact H6
  isplitl [H7]
  · unfold owns; iexists _; isplitr
    · ipureintro; exact runRS_out c i arg4 harg4 arg5 harg5 arg6 harg6 arg7 harg7 T0 T1 xq xk xv hr hs f
    · iexact H7
  isplitl [HS0]; · iexact HS0
  isplitl [HS1]; · iexact HS1
  iexact HS2

/-- The body's triple at such a step, over the step's fold: from the tables, the three blocks and the carried buffers
    at anything, it runs to any continuation that holds them with the carried buffers at the fold. -/
theorem stepRN (c : Dev nD) (i : grid1.Coords)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .f32) (harg7 : arg7.IsWhole)
    (T0 T1 : S10.Idx → Elt F .i32) (xq xk xv : S1x512x1024.Idx → Elt F .bf16)
    (hr : Resets1 (wordK (F := F) T1 i)) (hs : ¬(k1_cond2 (wordQ (F := F) T0 i) (wordK (F := F) T1 i) = 1#1))
    (a0 : Vec F S512x1 .f32) (a1 : Vec F S512x1 .f32) (a2 : Vec F S512x1024 .f32) (K : PUnit → sProp 𝕄) :
    iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (scM.view.loc (c : Thread nD τ) ↦{fullShare} a0) ∗ (scL.view.loc (c : Thread nD τ) ↦{fullShare} a1) ∗ (scA.view.loc (c : Thread nD τ) ↦{fullShare} a2)
          ∗ (iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
              ∗ (scM.view.loc (c : Thread nD τ) ↦{fullShare} (fold1 (wordQ T0 i) (wordK T1 i) xq xk xv (k1_pay6, k1_pay7, k1_pay8)).1) ∗ (scL.view.loc (c : Thread nD τ) ↦{fullShare} (fold1 (wordQ T0 i) (wordK T1 i) xq xk xv (k1_pay6, k1_pay7, k1_pay8)).2.1) ∗ (scA.view.loc (c : Thread nD τ) ↦{fullShare} (fold1 (wordQ T0 i) (wordK T1 i) xq xk xv (k1_pay6, k1_pay7, k1_pay8)).2.2)) -∗ K ⟨⟩))
      ⊢ wp frame (wpE (defs₀ (F := F)) Variants.none c none) Set.univ
              (cc1__flash_kernel i tbQ (Memref.isWhole_whole _) tbK (Memref.isWhole_whole _) arg4 harg4 arg5 harg5 arg6 harg6 arg7 harg7 scM (Memref.isWhole_whole _) scL (Memref.isWhole_whole _) scA (Memref.isWhole_whole _)) K := by
  have h := (runRN c i arg4 harg4 arg5 harg5 arg6 harg6 arg7 harg7 T0 T1 xq xk xv hr hs).2 a0 a1 a2 K
  rw [runRN_eq] at h
  exact h

/-- The body's triple at such a step, over the step's fold: from the tables, the three blocks, the output's staging buffer at anything and the carried buffers
    at `p`, it runs to any continuation that holds them with the carried buffers at the fold and the output's buffer at the quotient. -/
theorem stepCS (c : Dev nD) (i : grid1.Coords)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .f32) (harg7 : arg7.IsWhole)
    (T0 T1 : S10.Idx → Elt F .i32) (xq xk xv : S1x512x1024.Idx → Elt F .bf16) (p : St1 F)
    (hr : ¬Resets1 (wordK (F := F) T1 i)) (hs : k1_cond2 (wordQ (F := F) T0 i) (wordK (F := F) T1 i) = 1#1)
    (K : PUnit → sProp 𝕄) :
    iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (∃ d, owns (c : Thread nD τ) arg7 fullShare d)
          ∗ (scM.view.loc (c : Thread nD τ) ↦{fullShare} p.1) ∗ (scL.view.loc (c : Thread nD τ) ↦{fullShare} p.2.1) ∗ (scA.view.loc (c : Thread nD τ) ↦{fullShare} p.2.2)
          ∗ (iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ owns (c : Thread nD τ) arg7 fullShare (k1_pay5 (fold1 (wordQ T0 i) (wordK T1 i) xq xk xv p).2.2 (fold1 (wordQ T0 i) (wordK T1 i) xq xk xv p).2.1)
              ∗ (scM.view.loc (c : Thread nD τ) ↦{fullShare} (fold1 (wordQ T0 i) (wordK T1 i) xq xk xv p).1) ∗ (scL.view.loc (c : Thread nD τ) ↦{fullShare} (fold1 (wordQ T0 i) (wordK T1 i) xq xk xv p).2.1) ∗ (scA.view.loc (c : Thread nD τ) ↦{fullShare} (fold1 (wordQ T0 i) (wordK T1 i) xq xk xv p).2.2)) -∗ K ⟨⟩))
      ⊢ wp frame (wpE (defs₀ (F := F)) Variants.none c none) Set.univ
              (cc1__flash_kernel i tbQ (Memref.isWhole_whole _) tbK (Memref.isWhole_whole _) arg4 harg4 arg5 harg5 arg6 harg6 arg7 harg7 scM (Memref.isWhole_whole _) scL (Memref.isWhole_whole _) scA (Memref.isWhole_whole _)) K := by
  have h := (runCS c i arg4 harg4 arg5 harg5 arg6 harg6 arg7 harg7 T0 T1 xq xk xv p hr hs).2.2 K
  rw [runCS_eq] at h
  refine .trans ?_ h
  iintro ⟨HT0, HT1, H4, H5, H6, H7, HS0, HS1, HS2, Hk⟩
  isplitl [HT0]; · iexact HT0
  isplitl [HT1]; · iexact HT1
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨HT0, HT1, H4, H5, H6, ⟨%f, H7⟩, HS0, HS1, HS2⟩
  iapply Hk
  isplitl [HT0]; · iexact HT0
  isplitl [HT1]; · iexact HT1
  isplitl [H4]; · iexact H4
  isplitl [H5]; · iexact H5
  isplitl [H6]; · iexact H6
  isplitl [H7]
  · unfold owns; iexists _; isplitr
    · ipureintro; exact runCS_out c i arg4 harg4 arg5 harg5 arg6 harg6 arg7 harg7 T0 T1 xq xk xv p hr hs f
    · iexact H7
  isplitl [HS0]; · iexact HS0
  isplitl [HS1]; · iexact HS1
  iexact HS2

/-- The body's triple at such a step, over the step's fold: from the tables, the three blocks and the carried buffers
    at `p`, it runs to any continuation that holds them with the carried buffers at the fold. -/
theorem stepCN (c : Dev nD) (i : grid1.Coords)
    (arg4 : Memref sig .tc .vmem S1x512x1024 .bf16) (harg4 : arg4.IsWhole) (arg5 : Memref sig .tc .vmem S1x512x1024 .bf16) (harg5 : arg5.IsWhole)
    (arg6 : Memref sig .tc .vmem S1x512x1024 .bf16) (harg6 : arg6.IsWhole) (arg7 : Memref sig .tc .vmem S1x512x1024 .f32) (harg7 : arg7.IsWhole)
    (T0 T1 : S10.Idx → Elt F .i32) (xq xk xv : S1x512x1024.Idx → Elt F .bf16) (p : St1 F)
    (hr : ¬Resets1 (wordK (F := F) T1 i)) (hs : ¬(k1_cond2 (wordQ (F := F) T0 i) (wordK (F := F) T1 i) = 1#1))
    (K : PUnit → sProp 𝕄) :
    iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (scM.view.loc (c : Thread nD τ) ↦{fullShare} p.1) ∗ (scL.view.loc (c : Thread nD τ) ↦{fullShare} p.2.1) ∗ (scA.view.loc (c : Thread nD τ) ↦{fullShare} p.2.2)
          ∗ (iprop((tbQ.view.loc (c : Thread nD τ) ↦{fullShare} T0) ∗ (tbK.view.loc (c : Thread nD τ) ↦{fullShare} T1)
          ∗ (arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
              ∗ (scM.view.loc (c : Thread nD τ) ↦{fullShare} (fold1 (wordQ T0 i) (wordK T1 i) xq xk xv p).1) ∗ (scL.view.loc (c : Thread nD τ) ↦{fullShare} (fold1 (wordQ T0 i) (wordK T1 i) xq xk xv p).2.1) ∗ (scA.view.loc (c : Thread nD τ) ↦{fullShare} (fold1 (wordQ T0 i) (wordK T1 i) xq xk xv p).2.2)) -∗ K ⟨⟩))
      ⊢ wp frame (wpE (defs₀ (F := F)) Variants.none c none) Set.univ
              (cc1__flash_kernel i tbQ (Memref.isWhole_whole _) tbK (Memref.isWhole_whole _) arg4 harg4 arg5 harg5 arg6 harg6 arg7 harg7 scM (Memref.isWhole_whole _) scL (Memref.isWhole_whole _) scA (Memref.isWhole_whole _)) K := by
  have h := (runCN c i arg4 harg4 arg5 harg5 arg6 harg6 arg7 harg7 T0 T1 xq xk xv p hr hs).2 K
  rw [runCN_eq] at h
  exact h

variable (hok : ok1 (F := F) (tbl (F := F)))
variable (V : (c : Dev nD) → (b : Ref sig .tc) → Buf (Elt F) ((c : Thread nD τ).loc b))

/-- The words the body loads at a point are the tables' words the step function reads. -/
theorem wordQ_tbl (i : grid1.Coords) : wordQ (F := F) ((tbl (F := F)) 0) i = qWord (F := F) i :=
  (show wordQ (F := F) ((tbl (F := F)) 0) i = qB i from rfl).trans (qWord_eq (F := F) i).symm
theorem wordK_tbl (i : grid1.Coords) : wordK (F := F) ((tbl (F := F)) 1) i = kvWord (F := F) i :=
  (show wordK (F := F) ((tbl (F := F)) 1) i = kB i from rfl).trans (kvWord_eq (F := F) i).symm

/-- The carried contents before position `t` (the reset contents before the first point, where they do not matter). -/
def prevT1 (c : Dev nD) (t : Fin ((cfgA hok).N + 1)) : St1 F :=
  if h : t.val = 0 then (k1_pay6, k1_pay7, k1_pay8) else traj1 hok V c (t.val - 1) (by have := t.isLt; omega)

theorem prevT1_castSucc (c : Dev nD) (t : Fin (cfgA hok).N) : prevT1 hok V c t.castSucc = prev1 hok V c t := rfl
theorem prevT1_succ (c : Dev nD) (t : Fin (cfgA hok).N) : prevT1 hok V c t.succ = traj1 hok V c t.val t.isLt := by
  unfold prevT1; rw [dif_neg (by simp)]; rfl

/-- What the region carries through untouched: the generator register and the other call's staging buffers, each whole at
    some contents. -/
def kept1 (c : Dev nD) : sProp 𝕄 :=
  iprop((∃ r, prngReg c r)
    ∗ (∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg9_1), ((c : Thread nD τ).loc cc0_stg9_1) ↦{fullShare} f))

/-- THE INVARIANT before point `t`: the three carried buffers at what the trajectory says once a point has run (anything before
    the first point, which resets them), the two tables at their words, and what the region carries through untouched. -/
def Phi1 (c : Dev nD) (t : Fin ((cfgA hok).N + 1)) : sProp 𝕄 :=
  iprop((∃ a, ⌜t.val ≠ 0 → a = (prevT1 hok V c t).1⌝ ∗ (scM.view.loc (c : Thread nD τ) ↦{fullShare} a))
    ∗ (∃ a, ⌜t.val ≠ 0 → a = (prevT1 hok V c t).2.1⌝ ∗ (scL.view.loc (c : Thread nD τ) ↦{fullShare} a))
    ∗ (∃ a, ⌜t.val ≠ 0 → a = (prevT1 hok V c t).2.2⌝ ∗ (scA.view.loc (c : Thread nD τ) ↦{fullShare} a))
    ∗ (tbQ.view.loc (c : Thread nD τ) ↦{fullShare} (tbl (F := F)) 0) ∗ (tbK.view.loc (c : Thread nD τ) ↦{fullShare} (tbl (F := F)) 1)
    ∗ kept1 (F := F) c)

/-- The proof data of the second pipeline on core `c`. -/
def dat1 (c : Dev nD) : Dat τ (Elt F) Unit ℕ (UR sig nD τ) ℕ (cfgA hok) c where
  A w := V c (Pipeline.arrRef spec1 w)
  after w t := match w with
    | ⟨0, _⟩ => iblk1 hok V c (0 : Fin 4) t
    | ⟨1, _⟩ => iblk1 hok V c (1 : Fin 4) t
    | ⟨2, _⟩ => iblk1 hok V c (2 : Fin 4) t
    | ⟨3, _⟩ => out1 hok V c t
  Φ t := Phi1 hok V c t
  q _ := fullShare
  owed _ := 0

theorem A_eq1 (c : Dev nD) (w : Fin (cfgA hok).W) : (dat1 hok V c).A w = V c (Pipeline.arrRef spec1 w) := by dsimp only [dat1]
theorem after1_0 (c : Dev nD) (t : Fin (cfgA hok).N) : (dat1 hok V c).after (0 : Fin 4) t = iblk1 hok V c (0 : Fin 4) t := by dsimp only [dat1]
theorem after1_1 (c : Dev nD) (t : Fin (cfgA hok).N) : (dat1 hok V c).after (1 : Fin 4) t = iblk1 hok V c (1 : Fin 4) t := by dsimp only [dat1]
theorem after1_2 (c : Dev nD) (t : Fin (cfgA hok).N) : (dat1 hok V c).after (2 : Fin 4) t = iblk1 hok V c (2 : Fin 4) t := by dsimp only [dat1]
theorem after1_3 (c : Dev nD) (t : Fin (cfgA hok).N) : (dat1 hok V c).after (3 : Fin 4) t = out1 hok V c t := by dsimp only [dat1]

/-- An input window's staging buffer holds its block when the body runs, fetched at the point or kept from the one before. -/
theorem before1_0 (c : Dev nD) (t : Fin (cfgA hok).N) (d) : (dat1 hok V c).before (0 : Fin 4) t d = iblk1 hok V c (0 : Fin 4) t :=
  ((dat1 hok V c).before_in_eq_fetched (0 : Fin 4) rfl (fun _ => rfl) (fun _ _ _ => rfl) (fun t => by rw [after1_0]; unfold Dat.blockOf iblk1; rfl) t d).trans
    (by unfold Dat.fetched Dat.blockOf iblk1; rfl)
theorem before1_1 (c : Dev nD) (t : Fin (cfgA hok).N) (d) : (dat1 hok V c).before (1 : Fin 4) t d = iblk1 hok V c (1 : Fin 4) t :=
  ((dat1 hok V c).before_in_eq_fetched (1 : Fin 4) rfl (fun _ => rfl) (fun _ _ _ => rfl) (fun t => by rw [after1_1]; unfold Dat.blockOf iblk1; rfl) t d).trans
    (by unfold Dat.fetched Dat.blockOf iblk1; rfl)
theorem before1_2 (c : Dev nD) (t : Fin (cfgA hok).N) (d) : (dat1 hok V c).before (2 : Fin 4) t d = iblk1 hok V c (2 : Fin 4) t :=
  ((dat1 hok V c).before_in_eq_fetched (2 : Fin 4) rfl (fun _ => rfl) (fun _ _ _ => rfl) (fun t => by rw [after1_2]; unfold Dat.blockOf iblk1; rfl) t d).trans
    (by unfold Dat.fetched Dat.blockOf iblk1; rfl)

/-- The output window is idle exactly where the step's key block is not its query block. -/
theorem idle1_3 (t : Fin (cfgA hok).N) :
    (cfgA hok).idle (3 : Fin 4) ((cfgA hok).grid.coords t) = !(k1_cond2 (qWord (F := F) ((cfgA hok).grid.coords t)) (kvWord (F := F) ((cfgA hok).grid.coords t)) == 1#1) := rfl

/-- Each window's current staging memref at point `t`, as the pipeline passes it to the body, and its wholeness. -/
abbrev ms1_0 (t : Fin (cfgA hok).N) : Memref sig .tc .vmem S1x512x1024 .bf16 := spec1_0.stage ((cfgA hok).slots t (0 : Fin 4))
abbrev hs1_0 (t : Fin (cfgA hok).N) : (ms1_0 hok t).IsWhole := hstage1_0 (((cfgA hok).slots t (0 : Fin 4)).cast nbuf1_0)
abbrev ms1_1 (t : Fin (cfgA hok).N) : Memref sig .tc .vmem S1x512x1024 .bf16 := spec1_1.stage ((cfgA hok).slots t (1 : Fin 4))
abbrev hs1_1 (t : Fin (cfgA hok).N) : (ms1_1 hok t).IsWhole := hstage1_1 (((cfgA hok).slots t (1 : Fin 4)).cast nbuf1_1)
abbrev ms1_2 (t : Fin (cfgA hok).N) : Memref sig .tc .vmem S1x512x1024 .bf16 := spec1_2.stage ((cfgA hok).slots t (2 : Fin 4))
abbrev hs1_2 (t : Fin (cfgA hok).N) : (ms1_2 hok t).IsWhole := hstage1_2 (((cfgA hok).slots t (2 : Fin 4)).cast nbuf1_2)
abbrev ms1_3 (t : Fin (cfgA hok).N) : Memref sig .tc .vmem S1x512x1024 .f32 := spec1_3.stage ((cfgA hok).slots t (3 : Fin 4))
abbrev hs1_3 (t : Fin (cfgA hok).N) : (ms1_3 hok t).IsWhole := hstage1_3 (((cfgA hok).slots t (3 : Fin 4)).cast nbuf1_3)

/-- The body at point `t` on its staging memrefs, the tables and the carried buffers, as the pipeline calls it. -/
abbrev bodyAt1 (t : Fin (cfgA hok).N) : Prog (TpuEff nD τ sig (Elt F) Λ₀ .tc) PUnit :=
  cc1__flash_kernel ((cfgA hok).grid.coords t) tbQ (Memref.isWhole_whole _) tbK (Memref.isWhole_whole _)
    (ms1_0 hok t) (hs1_0 hok t) (ms1_1 hok t) (hs1_1 hok t) (ms1_2 hok t) (hs1_2 hok t) (ms1_3 hok t) (hs1_3 hok t)
    scM (Memref.isWhole_whole _) scL (Memref.isWhole_whole _) scA (Memref.isWhole_whole _)

/-- The step function is the fold of the step's tile into the reset contents at a row's first step, else into what the
    step before left. -/
theorem step1_fold (c : Dev nD) (t : Fin (cfgA hok).N) (prev : St1 F) :
    step1 hok V c t prev = fold1 (qWord (F := F) ((cfgA hok).grid.coords t)) (kvWord (F := F) ((cfgA hok).grid.coords t))
      (iblk1 hok V c (0 : Fin 4) t) (iblk1 hok V c (1 : Fin 4) t) (iblk1 hok V c (2 : Fin 4) t)
      (if Resets1 (kvWord (F := F) ((cfgA hok).grid.coords t)) then (k1_pay6, k1_pay7, k1_pay8) else prev) := rfl

/-- The output window's idle table over the words the body loads. -/
theorem idle1_3w (t : Fin (cfgA hok).N) :
    (cfgA hok).idle (3 : Fin 4) ((cfgA hok).grid.coords t)
      = !(k1_cond2 (wordQ (F := F) ((tbl (F := F)) 0) ((cfgA hok).grid.coords t)) (wordK (F := F) ((tbl (F := F)) 1) ((cfgA hok).grid.coords t)) == 1#1) := by
  rw [wordQ_tbl, wordK_tbl]; exact idle1_3 hok t

/-- After a step that resets, the carried buffers hold the fold of its tile into the reset contents; -/
theorem traj1_reset (c : Dev nD) (t : Fin (cfgA hok).N) (hr : Resets1 (wordK (F := F) ((tbl (F := F)) 1) ((cfgA hok).grid.coords t))) :
    traj1 hok V c t.val t.isLt
      = fold1 (wordQ (F := F) ((tbl (F := F)) 0) ((cfgA hok).grid.coords t)) (wordK (F := F) ((tbl (F := F)) 1) ((cfgA hok).grid.coords t))
        (iblk1 hok V c (0 : Fin 4) t) (iblk1 hok V c (1 : Fin 4) t) (iblk1 hok V c (2 : Fin 4) t) (k1_pay6, k1_pay7, k1_pay8) := by
  rw [traj1_eq, step1_fold, if_pos (by rw [← wordK_tbl]; exact hr), ← wordQ_tbl, ← wordK_tbl]

/-- after one that does not, the fold into what the step before left. -/
theorem traj1_carry (c : Dev nD) (t : Fin (cfgA hok).N) (hr : ¬Resets1 (wordK (F := F) ((tbl (F := F)) 1) ((cfgA hok).grid.coords t))) :
    traj1 hok V c t.val t.isLt
      = fold1 (wordQ (F := F) ((tbl (F := F)) 0) ((cfgA hok).grid.coords t)) (wordK (F := F) ((tbl (F := F)) 1) ((cfgA hok).grid.coords t))
        (iblk1 hok V c (0 : Fin 4) t) (iblk1 hok V c (1 : Fin 4) t) (iblk1 hok V c (2 : Fin 4) t) (prev1 hok V c t) := by
  rw [traj1_eq, step1_fold, if_neg (by rw [← wordK_tbl]; exact hr), ← wordQ_tbl, ← wordK_tbl]

set_option maxHeartbeats 4000000 in
/-- THE BODY OBLIGATION at point `t`. The two words the body loads there tell whether it resets the carried buffers and whether
    it stores the output block; the inputs' buffers hold their blocks; the body's triple of that case applies, the carried
    buffers at what the point before left unless the step resets them; where it stores nothing the output's buffer goes back
    as it came, and there the pipeline does not write the block back. -/
theorem sound_body1 (c : Dev nD) (t : Fin (cfgA hok).N) :
    iprop((dat1 hok V c).Φ t.castSucc ∗ (dat1 hok V c).owesAt () t.castSucc
        ∗ (∃ d, owns (c : Thread nD τ) (ms1_0 hok t) fullShare ((dat1 hok V c).before (0 : Fin 4) t d))
        ∗ (∃ d, owns (c : Thread nD τ) (ms1_1 hok t) fullShare ((dat1 hok V c).before (1 : Fin 4) t d))
        ∗ (∃ d, owns (c : Thread nD τ) (ms1_2 hok t) fullShare ((dat1 hok V c).before (2 : Fin 4) t d))
        ∗ (∃ d, owns (c : Thread nD τ) (ms1_3 hok t) fullShare ((dat1 hok V c).before (3 : Fin 4) t d)))
      ⊢ wp frame (wpE (defs₀ (F := F)) Variants.none c none) Set.univ (bodyAt1 hok t) fun _ =>
          iprop((dat1 hok V c).Φ t.succ ∗ (dat1 hok V c).owesAt () t.succ
            ∗ bigSep Finset.univ fun w : Fin (cfgA hok).W =>
                match (cfgA hok).idle w ((cfgA hok).grid.coords t) with
                | true =>
                  match ((cfgA hok).win w).flush t with
                  | false => iprop(∃ d, owns (c : Thread nD τ) (((cfgA hok).win w).stage ((cfgA hok).slots t w)) fullShare ((dat1 hok V c).before w t d))
                  | true => owns (c : Thread nD τ) (((cfgA hok).win w).stage ((cfgA hok).slots t w)) fullShare ((dat1 hok V c).after w t)
                | false => owns (c : Thread nD τ) (((cfgA hok).win w).stage ((cfgA hok).slots t w)) fullShare ((dat1 hok V c).after w t)) := by
  rw [bigSep_W1]
  have e0 : (cfgA hok).idle (0 : Fin 4) ((cfgA hok).grid.coords t) = false := rfl
  have e1 : (cfgA hok).idle (1 : Fin 4) ((cfgA hok).grid.coords t) = false := rfl
  have e2 : (cfgA hok).idle (2 : Fin 4) ((cfgA hok).grid.coords t) = false := rfl
  rewrite [e0]; try rewrite [e1]
  try rewrite [e2]
  by_cases hr : Resets1 (wordK (F := F) ((tbl (F := F)) 1) ((cfgA hok).grid.coords t))
  · by_cases hs : k1_cond2 (wordQ (F := F) ((tbl (F := F)) 0) ((cfgA hok).grid.coords t)) (wordK (F := F) ((tbl (F := F)) 1) ((cfgA hok).grid.coords t)) = 1#1
    · -- a row's first step that is also its last: reset, fold, store
      have e3 : (cfgA hok).idle (3 : Fin 4) ((cfgA hok).grid.coords t) = false := by
        rw [idle1_3w]; simp only [hs, beq_self_eq_true, Bool.not_true]
      rewrite [e3]
      simp only [before1_0, before1_1, before1_2, after1_0, after1_1, after1_2, after1_3]
      rewrite [show (dat1 hok V c).Φ t.succ = Phi1 hok V c t.succ from rfl, show (dat1 hok V c).Φ t.castSucc = Phi1 hok V c t.castSucc from rfl,
        show (dat1 hok V c).owesAt () t.succ = (dat1 hok V c).owesAt () t.castSucc from rfl]
      unfold Phi1 out1
      simp only [prevT1_castSucc, prevT1_succ, traj1_reset hok V c t hr, Fin.val_castSucc, Fin.val_succ]
      iintro ⟨⟨⟨%a0, -, HS0⟩, ⟨%a1, -, HS1⟩, ⟨%a2, -, HS2⟩, HT0, HT1, Hkept⟩, Ho, ⟨%d0, H0⟩, ⟨%d1, H1⟩, ⟨%d2, H2⟩, H3⟩
      iapply (stepRS c ((cfgA hok).grid.coords t) (ms1_0 hok t) (hs1_0 hok t) (ms1_1 hok t) (hs1_1 hok t) (ms1_2 hok t) (hs1_2 hok t) (ms1_3 hok t) (hs1_3 hok t)
        ((tbl (F := F)) 0) ((tbl (F := F)) 1) (iblk1 hok V c (0 : Fin 4) t) (iblk1 hok V c (1 : Fin 4) t) (iblk1 hok V c (2 : Fin 4) t) hr hs a0 a1 a2 _)
      isplitl [HT0]; · iexact HT0
      isplitl [HT1]; · iexact HT1
      isplitl [H0]; · iapply rep_of_owns; iexact H0
      isplitl [H1]; · iapply rep_of_owns; iexact H1
      isplitl [H2]; · iapply rep_of_owns; iexact H2
      isplitl [H3]
      · icases H3 with ⟨%d3, H3⟩; iexists _; iexact H3
      isplitl [HS0]; · iexact HS0
      isplitl [HS1]; · iexact HS1
      isplitl [HS2]; · iexact HS2
      iintro ⟨HT0, HT1, H0, H1, H2, H3, HS0, HS1, HS2⟩
      isplitl [HS0 HS1 HS2 HT0 HT1 Hkept]
      · isplitl [HS0]
        · iexists _; isplitr
          · ipureintro; exact fun _ => rfl
          · iexact HS0
        isplitl [HS1]
        · iexists _; isplitr
          · ipureintro; exact fun _ => rfl
          · iexact HS1
        isplitl [HS2]
        · iexists _; isplitr
          · ipureintro; exact fun _ => rfl
          · iexact HS2
        isplitl [HT0]; · iexact HT0
        isplitl [HT1]; · iexact HT1
        iexact Hkept
      isplitl [Ho]; · iexact Ho
      isplitl [H0]; · iapply owns_of_rep; iexact H0
      isplitl [H1]; · iapply owns_of_rep; iexact H1
      isplitl [H2]; · iapply owns_of_rep; iexact H2
      iexact H3
    · -- a row's first step, not its last: reset, fold
      have e3 : (cfgA hok).idle (3 : Fin 4) ((cfgA hok).grid.coords t) = true := by
        rw [idle1_3w]; simp only [hs, beq_iff_eq, Bool.not_eq_true', beq_eq_false_iff_ne, ne_eq, not_false_eq_true]
      rewrite [e3]
      have ef : ((cfgA hok).win (3 : Fin 4)).flush t = false :=
        no_flush_of_no_store hok t (by rw [← wordQ_tbl, ← wordK_tbl]; exact hs)
      rewrite [ef]
      simp only [before1_0, before1_1, before1_2, after1_0, after1_1, after1_2]
      rewrite [show (dat1 hok V c).Φ t.succ = Phi1 hok V c t.succ from rfl, show (dat1 hok V c).Φ t.castSucc = Phi1 hok V c t.castSucc from rfl,
        show (dat1 hok V c).owesAt () t.succ = (dat1 hok V c).owesAt () t.castSucc from rfl]
      unfold Phi1
      simp only [prevT1_castSucc, prevT1_succ, traj1_reset hok V c t hr, Fin.val_castSucc, Fin.val_succ]
      iintro ⟨⟨⟨%a0, -, HS0⟩, ⟨%a1, -, HS1⟩, ⟨%a2, -, HS2⟩, HT0, HT1, Hkept⟩, Ho, ⟨%d0, H0⟩, ⟨%d1, H1⟩, ⟨%d2, H2⟩, H3⟩
      iapply (stepRN c ((cfgA hok).grid.coords t) (ms1_0 hok t) (hs1_0 hok t) (ms1_1 hok t) (hs1_1 hok t) (ms1_2 hok t) (hs1_2 hok t) (ms1_3 hok t) (hs1_3 hok t)
        ((tbl (F := F)) 0) ((tbl (F := F)) 1) (iblk1 hok V c (0 : Fin 4) t) (iblk1 hok V c (1 : Fin 4) t) (iblk1 hok V c (2 : Fin 4) t) hr hs a0 a1 a2 _)
      isplitl [HT0]; · iexact HT0
      isplitl [HT1]; · iexact HT1
      isplitl [H0]; · iapply rep_of_owns; iexact H0
      isplitl [H1]; · iapply rep_of_owns; iexact H1
      isplitl [H2]; · iapply rep_of_owns; iexact H2
      isplitl [HS0]; · iexact HS0
      isplitl [HS1]; · iexact HS1
      isplitl [HS2]; · iexact HS2
      iintro ⟨HT0, HT1, H0, H1, H2, HS0, HS1, HS2⟩
      isplitl [HS0 HS1 HS2 HT0 HT1 Hkept]
      · isplitl [HS0]
        · iexists _; isplitr
          · ipureintro; exact fun _ => rfl
          · iexact HS0
        isplitl [HS1]
        · iexists _; isplitr
          · ipureintro; exact fun _ => rfl
          · iexact HS1
        isplitl [HS2]
        · iexists _; isplitr
          · ipureintro; exact fun _ => rfl
          · iexact HS2
        isplitl [HT0]; · iexact HT0
        isplitl [HT1]; · iexact HT1
        iexact Hkept
      isplitl [Ho]; · iexact Ho
      isplitl [H0]; · iapply owns_of_rep; iexact H0
      isplitl [H1]; · iapply owns_of_rep; iexact H1
      isplitl [H2]; · iapply owns_of_rep; iexact H2
      iexact H3
  · by_cases hs : k1_cond2 (wordQ (F := F) ((tbl (F := F)) 0) ((cfgA hok).grid.coords t)) (wordK (F := F) ((tbl (F := F)) 1) ((cfgA hok).grid.coords t)) = 1#1
    · -- a row's last step: fold into what the step before left, store
      have e3 : (cfgA hok).idle (3 : Fin 4) ((cfgA hok).grid.coords t) = false := by
        rw [idle1_3w]; simp only [hs, beq_self_eq_true, Bool.not_true]
      rewrite [e3]
      simp only [before1_0, before1_1, before1_2, after1_0, after1_1, after1_2, after1_3]
      rewrite [show (dat1 hok V c).Φ t.succ = Phi1 hok V c t.succ from rfl, show (dat1 hok V c).Φ t.castSucc = Phi1 hok V c t.castSucc from rfl,
        show (dat1 hok V c).owesAt () t.succ = (dat1 hok V c).owesAt () t.castSucc from rfl]
      unfold Phi1 out1
      simp only [prevT1_castSucc, prevT1_succ, traj1_carry hok V c t hr, Fin.val_castSucc, Fin.val_succ]
      have ht : t.val ≠ 0 := fun h0 => hr (by rw [wordK_tbl]; exact first_resets hok t h0)
      simp only [exists_held ht]
      iintro ⟨⟨HS0, HS1, HS2, HT0, HT1, Hkept⟩, Ho, ⟨%d0, H0⟩, ⟨%d1, H1⟩, ⟨%d2, H2⟩, H3⟩
      iapply (stepCS c ((cfgA hok).grid.coords t) (ms1_0 hok t) (hs1_0 hok t) (ms1_1 hok t) (hs1_1 hok t) (ms1_2 hok t) (hs1_2 hok t) (ms1_3 hok t) (hs1_3 hok t)
        ((tbl (F := F)) 0) ((tbl (F := F)) 1) (iblk1 hok V c (0 : Fin 4) t) (iblk1 hok V c (1 : Fin 4) t) (iblk1 hok V c (2 : Fin 4) t) (prev1 hok V c t) hr hs _)
      isplitl [HT0]; · iexact HT0
      isplitl [HT1]; · iexact HT1
      isplitl [H0]; · iapply rep_of_owns; iexact H0
      isplitl [H1]; · iapply rep_of_owns; iexact H1
      isplitl [H2]; · iapply rep_of_owns; iexact H2
      isplitl [H3]
      · icases H3 with ⟨%d3, H3⟩; iexists _; iexact H3
      isplitl [HS0]; · iexact HS0
      isplitl [HS1]; · iexact HS1
      isplitl [HS2]; · iexact HS2
      iintro ⟨HT0, HT1, H0, H1, H2, H3, HS0, HS1, HS2⟩
      isplitl [HS0 HS1 HS2 HT0 HT1 Hkept]
      · isplitl [HS0]
        · iexists _; isplitr
          · ipureintro; exact fun _ => rfl
          · iexact HS0
        isplitl [HS1]
        · iexists _; isplitr
          · ipureintro; exact fun _ => rfl
          · iexact HS1
        isplitl [HS2]
        · iexists _; isplitr
          · ipureintro; exact fun _ => rfl
          · iexact HS2
        isplitl [HT0]; · iexact HT0
        isplitl [HT1]; · iexact HT1
        iexact Hkept
      isplitl [Ho]; · iexact Ho
      isplitl [H0]; · iapply owns_of_rep; iexact H0
      isplitl [H1]; · iapply owns_of_rep; iexact H1
      isplitl [H2]; · iapply owns_of_rep; iexact H2
      iexact H3
    · -- a step inside a row: fold into what the step before left
      have e3 : (cfgA hok).idle (3 : Fin 4) ((cfgA hok).grid.coords t) = true := by
        rw [idle1_3w]; simp only [hs, beq_iff_eq, Bool.not_eq_true', beq_eq_false_iff_ne, ne_eq, not_false_eq_true]
      rewrite [e3]
      have ef : ((cfgA hok).win (3 : Fin 4)).flush t = false :=
        no_flush_of_no_store hok t (by rw [← wordQ_tbl, ← wordK_tbl]; exact hs)
      rewrite [ef]
      simp only [before1_0, before1_1, before1_2, after1_0, after1_1, after1_2]
      rewrite [show (dat1 hok V c).Φ t.succ = Phi1 hok V c t.succ from rfl, show (dat1 hok V c).Φ t.castSucc = Phi1 hok V c t.castSucc from rfl,
        show (dat1 hok V c).owesAt () t.succ = (dat1 hok V c).owesAt () t.castSucc from rfl]
      unfold Phi1
      simp only [prevT1_castSucc, prevT1_succ, traj1_carry hok V c t hr, Fin.val_castSucc, Fin.val_succ]
      have ht : t.val ≠ 0 := fun h0 => hr (by rw [wordK_tbl]; exact first_resets hok t h0)
      simp only [exists_held ht]
      iintro ⟨⟨HS0, HS1, HS2, HT0, HT1, Hkept⟩, Ho, ⟨%d0, H0⟩, ⟨%d1, H1⟩, ⟨%d2, H2⟩, H3⟩
      iapply (stepCN c ((cfgA hok).grid.coords t) (ms1_0 hok t) (hs1_0 hok t) (ms1_1 hok t) (hs1_1 hok t) (ms1_2 hok t) (hs1_2 hok t) (ms1_3 hok t) (hs1_3 hok t)
        ((tbl (F := F)) 0) ((tbl (F := F)) 1) (iblk1 hok V c (0 : Fin 4) t) (iblk1 hok V c (1 : Fin 4) t) (iblk1 hok V c (2 : Fin 4) t) (prev1 hok V c t) hr hs _)
      isplitl [HT0]; · iexact HT0
      isplitl [HT1]; · iexact HT1
      isplitl [H0]; · iapply rep_of_owns; iexact H0
      isplitl [H1]; · iapply rep_of_owns; iexact H1
      isplitl [H2]; · iapply rep_of_owns; iexact H2
      isplitl [HS0]; · iexact HS0
      isplitl [HS1]; · iexact HS1
      isplitl [HS2]; · iexact HS2
      iintro ⟨HT0, HT1, H0, H1, H2, HS0, HS1, HS2⟩
      isplitl [HS0 HS1 HS2 HT0 HT1 Hkept]
      · isplitl [HS0]
        · iexists _; isplitr
          · ipureintro; exact fun _ => rfl
          · iexact HS0
        isplitl [HS1]
        · iexists _; isplitr
          · ipureintro; exact fun _ => rfl
          · iexact HS1
        isplitl [HS2]
        · iexists _; isplitr
          · ipureintro; exact fun _ => rfl
          · iexact HS2
        isplitl [HT0]; · iexact HT0
        isplitl [HT1]; · iexact HT1
        iexact Hkept
      isplitl [Ho]; · iexact Ho
      isplitl [H0]; · iapply owns_of_rep; iexact H0
      isplitl [H1]; · iapply owns_of_rep; iexact H1
      isplitl [H2]; · iapply owns_of_rep; iexact H2
      iexact H3

/-- The library's body obligation, at every point. -/
theorem body_obligation1 (c : Dev nD) : BodyObligation (dat1 hok V c) (defs₀ (F := F)) Variants.none () Set.univ := fun t => by
  rw [bigSep_W1]
  exact sound_body1 hok V c t

/-- The two tables as the region is handed them, one by one. -/
theorem r1_prefHeld_eq (c : Dev nD) :
    (Pipeline.prefHeld (Ix := Unit) (Name := ℕ) (U := UR sig nD τ) (Lvl := ℕ) pre1 c (fun _ => fullShare) (tbl (F := F)) : sProp 𝕄)
      = iprop((tbQ.view.loc (c : Thread nD τ) ↦{fullShare} (tbl (F := F)) 0) ∗ (tbK.view.loc (c : Thread nD τ) ↦{fullShare} (tbl (F := F)) 1)) := by
  unfold Pipeline.prefHeld
  exact bigSep_univ_eq_bigSepL [(0 : Fin 2), (1 : Fin 2)] (by decide) (by decide) _

/-- ENTRY: the generator register, the tables and the scoped buffers no window stages make the invariant before the first point
    (the carried buffers at anything: the first point resets them). -/
theorem hin1 (c : Dev nD) :
    iprop((∃ r, prngReg c r) ∗ Pipeline.prefHeld pre1 c (fun _ => fullShare) (tbl (F := F)) ∗ Pipeline.scopedRest spec1 c)
      ⊢ (dat1 (tbl_ok (F := F)) V c).Φ 0 := by
  rw [r1_prefHeld_eq, scopedRest1_eq, show (dat1 (tbl_ok (F := F)) V c).Φ 0 = Phi1 (tbl_ok (F := F)) V c 0 from rfl]
  unfold Phi1 kept1
  iintro ⟨HX, ⟨HT0, HT1⟩, G1, G2, G3, G4, G5, G6, G7, G8, G9, G10, G11, G12, G13, G14, G15, G16, G17, G18, ⟨%a0, HS0⟩, ⟨%a1, HS1⟩, ⟨%a2, HS2⟩⟩
  isplitl [HS0]
  · iexists a0; isplitr
    · ipureintro; exact fun h => absurd rfl h
    · iexact HS0
  isplitl [HS1]
  · iexists a1; isplitr
    · ipureintro; exact fun h => absurd rfl h
    · iexact HS1
  isplitl [HS2]
  · iexists a2; isplitr
    · ipureintro; exact fun h => absurd rfl h
    · iexact HS2
  isplitl [HT0]; · iexact HT0
  isplitl [HT1]; · iexact HT1
  isplitl [HX]; · iexact HX
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  iexact G18

/-- EXIT: the invariant after the last point gives back the generator register with the tables, and the scoped buffers. -/
theorem hout1 (c : Dev nD) :
    (dat1 (tbl_ok (F := F)) V c).Φ (Fin.last (cfgA (tbl_ok (F := F))).N)
      ⊢ iprop(((∃ r, prngReg c r) ∗ Pipeline.prefHeld pre1 c (fun _ => fullShare) (tbl (F := F)))
          ∗ Pipeline.ownSems0 (fun k : PEmpty => k.elim) c ∗ Pipeline.scopedRest spec1 c) := by
  rw [r1_prefHeld_eq, scopedRest1_eq, Pipeline.ownSems0_none _ _ _ _ _ _ _ _ c,
    show (dat1 (tbl_ok (F := F)) V c).Φ (Fin.last (cfgA (tbl_ok (F := F))).N) = Phi1 (tbl_ok (F := F)) V c (Fin.last _) from rfl]
  unfold Phi1 kept1
  iintro ⟨⟨%a0, -, HS0⟩, ⟨%a1, -, HS1⟩, ⟨%a2, -, HS2⟩, HT0, HT1, HX, G1, G2, G3, G4, G5, G6, G7, G8, G9, G10, G11, G12, G13, G14, G15, G16, G17, G18⟩
  isplitl [HX HT0 HT1]
  · isplitl [HX]; · iexact HX
    isplitl [HT0]; · iexact HT0
    iexact HT1
  isplitr; · iempintro
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  isplitl [G18]; · iexact G18
  isplitl [HS0]; · iexists a0; iexact HS0
  isplitl [HS1]; · iexists a1; iexact HS1
  iexists a2; iexact HS2

end Cert.KernelIdeal.Hand

end
-- ==== Proof.Run.lean ====
/-
  THE RUN of the program: eleven host operations, then the two kernels, each a pipeline over a grid.

  Between two items a core holds every unscoped buffer whole, at contents we follow by name:
  the launch memory; after the host operations what each of them computed from it; after the first
  kernel its ten windows' arrays at what the write-backs of all 64 points leave and everything else as it was;
  after the second kernel its four windows' arrays at what the write-backs of all 40 points leave and everything
  else as it was. The second kernel steers its windows by two tables of ten words each, which are what the first
  two host operations wrote and which the first kernel does not touch; so the tables the pipeline is run at
  are the tables in memory when it is entered. One launch theorem then carries the three items from the
  launch to the return, and the last contents are read off the final memory buffer by buffer.
-/
import proofs.«412249_j74225624809935_3_alg».proof.Proof.Gen.KernelIdeal.Launch
import proofs.«412249_j74225624809935_3_alg».proof.Proof.Gen.KernelIdeal.Skeleton
import proofs.«412249_j74225624809935_3_alg».proof.Proof.Gen.KernelIdeal.Points
import proofs.«412249_j74225624809935_3_alg».proof.Proof.Gen.KernelIdeal.Regions
import proofs.«412249_j74225624809935_3_alg».proof.Proof.Data0
import proofs.«412249_j74225624809935_3_alg».proof.Proof.Data1
import proofs.«412249_j74225624809935_3_alg».proof.Proof.Reg0
import proofs.«412249_j74225624809935_3_alg».proof.Proof.Reg1
import Idealize.ShloMosaic.Lib.StableHlo.Run
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The contents of a core's unscoped buffers between the items -/

/-- At launch. -/
abbrev W0 (c : Dev nD) : Valuation τ sig (Elt F) := fun b => m (c, b)
/-- After the host operations. -/
abbrev W1 (c : Dev nD) : Valuation τ sig (Elt F) := StableHlo.after hostOps0 (W0 m c)
/-- The same read at the TensorCore's references: what the first kernel is entered at. -/
abbrev V1 : (c : Dev nD) → (b : Ref sig .tc) → Buf (Elt F) ((c : Thread nD τ).loc b) := fun c b => W1 m c b

/-- After the first kernel: each of its arrays at what the write-backs of every point leave, every other buffer as entered. -/
def W2 (c : Dev nD) : Valuation τ sig (Elt F) :=
  Pipeline.withArrays spec0 c (W1 m c) fun w => (dat0 (V1 m) c).arrAt w cfg0.N
/-- The same read at the TensorCore's references: what the second kernel is entered at. -/
abbrev V2 : (c : Dev nD) → (b : Ref sig .tc) → Buf (Elt F) ((c : Thread nD τ).loc b) := fun c b => W2 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 (launch0 (F := F)).win.arr_inj c _ _ w
theorem W2_off (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

/-- After the second kernel: each of its arrays at what the write-backs of every point leave, every other buffer as entered. -/
def W3 (c : Dev nD) : Valuation τ sig (Elt F) :=
  Pipeline.withArrays spec1 c (W2 m c) fun w => (dat1 (tbl_ok (F := F)) (V2 m) c).arrAt w (cfgA (tbl_ok (F := F))).N

theorem W3_arr (c : Dev nD) (w : Fin (cfgA (tbl_ok (F := F))).W) :
    W3 m c (Proc.devRef .tc (Pipeline.arrRef spec1 w)) = (dat1 (tbl_ok (F := F)) (V2 m) c).arrAt w (cfgA (tbl_ok (F := F))).N := by
  unfold W3; exact Pipeline.withArrays_arr spec1 (launch1 (F := F)).win.arr_inj c _ _ w
theorem W3_off (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-! ## Reading the contents back

No host operation writes an argument, and neither kernel's write-backs reach one: the first reads arguments 0, 1, 2
through input windows (an input's array is never written), the second has none among its arrays. -/

/-- No host operation writes an argument. -/
theorem V1_of_arg (c : Dev nD) (r : Ref sig .tc) (h : r ∉ Gen.hostOps0_W) : V1 m c r = m ((c : Thread nD τ).loc r) :=
  Gen.V1_of m c r h
theorem V1_main_arg0 (c : Dev nD) : V1 m c main_arg0 = m ((c : Thread nD τ).loc main_arg0) := V1_of_arg m c main_arg0 (by decide)
theorem V1_main_arg1 (c : Dev nD) : V1 m c main_arg1 = m ((c : Thread nD τ).loc main_arg1) := V1_of_arg m c main_arg1 (by decide)
theorem V1_main_arg2 (c : Dev nD) : V1 m c main_arg2 = m ((c : Thread nD τ).loc main_arg2) := V1_of_arg m c main_arg2 (by decide)

/-- A buffer that is no array of the first kernel and that no host operation writes holds its launch contents when the
    second kernel is entered. -/
theorem V2_of_bypass (c : Dev nD) (r : Ref sig .tc) (h0 : ∀ w, Pipeline.arrRef spec0 w ≠ r) (h : r ∉ Gen.hostOps0_W) :
    V2 m c r = m ((c : Thread nD τ).loc r) :=
  (W2_off m c r h0).trans (V1_of_arg m c r h)

/-- An INPUT array of the first kernel holds at its exit what it held at its entry. -/
theorem V2_of_input (c : Dev nD) (w : Fin cfg0.W) (hw : (cfg0.win w).isOut = false) :
    V2 m c (Pipeline.arrRef spec0 w) = V1 m c (Pipeline.arrRef spec0 w) :=
  (W2_arr m c w).trans (((dat0 (V1 m) c).arrAt_in w hw _).trans (A_eq0 (V1 m) c w))

theorem W3_main_arg0 (c : Dev nD) : W3 m c (Proc.devRef .tc main_arg0) = m ((c : Thread nD τ).loc main_arg0) :=
  (W3_off m c main_arg0 (by decide)).trans ((V2_of_input m c 0 rfl).trans (V1_of_arg m c main_arg0 (by decide)))
theorem W3_main_arg1 (c : Dev nD) : W3 m c (Proc.devRef .tc main_arg1) = m ((c : Thread nD τ).loc main_arg1) :=
  (W3_off m c main_arg1 (by decide)).trans ((V2_of_input m c 1 rfl).trans (V1_of_arg m c main_arg1 (by decide)))
theorem W3_main_arg2 (c : Dev nD) : W3 m c (Proc.devRef .tc main_arg2) = m ((c : Thread nD τ).loc main_arg2) :=
  (W3_off m c main_arg2 (by decide)).trans ((V2_of_input m c 2 rfl).trans (V1_of_arg m c main_arg2 (by decide)))
theorem W3_main_arg3 (c : Dev nD) : W3 m c (Proc.devRef .tc main_arg3) = m ((c : Thread nD τ).loc main_arg3) :=
  (W3_off m c main_arg3 (by decide)).trans (V2_of_bypass m c main_arg3 (by decide) (by decide))
theorem W3_main_arg4 (c : Dev nD) : W3 m c (Proc.devRef .tc main_arg4) = m ((c : Thread nD τ).loc main_arg4) :=
  (W3_off m c main_arg4 (by decide)).trans (V2_of_bypass m c main_arg4 (by decide) (by decide))
theorem W3_main_arg5 (c : Dev nD) : W3 m c (Proc.devRef .tc main_arg5) = m ((c : Thread nD τ).loc main_arg5) :=
  (W3_off m c main_arg5 (by decide)).trans (V2_of_bypass m c main_arg5 (by decide) (by decide))
theorem W3_main_arg6 (c : Dev nD) : W3 m c (Proc.devRef .tc main_arg6) = m ((c : Thread nD τ).loc main_arg6) :=
  (W3_off m c main_arg6 (by decide)).trans (V2_of_bypass m c main_arg6 (by decide) (by decide))
theorem W3_main_arg7 (c : Dev nD) : W3 m c (Proc.devRef .tc main_arg7) = m ((c : Thread nD τ).loc main_arg7) :=
  (W3_off m c main_arg7 (by decide)).trans (V2_of_bypass m c main_arg7 (by decide) (by decide))
theorem W3_main_arg8 (c : Dev nD) : W3 m c (Proc.devRef .tc main_arg8) = m ((c : Thread nD τ).loc main_arg8) :=
  (W3_off m c main_arg8 (by decide)).trans (V2_of_bypass m c main_arg8 (by decide) (by decide))

/-- The attention output: the second kernel's fourth array. -/
theorem W3_main_v10 (c : Dev nD) : W3 m c (Proc.devRef .tc main_v10) = (dat1 (tbl_ok (F := F)) (V2 m) c).arrAt 3 (cfgA (tbl_ok (F := F))).N :=
  W3_arr m c 3
/-- The key and value arrays: the first kernel's seventh and eighth arrays, which the second kernel does not touch. -/
theorem W3_main_v9_1 (c : Dev nD) : W3 m c (Proc.devRef .tc main_v9_1) = (dat0 (V1 m) c).arrAt 6 cfg0.N :=
  (W3_off m c main_v9_1 (by decide)).trans (W2_arr m c 6)
theorem W3_main_v9_2 (c : Dev nD) : W3 m c (Proc.devRef .tc main_v9_2) = (dat0 (V1 m) c).arrAt 7 cfg0.N :=
  (W3_off m c main_v9_2 (by decide)).trans (W2_arr m c 7)
/-- What the second kernel reads: the first kernel's query array and its two narrow-format shadows. -/
theorem V2_main_v9_0 (c : Dev nD) : V2 m c main_v9_0 = (dat0 (V1 m) c).arrAt 5 cfg0.N := W2_arr m c 5
theorem V2_main_v9_3 (c : Dev nD) : V2 m c main_v9_3 = (dat0 (V1 m) c).arrAt 8 cfg0.N := W2_arr m c 8
theorem V2_main_v9_4 (c : Dev nD) : V2 m c main_v9_4 = (dat0 (V1 m) c).arrAt 9 cfg0.N := W2_arr m c 9

/-! ## The tables in memory when the second kernel is entered

The first two host operations write the two constants; no later host operation writes them and they are no array of
the first kernel. -/

theorem V2_main_c (c : Dev nD) : V2 m c main_c = (tbl (F := F)) 0 := by
  refine (W2_off m c main_c (by decide)).trans ?_
  show StableHlo.after hostOps0 _ (Proc.devRef .tc main_c) = _
  after_results
  rfl
theorem V2_main_c_0 (c : Dev nD) : V2 m c main_c_0 = (tbl (F := F)) 1 := by
  refine (W2_off m c main_c_0 (by decide)).trans ?_
  show StableHlo.after hostOps0 _ (Proc.devRef .tc main_c_0) = _
  after_results
  rfl
/-- The tables under the entry contents are the tables the pipeline is run at. -/
theorem tables_entry (c : Dev nD) : (fun k => V2 m c (pre1.ref k)) = (tbl (F := F)) := by
  funext k
  match k with
  | ⟨0, _⟩ => exact V2_main_c m c
  | ⟨1, _⟩ => exact V2_main_c_0 m c

/-! ## The pipelines' tables and proof data -/

/-- The contents the pipelines' tables are run at: the first has none; the second the two constants. -/
abbrev adm : (p : Fin 2) → (pcfgs (F := F) p).Adm
  | ⟨0, _⟩ => cfg0.toPCfg_adm
  | ⟨1, _⟩ => adm1 (tbl_ok (F := F))

/-- Each pipeline's proof data at the contents its kernel is entered at. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (tbl_ok (F := F)) (V2 m) c

abbrev 𝒱₀ : Variants := Variants.none
/-- No core owes another anything. -/
abbrev L : GSem nD τ sig → Finset Unit := fun _ => ∅
abbrev lv : GSem nD τ sig → Unit → ℕ := fun _ _ => 0

/-- What a core holds beside its buffers between two items: its generator register at some state, and nothing owed. -/
abbrev Rg (c : Dev nD) : sProp 𝕄 := iprop(∃ r, prngReg c r)
abbrev Ow (c : Dev nD) : sProp 𝕄 := iprop(∃ W, owes (c : Thread nD τ) (0 : CellTallies nD τ sig Unit) W)
abbrev Rest (c : Dev nD) : sProp 𝕄 := iprop(Rg (F := F) c ∗ Ow (F := F) c)
/-- A core between two items, its unscoped buffers at the contents `W`. -/
abbrev St (W : Dev nD → Valuation τ sig (Elt F)) (c : Dev nD) : sProp 𝕄 :=
  iprop(StableHlo.held (c : Thread nD τ) (Pipeline.ucRefs τ sig) (W c) ∗ Rest (F := F) c)

/-- An unscoped TensorCore reference is among those a core holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### Nothing owed, in the pipeline's bookkeeping and out of it -/

section Owes
variable {cfg : Cfg sig Λ₀} {c : Dev nD} (d : Dat τ (Elt F) Unit ℕ (UR sig nD τ) ℕ cfg c)

/-- A core owing nothing enters a pipeline whose proof data owes nothing at the first point and bounds no recorded pair. -/
theorem owes_enter (h0 : d.owed 0 = 0) (hr : d.recorded 0 = Set.univ) : Ow (F := F) c ⊢ d.owesAt () 0 := by
  unfold Pipeline.Dat.owesAt Pipeline.owesWithin Pipeline.Dat.bound
  rw [h0, hr]
  iintro ⟨%W, HO⟩
  iexists W
  isplitr
  · ipureintro; exact fun _ _ => Or.inl trivial
  · iexact HO

/-- and leaves one whose proof data owes nothing at the last point owing nothing. -/
theorem owes_leave (hN : d.owed (Fin.last cfg.N) = 0) : d.owesAt () (Fin.last cfg.N) ⊢ Ow (F := F) c := by
  unfold Pipeline.Dat.owesAt Pipeline.owesWithin
  rw [hN]
  iintro ⟨%W, -, HO⟩
  iexists W
  iexact HO

end Owes

/-! ## The kernels as segments -/

/-- A pipeline without tables holds none. -/
theorem no_tables (c : Dev nD) (q : Fin 0 → PosShare TreeShare) (v : (Pipeline.Prefetch.none (sig := sig)).Contents (Elt F)) :
    (BI.emp : sProp 𝕄) ⊢ Pipeline.prefHeld (Ix := Unit) (Name := ℕ) (U := UR sig nD τ) (Lvl := ℕ) Pipeline.Prefetch.none c q v := by
  unfold Pipeline.prefHeld
  rw [show (Finset.univ : Finset (Fin 0)) = ∅ from rfl, BI.bigSep_empty]

set_option backward.isDefEq.respectTransparency.types false in
/-- ENTRY of the first kernel: a core's buffers after the host operations are the kernel's ten arrays at the proof
    data's entry contents and the sixteen buffers it bypasses. -/
theorem enter0 (c : Dev nD) :
    (StableHlo.held (c : Thread nD τ) (Pipeline.ucRefs τ sig) (W1 m c) : sProp 𝕄)
      ⊢ iprop((pdats m 0 c).arrays ((pdats m 0 c).arrAt · 0) ∗ Pipeline.unscopedRest spec0 c (V1 m c)) := by
  have h := Pipeline.arrays_of_unscopedBufs (p := 0) (pcfgs (F := F)) adm (pdats m) (launch0 (F := F)).win (launch0 (F := F)).arr_whole c
    ((pdats m 0 c).share_full fun _ => rfl) (V1 m c) fun _ => rfl
  rw [Pipeline.unscopedBufs_held] at h
  exact h

set_option backward.isDefEq.respectTransparency.types false in
/-- EXIT of the first kernel: the arrays at what the write-backs leave and the bypassing buffers as entered are a core's
    buffers at the contents `W2`. -/
theorem leave0 (c : Dev nD) :
    (iprop((pdats m 0 c).arrays ((pdats m 0 c).arrAt · cfg0.N) ∗ Pipeline.unscopedRest spec0 c (V1 m c)) : sProp 𝕄)
      ⊢ StableHlo.held (c : Thread nD τ) (Pipeline.ucRefs τ sig) (W2 m c) := by
  have h := Pipeline.unscopedBufs_of_arrays (p := 0) (pcfgs (F := F)) adm (Ix := Unit) (Name := ℕ) (U := UR sig nD τ) (Lvl := ℕ)
    (launch0 (F := F)).win (launch0 (F := F)).arr_whole c (pdats m) ((pdats m 0 c).share_full fun _ => rfl)
    (V1 m c) (V2 m c) ((pdats m 0 c).arrAt · cfg0.N) (fun w => (W2_arr m c w).symm)
    (fun b hb => W2_off m c b fun w e => hb (Finset.mem_image.mpr ⟨w, Finset.mem_univ _, e⟩))
  rw [Pipeline.unscopedBufs_held] at h
  exact h

set_option backward.isDefEq.respectTransparency.types false in
/-- THE FIRST KERNEL as a segment, from the contents `W1` to `W2`: the generator register goes into the class
    invariant and comes back; nothing is owed; the kernel has no semaphore of its own. -/
def reg0 : Pipeline.RegionSeg (pcfgs (F := F)) adm (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m) c).loose
  hwaits := Pipeline.hwaits_of_owed_zero _ _ _ _ L lv 0 fun _ _ => rfl
  pre := St (W1 m)
  post := St (W2 m)
  X := Rg
  Y := Rg
  Z c := Pipeline.unscopedRest (Ix := Unit) (Name := ℕ) (U := UR sig nD τ) (Lvl := ℕ) spec0 c (V1 m c)
  hentry c := by
    iintro ⟨⟨Hbufs, Hrg, How⟩, -, -⟩
    ihave Hs := (enter0 m c) $$ Hbufs
    icases Hs with ⟨Harr, Hby⟩
    ihave Ho := (owes_enter (pdats m 0 c) rfl rfl) $$ How
    imodintro
    isplitl [Harr]; · iexact Harr
    isplitr
    · iapply (no_tables (F := F) c _ _); iempintro
    isplitl [Ho]; · iexact Ho
    isplitl [Hrg]; · iexact Hrg
    iexact Hby
  hin c := by
    show (iprop(Rg c ∗ _ ∗ Pipeline.scopedRest spec0 c) : sProp 𝕄) ⊢ Pipeline.ΦA spec0 c
    unfold Pipeline.ΦA
    iintro ⟨Hrg, -, Hsc⟩
    isplitl [Hsc]; · iexact Hsc
    iexact Hrg
  hout c := by
    rw [Pipeline.ownSems0_none]
    show (Pipeline.ΦA spec0 c : sProp 𝕄) ⊢ _
    unfold Pipeline.ΦA
    iintro ⟨Hsc, Hrg⟩
    isplitl [Hrg]; · iexact Hrg
    isplitr; · iempintro
    iexact Hsc
  hexit c := by
    iintro ⟨Harr, Ho, Hrg, Hby⟩
    imodintro
    isplitl [Harr Hby]
    · iapply (leave0 m c); isplitl [Harr] <;> iassumption
    isplitl [Hrg]; · iexact Hrg
    iapply (owes_leave (pdats m 0 c) rfl); iexact Ho

set_option backward.isDefEq.respectTransparency.types false in
/-- ENTRY of the second kernel: a core's buffers after the first kernel are the kernel's four arrays at the proof
    data's entry contents, the two tables at the contents the pipeline is run at, and the twenty buffers it bypasses. -/
theorem enter1 (c : Dev nD) :
    (StableHlo.held (c : Thread nD τ) (Pipeline.ucRefs τ sig) (W2 m c) : sProp 𝕄)
      ⊢ iprop((pdats m 1 c).arrays ((pdats m 1 c).arrAt · 0)
          ∗ Pipeline.prefHeld pre1 c (fun _ => fullShare) (tbl (F := F))
          ∗ Pipeline.unscopedRestP pre1 spec1 c (V2 m c)) := by
  have h := Pipeline.arrays_of_unscopedBufs (p := 1) (pcfgs (F := F)) adm (pdats m) (launch1 (F := F)).win (launch1 (F := F)).arr_whole c
    ((pdats m 1 c).share_full fun _ => rfl) (V2 m c) fun w => A_eq1 (tbl_ok (F := F)) (V2 m) c w
  rw [Pipeline.unscopedBufs_held] at h
  have hs := Pipeline.unscopedRest_split (Ix := Unit) (Name := ℕ) (U := UR sig nD τ) (Lvl := ℕ) preFacts1 c (V2 m c)
  rw [tables_entry m c] at hs
  exact h.trans (sep_mono .rfl (Entails.of_eq hs))

set_option backward.isDefEq.respectTransparency.types false in
/-- EXIT of the second kernel: the arrays at what the write-backs leave, the tables (which nothing writes) and the
    bypassing buffers as entered are a core's buffers at the contents `W3`. -/
theorem leave1 (c : Dev nD) :
    (iprop((pdats m 1 c).arrays ((pdats m 1 c).arrAt · (cfgA (tbl_ok (F := F))).N)
        ∗ Pipeline.prefHeld pre1 c (fun _ => fullShare) (tbl (F := F))
        ∗ Pipeline.unscopedRestP pre1 spec1 c (V2 m c)) : sProp 𝕄)
      ⊢ StableHlo.held (c : Thread nD τ) (Pipeline.ucRefs τ sig) (W3 m c) := by
  have h := Pipeline.unscopedBufs_of_arrays (p := 1) (pcfgs (F := F)) adm (Ix := Unit) (Name := ℕ) (U := UR sig nD τ) (Lvl := ℕ)
    (launch1 (F := F)).win (launch1 (F := F)).arr_whole c (pdats m) ((pdats m 1 c).share_full fun _ => rfl)
    (V2 m c) (fun b => W3 m c b) ((pdats m 1 c).arrAt · (cfgA (tbl_ok (F := F))).N) (fun w => (W3_arr m c w).symm)
    (fun b hb => W3_off m c b fun w e => hb (Finset.mem_image.mpr ⟨w, Finset.mem_univ _, e⟩))
  rw [Pipeline.unscopedBufs_held] at h
  have hs := Pipeline.unscopedRest_split (Ix := Unit) (Name := ℕ) (U := UR sig nD τ) (Lvl := ℕ) preFacts1 c (V2 m c)
  rw [tables_entry m c] at hs
  exact (sep_mono .rfl (Entails.of_eq hs.symm)).trans h

/-- The last contents with the generator register: what the launch reads at the end, beside nothing owed. -/
abbrev Tₙ (c : Dev nD) : sProp 𝕄 := iprop(StableHlo.held (c : Thread nD τ) (Pipeline.ucRefs τ sig) (W3 m c) ∗ Rg (F := F) c)

set_option backward.isDefEq.respectTransparency.types false in
/-- THE SECOND KERNEL as a segment, from the contents `W2` to `W3`: the generator register and the two tables
    go into the kernel's invariant and come back; nothing is owed; the kernel has no semaphore of its own. -/
def reg1 : Pipeline.RegionSeg (pcfgs (F := F)) adm (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (tbl_ok (F := F)) (V2 m) c).loose
  hwaits := Pipeline.hwaits_of_owed_zero _ _ _ _ L lv 1 fun _ _ => rfl
  pre := St (W2 m)
  post c := iprop(Tₙ m c ∗ Ow (F := F) c)
  X := Rg
  Y c := iprop(Rg (F := F) c ∗ Pipeline.prefHeld pre1 c (fun _ => fullShare) (tbl (F := F)))
  Z c := Pipeline.unscopedRestP (Ix := Unit) (Name := ℕ) (U := UR sig nD τ) (Lvl := ℕ) pre1 spec1 c (V2 m c)
  hentry c := by
    iintro ⟨⟨Hbufs, Hrg, How⟩, -, -⟩
    ihave Hs := (enter1 m c) $$ Hbufs
    icases Hs with ⟨Harr, Htb, Hby⟩
    ihave Ho := (owes_enter (pdats m 1 c) rfl rfl) $$ How
    imodintro
    isplitl [Harr]; · iexact Harr
    isplitl [Htb]; · iexact Htb
    isplitl [Ho]; · iexact Ho
    isplitl [Hrg]; · iexact Hrg
    iexact Hby
  hin c := hin1 (V2 m) c
  hout c := hout1 (V2 m) c
  hexit c := by
    iintro ⟨Harr, Ho, ⟨Hrg, Htb⟩, Hby⟩
    imodintro
    isplitr [Ho]
    · isplitl [Harr Htb Hby]
      · iapply (leave1 m c)
        isplitl [Harr]; · iexact Harr
        isplitl [Htb]; · iexact Htb
        iexact Hby
      iexact Hrg
    iapply (owes_leave (pdats m 1 c) rfl); iexact Ho

/-! ## The program as segments, and the launch -/

/-- The host operations as a segment, from the launch contents. -/
abbrev host0 : Pipeline.HostSeg (Name := ℕ) (U := UR sig nD τ) (pcfgs (F := F)) defs₀ 𝒱₀ L lv :=
  Gen.seg0 m 𝒱₀ L lv (fun _ => Rest (F := F))

/-- The three items in order. -/
abbrev segs : List (Pipeline.Seg (pcfgs (F := F)) adm (pdats m) () defs₀ 𝒱₀ L lv) :=
  [.host (host0 m), .region (reg0 m), .region (reg1 m)]

/-- The program is the run of the three segments. -/
theorem main_run (c : Dev nD) : main (F := F) c = Pipeline.Seg.run (segs m) :=
  Gen.main_segs adm (pdats m) () 𝒱₀ L lv (host0 m) (reg0 m) (reg1 m) rfl c

/-- The launch element of the pipelines' staging cells. -/
abbrev u₀ : UR sig nD τ :=
  initOf (Pipeline.cells (Pipeline.pin (pcfgs (F := F)) adm) (cellOf_inj adm)) (Pipeline.launchToks (Pipeline.pin (pcfgs (F := F)) adm) (cellOf_inj adm))

/-- The launch element is the pipelines' own, and no other ghost resource is dealt to any core. -/
theorem launch_elem : (ownU (u₀ (F := F)) : sProp 𝕄)
    ⊢ |={Set.univ}=> iprop(BI.own (emb₁ (u₀ (F := F))) ∗ bigSep Finset.univ fun _ : Dev nD => (BI.emp : sProp 𝕄)) := by
  rw [BI.bigSep_emp_const]
  change (BI.own (emb₁ (u₀ (F := F))) : sProp 𝕄) ⊢ _
  iintro Hu
  imodintro
  isplitl [Hu]
  · iexact Hu
  · iempintro

/-- What the launch deals a core — its unscoped buffers at the launch memory, its generator register, nothing owed —
    is the core's first state. -/
theorem first_state (ρ : Dev nD → PrngReg) (c : Dev nD) :
    (iprop(unscopedBufs c (fun b => m ((c : Thread nD τ).loc b)) ∗ unscopedSems0 c
        ∗ owes (c : Thread nD τ) (0 : CellTallies nD τ sig Unit) ∅
        ∗ Pipeline.launchCred (fun _ : Dev nD => (0 : CellTallies nD τ sig Unit)) c ∗ prngReg c (ρ c) ∗ BI.emp) : sProp 𝕄)
      ⊢ St (W0 m) c := by
  have e := Pipeline.unscopedBufs_held (Ix := Unit) (Name := ℕ) (U := UR sig nD τ) (Lvl := ℕ) c (W0 m c)
  refine (sep_mono (Entails.of_eq e) .rfl).trans ?_
  iintro ⟨Hbufs, -, How, -, Hrg, -⟩
  isplitl [Hbufs]; · iexact Hbufs
  isplitl [Hrg]
  · iexists (ρ c); iexact Hrg
  · iexists ∅; iexact How

/-- The last state, held beside a final state's interpretation, says what that state's memory holds at every unscoped
    buffer. -/
theorem read_last (c : Dev nD) (s' : Phys nD τ sig (Elt F)) :
    (iprop(Tₙ m c ∗ SI s') : sProp 𝕄)
      ⊢ iprop(⌜∀ b ∈ Pipeline.ucRefs τ sig, s'.mem.mem ((c : Thread nD τ).1, b) = W3 m c b⌝ ∗ SI s') := by
  refine BIBase.Entails.trans ?_ (pointsTo_read_all (Pipeline.ucRefs τ sig) (fun b => ((c : Thread nD τ).1, b)) (W3 m c) s')
  unfold Tₙ StableHlo.held
  iintro ⟨⟨Hbufs, -⟩, HSI⟩
  isplitl [Hbufs]; · iexact Hbufs
  iexact HSI

set_option backward.isDefEq.respectTransparency.types false in
/-- THE RUN. From any memory `m` with zero counters and any generator registers, every weakly fair execution of the
    program on the TensorCores terminates, and in every final memory each unscoped buffer of each core holds the last
    contents `W3`. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W3 m c b) := by
  refine Pipeline.θ_run_regions_kit (pcfgs (F := F)) adm (pdats m) () (cellOf_inj adm) emb₁ defs₀ 𝒱₀ L lv m ρ main (segs m)
    (fun c Q => by rw [main_run m c])
    (by simp only [segs, Pipeline.Seg.pipes_host, Pipeline.Seg.pipes_region, Pipeline.Seg.pipes_nil]; decide)
    (O₀ := fun _ => 0) (hL := fun _ _ => rfl) (G := fun _ => BI.emp) (u₀ := u₀ (F := F)) (hu₀ := launch_elem)
    (T₀ := St (W0 m)) (Tₙ := Tₙ m)
    (hch := ⟨fun _ => .rfl, fun _ => .rfl, fun _ => .rfl, fun _ => .rfl⟩)
    (hinit := Pipeline.initEach L lv fun c => ?_)
    (QY := fun c s => ∀ b ∈ Pipeline.ucRefs τ sig, s.mem ((c : Thread nD τ).1, b) = W3 m c b)
    (hfin := fun c s' => ?_) (hQ := fun _ h => h)
  · iintro ⟨H, -⟩
    imodintro
    iapply (first_state m ρ c)
    iexact H
  · iintro H
    imodintro
    iapply (read_last m c s')
    iexact H

end Cert.KernelIdeal.Hand

end
-- ==== Proof.Spec.lean ====
/-
  The function both programs compute, index by index, over the extended reals.

  Inputs: a batch of activations `x[b,t,c]`, cached keys and values `pk[b,s,c]`, `pv[b,s,c]`, and three
  linear layers `(W, β)` (query, key, value). A layer maps a row to `y[d] = Σ_c x[c]·W[d,c] + β[d]`.
  The key and value arrays are the cache followed by the freshly projected rows (time axis 2048 + 2048).
  A query row `t` scores key `s` by `⟨q_t, k_s⟩ / 32`, keeps it when `s ≤ t` and otherwise takes `-∞`; the
  scores of a row are exponentiated relative to their maximum, normalised by their sum, and the output row is
  the weighted sum of the value rows.
-/
import Idealize.ShloMosaic.PureOps.Ideal
import Idealize.ShloMosaic.Lib.ValueIdx

noncomputable section

namespace Cert.Attn

open Idealize.ShloMosaic Idealize.ShloMosaic.ValueIdx

abbrev SX : Shape := ⟨3, ![4, 2048, 1024]⟩
abbrev SKV : Shape := ⟨3, ![4, 4096, 1024]⟩
abbrev SW : Shape := ⟨2, ![1024, 1024]⟩
abbrev SB : Shape := ⟨1, ![1024]⟩

/-- One linear layer at a row: `Σ_c x[b,t,c]·W[d,c] + β[d]`. -/
def lin (x : SX.Idx → EReal) (W : SW.Idx → EReal) (β : SB.Idx → EReal) (b : Fin 4) (t : Fin 2048) (d : Fin 1024) : EReal :=
  (∑ c : Fin 1024, x (ix3 b t c) * W (ix2 d c)) + β (ix1 d)

/-- The cache followed by the projected rows, along the time axis. -/
def cat (p : SX.Idx → EReal) (x : SX.Idx → EReal) (W : SW.Idx → EReal) (β : SB.Idx → EReal) (b : Fin 4) (s : Fin 4096) (d : Fin 1024) : EReal :=
  if h : s.val < 2048 then p (ix3 b ⟨s.val, h⟩ d) else lin x W β b ⟨s.val - 2048, by have := s.isLt; omega⟩ d

/-- The scaled score of query row `t` against key row `s` (the scale `1/32 = 1/√1024`). -/
def score (q : Fin 4 → Fin 2048 → Fin 1024 → EReal) (k : Fin 4 → Fin 4096 → Fin 1024 → EReal) (b : Fin 4) (t : Fin 2048) (s : Fin 4096) : EReal :=
  (∑ c : Fin 1024, q b t c * k b s c) * ((1 / 32 : ℝ) : EReal)

/-- The causal mask: keys after the query's position score `-∞`. -/
def masked (q : Fin 4 → Fin 2048 → Fin 1024 → EReal) (k : Fin 4 → Fin 4096 → Fin 1024 → EReal) (b : Fin 4) (t : Fin 2048) (s : Fin 4096) : EReal :=
  if s.val ≤ t.val then score q k b t s else ⊥

/-- A row's largest masked score. -/
def rowMax (q : Fin 4 → Fin 2048 → Fin 1024 → EReal) (k : Fin 4 → Fin 4096 → Fin 1024 → EReal) (b : Fin 4) (t : Fin 2048) : EReal :=
  (Finset.univ : Finset (Fin 4096)).fold max ⊥ (masked q k b t)

/-- A key's unnormalised weight in a row. -/
def wexp (q : Fin 4 → Fin 2048 → Fin 1024 → EReal) (k : Fin 4 → Fin 4096 → Fin 1024 → EReal) (b : Fin 4) (t : Fin 2048) (s : Fin 4096) : EReal :=
  Ideal.exp (masked q k b t s - rowMax q k b t)

/-- A row's normaliser. -/
def rowSum (q : Fin 4 → Fin 2048 → Fin 1024 → EReal) (k : Fin 4 → Fin 4096 → Fin 1024 → EReal) (b : Fin 4) (t : Fin 2048) : EReal :=
  ∑ s : Fin 4096, wexp q k b t s

/-- Softmax attention of `q` over `(k, v)`. -/
def attn (q : Fin 4 → Fin 2048 → Fin 1024 → EReal) (k v : Fin 4 → Fin 4096 → Fin 1024 → EReal) (b : Fin 4) (t : Fin 2048) (c : Fin 1024) : EReal :=
  ∑ s : Fin 4096, Ideal.div (wexp q k b t s) (rowSum q k b t) * v b s c

/-- The three results as arrays of the nine arguments. -/
def outK (pk x : SX.Idx → EReal) (Wk : SW.Idx → EReal) (bk : SB.Idx → EReal) : SKV.Idx → EReal :=
  fun i => cat pk x Wk bk (i 0) (i 1) (i 2)

def outV (pv x : SX.Idx → EReal) (Wv : SW.Idx → EReal) (bv : SB.Idx → EReal) : SKV.Idx → EReal :=
  fun i => cat pv x Wv bv (i 0) (i 1) (i 2)

def outO (x pk pv : SX.Idx → EReal) (Wq : SW.Idx → EReal) (bq : SB.Idx → EReal) (Wk : SW.Idx → EReal) (bk : SB.Idx → EReal)
    (Wv : SW.Idx → EReal) (bv : SB.Idx → EReal) : SX.Idx → EReal :=
  fun i => attn (lin x Wq bq) (cat pk x Wk bk) (cat pv x Wv bv) (i 0) (i 1) (i 2)

end Cert.Attn

end
-- ==== Proof.Pay0.lean ====
/-
  The projection kernel's arithmetic, read at an index over the extended reals, and the fused weight and bias arrays
  the host operations build before it.

  A block of 256 activation rows, viewed as a 256 × 1024 matrix, is multiplied by the 1024 × 3072 fused weight matrix
  (the accumulator starts at zero, so an entry is the plain sum over the input channel) and the 1 × 3072 fused bias is
  added to every row. The three column thirds `[0, 1024)`, `[1024, 2048)`, `[2048, 3072)` of the result are the
  query, key and value rows of the block. A cache block viewed as a matrix and back is unchanged.

  The fused weight matrix has, in column `j`, row `k`, the entry `W[j mod-third, k]` of the query, key or value
  layer according to the third `j` lies in (each layer's matrix transposed, the three laid side by side); the fused
  bias is the three bias vectors laid end to end, as one row. So a third of the product is the layer's linear map.
-/
import proofs.«412249_j74225624809935_3_alg».proof.Proof.Gen.KernelIdeal.Skeleton
import proofs.«412249_j74225624809935_3_alg».proof.Proof.Gen.KernelIdeal.Launch
import proofs.«412249_j74225624809935_3_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.Hand

open Cert.KernelIdeal Cert.KernelIdeal.Gen Idealize.ShloMosaic Idealize.ShloMosaic.ValueIdx Idealize.ShloMosaic.StableHlo

/-! ## A block as a matrix, a column third of a wide matrix -/

section Layout
variable {α : Type}

/-- A 256 × 1024 matrix viewed as a one-block array reads entry `(r, d)` at `(0, r, d)`. -/
theorem cast_block (v : S256x1024.Idx → α) (h : S256x1024.ShapeCasts S1x256x1024) (r : Fin 256) (d : Fin 1024) :
    shapeCast S1x256x1024 v h (ix3 0 r d) = v (ix2 r d) :=
  shapeCast_apply v h (ix3 0 r d) (ix2 r d) (by
    rw [Shape.rowMajor_val_two, Shape.rowMajor_val_three]
    show r.val * 1024 + d.val = ((0 : Fin 1).val * 256 + r.val) * 1024 + d.val
    simp)

/-- A one-block array viewed as a 256 × 1024 matrix reads `(0, r, d)` at entry `(r, d)`. -/
theorem uncast_block (v : S1x256x1024.Idx → α) (h : S1x256x1024.ShapeCasts S256x1024) (r : Fin 256) (d : Fin 1024) :
    shapeCast S256x1024 v h (ix2 r d) = v (ix3 0 r d) :=
  shapeCast_apply v h (ix2 r d) (ix3 0 r d) (by
    rw [Shape.rowMajor_val_two, Shape.rowMajor_val_three]
    show ((0 : Fin 1).val * 256 + r.val) * 1024 + d.val = r.val * 1024 + d.val
    simp)

/-- The 1024 columns from `o` on of a 256 × 3072 matrix. -/
theorem third_slice (o : Nat) (ho : o + 1024 ≤ 3072) (v : S256x3072.Idx → α) (h : S256x3072.Slices ![0, o] S256x1024)
    (r : Fin 256) (d : Fin 1024) :
    extractStridedSlice S256x1024 ![0, o] v h (ix2 r d) = v (ix2 r ⟨o + d.val, by have := d.isLt; omega⟩) :=
  extractStridedSlice_apply ![0, o] v h (ix2 r d) (ix2 r ⟨o + d.val, by have := d.isLt; omega⟩) (fun a => by
    match a with
    | ⟨0, _⟩ => show r.val = 0 + r.val; omega
    | ⟨1, _⟩ => rfl)

end Layout

/-! ## The product with the fused weights, plus the fused bias -/

/-- The matrix product's operand indices at output `i`, contraction index `q`: row `i 0` and column `q` on the left,
    row `q` and column `i 1` on the right. -/
theorem dot_lhs0 (i : S256x3072.Idx) (q : dot_S256x1024_S1024x3072_S256x3072_1_0_0_1_n_n.contr.Idx) :
    (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide),
    dif_pos (show (0 : Fin S256x1024.rank) ∈ dot_S256x1024_S1024x3072_S256x3072_1_0_0_1_n_n.lhsNonContracting by decide)]
  rfl
theorem dot_lhs1 (i : S256x3072.Idx) (q : dot_S256x1024_S1024x3072_S256x3072_1_0_0_1_n_n.contr.Idx) :
    (dot_S256x1024_S1024x3072_S256x3072_1_0_0_1_n_n.lhsIdx i q 1).val = (q ⟨0, by decide⟩).val :=
  dot_S256x1024_S1024x3072_S256x3072_1_0_0_1_n_n.lhsIdx_val_of_single rfl i q
theorem dot_rhs0 (i : S256x3072.Idx) (q : dot_S256x1024_S1024x3072_S256x3072_1_0_0_1_n_n.contr.Idx) :
    (dot_S256x1024_S1024x3072_S256x3072_1_0_0_1_n_n.rhsIdx i q 0).val = (q ⟨0, by decide⟩).val :=
  dot_S256x1024_S1024x3072_S256x3072_1_0_0_1_n_n.rhsIdx_val_of_single rfl i q
theorem dot_rhs1 (i : S256x3072.Idx) (q : dot_S256x1024_S1024x3072_S256x3072_1_0_0_1_n_n.contr.Idx) :
    (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide),
    dif_pos (show (1 : Fin S1024x3072.rank) ∈ dot_S256x1024_S1024x3072_S256x3072_1_0_0_1_n_n.rhsNonContracting by decide)]
  rfl

/-- Entry `(r, j)` of the block's rows times the fused weights, plus the fused bias. -/
theorem proj_pay1_apply (xb : Vec Ideal S1x256x1024 .f32) (W : Vec Ideal S1024x3072 .bf16) (β : Vec Ideal S1x3072 .f32)
    (r : Fin 256) (j : Fin 3072) :
    k0_pay1 (F := Ideal) xb W β (ix2 r j) = (∑ k : Fin 1024, xb (ix3 0 r k) * W (ix2 k j)) + β (ix2 0 j) := by
  unfold k0_pay1
  show (matmul (F := Ideal) dot_S256x1024_S1024x3072_S256x3072_1_0_0_1_n_n none
        (truncf (F := Ideal) .bf16 (shapeCast S256x1024 xb shapeCasts_S1x256x1024_S256x1024) bitsLt_bf16_f32)
        (shapeCast S1024x3072 W shapeCasts_S1024x3072_S1024x3072) (constant (F := Ideal) S256x3072 .f32 0x00000000#32)) (ix2 r j)
      + (broadcastTo S256x3072 (shapeCast S1x3072 β shapeCasts_S1x3072_S1x3072) broadcasts_S1x3072_S256x3072) (ix2 r j) = _
  rw [shapeCast_self W, shapeCast_self β]
  refine congrArg₂ (· + ·) ?_ ?_
  · simp only [matmul]
    rw [Ideal.matmul_constant_zero_apply,
      ← Equiv.sum_comp (contrEquiv1 dot_S256x1024_S1024x3072_S256x3072_1_0_0_1_n_n 1024 rfl rfl).symm]
    refine Finset.sum_congr rfl fun k _ => ?_
    have hk := contrEquiv1_symm_val dot_S256x1024_S1024x3072_S256x3072_1_0_0_1_n_n 1024 rfl rfl k
    have el : dot_S256x1024_S1024x3072_S256x3072_1_0_0_1_n_n.lhsIdx (ix2 r j)
        ((contrEquiv1 dot_S256x1024_S1024x3072_S256x3072_1_0_0_1_n_n 1024 rfl rfl).symm k) = ix2 r k :=
      funext fun a => Fin.ext (by
        match a with
        | ⟨0, _⟩ => exact dot_lhs0 _ _
        | ⟨1, _⟩ => exact (dot_lhs1 _ _).trans hk)
    have er : dot_S256x1024_S1024x3072_S256x3072_1_0_0_1_n_n.rhsIdx (ix2 r j)
        ((contrEquiv1 dot_S256x1024_S1024x3072_S256x3072_1_0_0_1_n_n 1024 rfl rfl).symm k) = ix2 k j :=
      funext fun a => Fin.ext (by
        match a with
        | ⟨0, _⟩ => exact (dot_rhs0 _ _).trans hk
        | ⟨1, _⟩ => exact dot_rhs1 _ _)
    rw [el, er]
    exact congrArg (· * W (ix2 k j)) (uncast_block xb _ r k)
  · exact broadcastTo_apply β _ (ix2 r j) (ix2 0 j) (fun a => by
      match a with
      | ⟨0, _⟩ => rfl
      | ⟨1, _⟩ => rfl)

/-! ## The three column thirds: the query, key and value rows of the block -/

theorem proj_pay2_apply (xb : Vec Ideal S1x256x1024 .f32) (W : Vec Ideal S1024x3072 .bf16) (β : Vec Ideal S1x3072 .f32)
    (r : Fin 256) (d : Fin 1024) :
    k0_pay2 (F := Ideal) xb W β (ix3 0 r d)
      = (∑ k : Fin 1024, xb (ix3 0 r k) * W (ix2 k ⟨d.val, by omega⟩)) + β (ix2 0 ⟨d.val, by omega⟩) := by
  unfold k0_pay2
  refine (cast_block _ _ r d).trans ?_
  rw [truncf_apply]
  refine (third_slice 0 (by omega) _ _ r d).trans ?_
  rw [proj_pay1_apply]
  simp only [Nat.zero_add]

theorem proj_pay3_apply (xb : Vec Ideal S1x256x1024 .f32) (W : Vec Ideal S1024x3072 .bf16) (β : Vec Ideal S1x3072 .f32)
    (r : Fin 256) (d : Fin 1024) :
    k0_pay3 (F := Ideal) xb W β (ix3 0 r d)
      = (∑ k : Fin 1024, xb (ix3 0 r k) * W (ix2 k ⟨1024 + d.val, by omega⟩)) + β (ix2 0 ⟨1024 + d.val, by omega⟩) := by
  unfold k0_pay3
  refine (cast_block _ _ r d).trans ?_
  refine (third_slice 1024 (by omega) _ _ r d).trans ?_
  rw [proj_pay1_apply]

theorem proj_pay4_apply (xb : Vec Ideal S1x256x1024 .f32) (W : Vec Ideal S1024x3072 .bf16) (β : Vec Ideal S1x3072 .f32)
    (r : Fin 256) (d : Fin 1024) :
    k0_pay4 (F := Ideal) xb W β (ix3 0 r d)
      = (∑ k : Fin 1024, xb (ix3 0 r k) * W (ix2 k ⟨2048 + d.val, by omega⟩)) + β (ix2 0 ⟨2048 + d.val, by omega⟩) := by
  unfold k0_pay4
  refine (cast_block _ _ r d).trans ?_
  refine (third_slice 2048 (by omega) _ _ r d).trans ?_
  rw [proj_pay1_apply]

/-! ## A cache block viewed as a matrix and back -/

theorem proj_pay7_apply (pb : Vec Ideal S1x256x1024 .f32) (i : S1x256x1024.Idx) : k0_pay7 (F := Ideal) pb i = pb i := by
  unfold k0_pay7 k0_pay5
  exact congrFun (shapeCast_shapeCast pb _ _) i

theorem proj_pay8_apply (pb : Vec Ideal S1x256x1024 .f32) (i : S1x256x1024.Idx) : k0_pay8 (F := Ideal) pb i = pb i := by
  unfold k0_pay8 k0_pay6
  exact congrFun (shapeCast_shapeCast pb _ _) i

theorem proj_pay9_apply (pb : Vec Ideal S1x256x1024 .f32) (i : S1x256x1024.Idx) : k0_pay9 (F := Ideal) pb i = pb i := by
  unfold k0_pay9 k0_pay5
  exact congrFun (shapeCast_shapeCast pb shapeCasts_S1x256x1024_S256x1024 shapeCasts_S256x1024_S1x256x1024) i

theorem proj_pay10_apply (pb : Vec Ideal S1x256x1024 .f32) (i : S1x256x1024.Idx) : k0_pay10 (F := Ideal) pb i = pb i := by
  unfold k0_pay10 k0_pay6
  exact congrFun (shapeCast_shapeCast pb shapeCasts_S1x256x1024_S256x1024 shapeCasts_S256x1024_S1x256x1024) i

/-! ## The fused weights and bias -/

/-- The fused weight matrix: column `j` of row `k` is the query, key or value layer's `W[j - third, k]`. -/
def Wf (Wq Wk Wv : Cert.Attn.SW.Idx → EReal) : S1024x3072.Idx → EReal := fun i =>
  if h : (i 1).val < 1024 then Wq (ix2 ⟨(i 1).val, h⟩ (i 0))
  else if h' : (i 1).val < 2048 then Wk (ix2 ⟨(i 1).val - 1024, by omega⟩ (i 0))
  else Wv (ix2 ⟨(i 1).val - 2048, by have h3 : (i 1).val < 3072 := (i 1).isLt; omega⟩ (i 0))

/-- The fused bias row: the three bias vectors end to end. -/
def βf (bq bk bv : Cert.Attn.SB.Idx → EReal) : S1x3072.Idx → EReal := fun i =>
  if h : (i 1).val < 1024 then bq (ValueIdx.ix1 ⟨(i 1).val, h⟩)
  else if h' : (i 1).val < 2048 then bk (ValueIdx.ix1 ⟨(i 1).val - 1024, by omega⟩)
  else bv (ValueIdx.ix1 ⟨(i 1).val - 2048, by have h3 : (i 1).val < 3072 := (i 1).isLt; omega⟩)

theorem Wf_apply (Wq Wk Wv : Cert.Attn.SW.Idx → EReal) (k : Fin 1024) (j : Fin 3072) :
    Wf Wq Wk Wv (ix2 k j)
      = if h : j.val < 1024 then Wq (ix2 ⟨j.val, h⟩ k)
        else if h' : j.val < 2048 then Wk (ix2 ⟨j.val - 1024, by omega⟩ k)
        else Wv (ix2 ⟨j.val - 2048, by have := j.isLt; omega⟩ k) := rfl

theorem βf_apply (bq bk bv : Cert.Attn.SB.Idx → EReal) (z : Fin 1) (j : Fin 3072) :
    βf bq bk bv (ix2 z j)
      = if h : j.val < 1024 then bq (ValueIdx.ix1 ⟨j.val, h⟩)
        else if h' : j.val < 2048 then bk (ValueIdx.ix1 ⟨j.val - 1024, by omega⟩)
        else bv (ValueIdx.ix1 ⟨j.val - 2048, by have := j.isLt; omega⟩) := rfl

/-! ## Three pieces laid side by side, read at an index -/

section Cat3
variable {α : Type}

/-- Three 1024 × 1024 matrices side by side: column `j` lies in the piece its third names. -/
theorem cat3_cols (A B C : S1024x1024.Idx → α)
    (hC : Shape.Concatenates [S1024x1024, S1024x1024, S1024x1024] S1024x3072 1) (k : Fin 1024) (j : Fin 3072) :
    concatenate S1024x3072 1 [⟨S1024x1024, A⟩, ⟨S1024x1024, B⟩, ⟨S1024x1024, C⟩] hC (ix2 k j)
      = if h : j.val < 1024 then A (ix2 k ⟨j.val, h⟩)
        else if h' : j.val < 2048 then B (ix2 k ⟨j.val - 1024, by omega⟩)
        else C (ix2 k ⟨j.val - 2048, by have := j.isLt; omega⟩) := by
  by_cases h : j.val < 1024
  · rw [dif_pos h]
    exact concatenate_apply_piece (α := α) 1 [⟨S1024x1024, A⟩, ⟨S1024x1024, B⟩, ⟨S1024x1024, C⟩] hC (ix2 k j) 0 (by show 0 < 3; omega) S1024x1024 A rfl rfl 0 rfl (ix2 k ⟨j.val, h⟩)
      (fun b hb => by
        match b with
        | ⟨0, _⟩ => rfl
        | ⟨1, _⟩ => exact absurd rfl hb)
      (by show 0 + j.val = j.val; omega)
  · rw [dif_neg h]
    by_cases h' : j.val < 2048
    · rw [dif_pos h']
      exact concatenate_apply_piece (α := α) 1 [⟨S1024x1024, A⟩, ⟨S1024x1024, B⟩, ⟨S1024x1024, C⟩] hC (ix2 k j) 1 (by show 1 < 3; omega) S1024x1024 B rfl rfl 1024 rfl
        (ix2 k ⟨j.val - 1024, by omega⟩)
        (fun b hb => by
          match b with
          | ⟨0, _⟩ => rfl
          | ⟨1, _⟩ => exact absurd rfl hb)
        (by show 1024 + (j.val - 1024) = j.val; omega)
    · rw [dif_neg h']
      exact concatenate_apply_piece (α := α) 1 [⟨S1024x1024, A⟩, ⟨S1024x1024, B⟩, ⟨S1024x1024, C⟩] hC (ix2 k j) 2 (by show 2 < 3; omega) S1024x1024 C rfl rfl 2048 rfl
        (ix2 k ⟨j.val - 2048, by have := j.isLt; omega⟩)
        (fun b hb => by
          match b with
          | ⟨0, _⟩ => rfl
          | ⟨1, _⟩ => exact absurd rfl hb)
        (by show 2048 + (j.val - 2048) = j.val; omega)

/-- Three vectors of 1024 entries end to end. -/
theorem cat3_vec (A B C : S1024.Idx → α) (hC : Shape.Concatenates [S1024, S1024, S1024] S3072 0) (j : Fin 3072) :
    concatenate S3072 0 [⟨S1024, A⟩, ⟨S1024, B⟩, ⟨S1024, C⟩] hC (ValueIdx.ix1 j)
      = if h : j.val < 1024 then A (ValueIdx.ix1 ⟨j.val, h⟩)
        else if h' : j.val < 2048 then B (ValueIdx.ix1 ⟨j.val - 1024, by omega⟩)
        else C (ValueIdx.ix1 ⟨j.val - 2048, by have := j.isLt; omega⟩) := by
  by_cases h : j.val < 1024
  · rw [dif_pos h]
    exact concatenate_apply_piece (α := α) 0 [⟨S1024, A⟩, ⟨S1024, B⟩, ⟨S1024, C⟩] hC (ValueIdx.ix1 j) 0 (by show 0 < 3; omega) S1024 A rfl rfl 0 rfl (ValueIdx.ix1 ⟨j.val, h⟩)
      (fun b hb => by
        match b with
        | ⟨0, _⟩ => exact absurd rfl hb)
      (by show 0 + j.val = j.val; omega)
  · rw [dif_neg h]
    by_cases h' : j.val < 2048
    · rw [dif_pos h']
      exact concatenate_apply_piece (α := α) 0 [⟨S1024, A⟩, ⟨S1024, B⟩, ⟨S1024, C⟩] hC (ValueIdx.ix1 j) 1 (by show 1 < 3; omega) S1024 B rfl rfl 1024 rfl (ValueIdx.ix1 ⟨j.val - 1024, by omega⟩)
        (fun b hb => by
          match b with
          | ⟨0, _⟩ => exact absurd rfl hb)
        (by show 1024 + (j.val - 1024) = j.val; omega)
    · rw [dif_neg h']
      exact concatenate_apply_piece (α := α) 0 [⟨S1024, A⟩, ⟨S1024, B⟩, ⟨S1024, C⟩] hC (ValueIdx.ix1 j) 2 (by show 2 < 3; omega) S1024 C rfl rfl 2048 rfl
        (ValueIdx.ix1 ⟨j.val - 2048, by have := j.isLt; omega⟩)
        (fun b hb => by
          match b with
          | ⟨0, _⟩ => exact absurd rfl hb)
        (by show 2048 + (j.val - 2048) = j.val; omega)

/-- A vector of 3072 entries viewed as one row. -/
theorem row_cast (v : S3072.Idx → α) (h : S3072.ShapeCasts S1x3072) (z : Fin 1) (j : Fin 3072) :
    shapeCast S1x3072 v h (ix2 z j) = v (ValueIdx.ix1 j) :=
  shapeCast_apply v h (ix2 z j) (ValueIdx.ix1 j) (by
    rw [Shape.rowMajor_val_one, Shape.rowMajor_val_two]
    show j.val = z.val * 3072 + j.val
    have := z.isLt; omega)

end Cat3

/-- The three layers' matrices, each transposed, side by side: the fused weights. -/
theorem fusedW_eq (Wq Wk Wv : Vec Ideal S1024x1024 .f32) (hT : S1024x1024.Transposes [1, 0] S1024x1024)
    (hb : FTy.bits .bf16 < FTy.bits .f32)
    (hC : Shape.Concatenates [S1024x1024, S1024x1024, S1024x1024] S1024x3072 1) :
    concatenate S1024x3072 1
      [⟨S1024x1024, truncf (F := Ideal) .bf16 (transpose S1024x1024 [1, 0] Wq hT) hb⟩,
       ⟨S1024x1024, truncf (F := Ideal) .bf16 (transpose S1024x1024 [1, 0] Wk hT) hb⟩,
       ⟨S1024x1024, truncf (F := Ideal) .bf16 (transpose S1024x1024 [1, 0] Wv hT) hb⟩] hC = Wf Wq Wk Wv := by
  funext i
  obtain ⟨k, j, rfl⟩ : ∃ k j, i = ix2 k j := ⟨i 0, i 1, eq_ix2 i⟩
  rw [cat3_cols, Wf_apply]
  have tr : ∀ (W : Vec Ideal S1024x1024 .f32) (j' : Fin 1024),
      truncf (F := Ideal) .bf16 (transpose S1024x1024 [1, 0] W hT) hb (ix2 k j') = W (ix2 j' k) := fun W j' =>
    transpose_apply [1, 0] W hT (ix2 k j') (ix2 j' k) (fun b => by
      match b with
      | ⟨0, _⟩ => rfl
      | ⟨1, _⟩ => rfl)
  by_cases h : j.val < 1024
  · rw [dif_pos h, dif_pos h]; exact tr Wq _
  · rw [dif_neg h, dif_neg h]
    by_cases h' : j.val < 2048
    · rw [dif_pos h', dif_pos h']; exact tr Wk _
    · rw [dif_neg h', dif_neg h']; exact tr Wv _

/-- The three bias vectors end to end, as one row: the fused bias. -/
theorem fusedβ_eq (bq bk bv : Vec Ideal S1024 .f32) (hC : Shape.Concatenates [S1024, S1024, S1024] S3072 0)
    (hS : S3072.ShapeCasts S1x3072) :
    shapeCast S1x3072 (concatenate S3072 0 [⟨S1024, bq⟩, ⟨S1024, bk⟩, ⟨S1024, bv⟩] hC) hS = βf bq bk bv := by
  funext i
  obtain ⟨z, j, rfl⟩ : ∃ z j, i = ix2 z j := ⟨i 0, i 1, eq_ix2 i⟩
  rw [row_cast, cat3_vec, βf_apply]

/-! ## The linear layers through the fused arrays -/

theorem lin_third_q (x : Cert.Attn.SX.Idx → EReal) (Wq Wk Wv : Cert.Attn.SW.Idx → EReal) (bq bk bv : Cert.Attn.SB.Idx → EReal)
    (b : Fin 4) (t : Fin 2048) (d : Fin 1024) :
    (∑ k : Fin 1024, x (ix3 b t k) * Wf Wq Wk Wv (ix2 k ⟨d.val, by omega⟩)) + βf bq bk bv (ix2 0 ⟨d.val, by omega⟩)
      = Cert.Attn.lin x Wq bq b t d := by
  have hd : d.val < 1024 := d.isLt
  unfold Cert.Attn.lin
  refine congrArg₂ (· + ·) (Finset.sum_congr rfl fun k _ => ?_) ?_
  · rw [Wf_apply, dif_pos hd]
  · rw [βf_apply, dif_pos hd]

theorem lin_third_k (x : Cert.Attn.SX.Idx → EReal) (Wq Wk Wv : Cert.Attn.SW.Idx → EReal) (bq bk bv : Cert.Attn.SB.Idx → EReal)
    (b : Fin 4) (t : Fin 2048) (d : Fin 1024) :
    (∑ k : Fin 1024, x (ix3 b t k) * Wf Wq Wk Wv (ix2 k ⟨1024 + d.val, by omega⟩))
        + βf bq bk bv (ix2 0 ⟨1024 + d.val, by omega⟩)
      = Cert.Attn.lin x Wk bk b t d := by
  have hd : d.val < 1024 := d.isLt
  have h1 : ¬ (1024 + d.val < 1024) := by omega
  have h2 : 1024 + d.val < 2048 := by omega
  have e : (⟨1024 + d.val - 1024, by omega⟩ : Fin 1024) = d := Fin.ext (by show 1024 + d.val - 1024 = d.val; omega)
  unfold Cert.Attn.lin
  refine congrArg₂ (· + ·) (Finset.sum_congr rfl fun k _ => ?_) ?_
  · rw [Wf_apply, dif_neg h1, dif_pos h2, e]
  · rw [βf_apply, dif_neg h1, dif_pos h2, e]

theorem lin_third_v (x : Cert.Attn.SX.Idx → EReal) (Wq Wk Wv : Cert.Attn.SW.Idx → EReal) (bq bk bv : Cert.Attn.SB.Idx → EReal)
    (b : Fin 4) (t : Fin 2048) (d : Fin 1024) :
    (∑ k : Fin 1024, x (ix3 b t k) * Wf Wq Wk Wv (ix2 k ⟨2048 + d.val, by omega⟩))
        + βf bq bk bv (ix2 0 ⟨2048 + d.val, by omega⟩)
      = Cert.Attn.lin x Wv bv b t d := by
  have hd : d.val < 1024 := d.isLt
  have h1 : ¬ (2048 + d.val < 1024) := by omega
  have h2 : ¬ (2048 + d.val < 2048) := by omega
  have e : (⟨2048 + d.val - 2048, by omega⟩ : Fin 1024) = d := Fin.ext (by show 2048 + d.val - 2048 = d.val; omega)
  unfold Cert.Attn.lin
  refine congrArg₂ (· + ·) (Finset.sum_congr rfl fun k _ => ?_) ?_
  · rw [Wf_apply, dif_neg h1, dif_neg h2, e]
  · rw [βf_apply, dif_neg h1, dif_neg h2, e]

/-! ## What the host operations leave in the fused arrays and the two literal tables -/

/-- A three-operand operation's result, with each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a))
          (Fin.cons (V (Proc.devRef .tc b)) (fun i => i.elim0)))) := by
  rw [nary_result]; congr 1; funext k; fin_cases k <;> rfl

/-- The fused weight array after the host operations. -/
theorem host_W (m : (ℓ : Loc nD τ sig) → Buf (Elt Ideal) ℓ) (c : Dev nD) :
    (StableHlo.after (hostOps0 (F := Ideal)) (fun b => m (c, b)) (Proc.devRef .tc main_v6) : S1024x3072.Idx → EReal)
      = Wf (m ((c.tc : Thread nD τ).loc main_arg3)) (m ((c.tc : Thread nD τ).loc main_arg5))
          (m ((c.tc : Thread nD τ).loc main_arg7)) := by
  simp only [after_cons, after_nil]
  repeat (first
    | rw [nary3_result] | rw [unary_result] | rw [reshape_result] | rw [nullary_result]
    | (rw [nullary_result_ne]; rotate_left; decide)
    | (rw [unary_result_ne]; rotate_left; decide)
    | (rw [nary_result_ne]; rotate_left; decide)
    | (rw [reshape_result_ne]; rotate_left; decide))
  exact fusedW_eq _ _ _ _ _ _

/-- The fused bias array after the host operations. -/
theorem host_β (m : (ℓ : Loc nD τ sig) → Buf (Elt Ideal) ℓ) (c : Dev nD) :
    (StableHlo.after (hostOps0 (F := Ideal)) (fun b => m (c, b)) (Proc.devRef .tc main_v8) : S1x3072.Idx → EReal)
      = βf (m ((c.tc : Thread nD τ).loc main_arg4)) (m ((c.tc : Thread nD τ).loc main_arg6))
          (m ((c.tc : Thread nD τ).loc main_arg8)) := by
  simp only [after_cons, after_nil]
  repeat (first
    | rw [nary3_result] | rw [unary_result] | rw [reshape_result] | rw [nullary_result]
    | (rw [nullary_result_ne]; rotate_left; decide)
    | (rw [unary_result_ne]; rotate_left; decide)
    | (rw [nary_result_ne]; rotate_left; decide)
    | (rw [reshape_result_ne]; rotate_left; decide))
  exact fusedβ_eq _ _ _ _ _

section Tables
variable {F : FTy → Type} [FloatOps F] [Named F]

/-- The two literal index tables after the host operations. -/
theorem host_c0 (m : (ℓ : Loc nD τ sig) → Buf (Elt F) ℓ) (c : Dev nD) :
    StableHlo.after (hostOps0 (F := F)) (fun b => m (c, b)) (Proc.devRef .tc main_c)
      = (fun i => lit0 (S10.rowMajor i)) := by
  after_results
  rfl

theorem host_c1 (m : (ℓ : Loc nD τ sig) → Buf (Elt F) ℓ) (c : Dev nD) :
    StableHlo.after (hostOps0 (F := F)) (fun b => m (c, b)) (Proc.devRef .tc main_c_0)
      = (fun i => lit1 (S10.rowMajor i)) := by
  after_results
  rfl

end Tables

end Cert.KernelIdeal.Hand

end
-- ==== Proof.Val0.lean ====
/-
  The first pallas_call (the fused projection and cache copy) over the extended reals: what it leaves in its five
  result arrays, index by index, as functions of the arrays it reads.

  The grid is 4 batches × 16 steps; point `t` is batch `t / 16`, step `t % 16`, pair index `(t % 16) / 2`.
  A block is one batch × 256 rows × all 1024 columns, so a block index `(b, j, 0)` covers the array's entries
  `(b, 256 j + r, d)`.  The query array receives, at each odd step, the query third of the product of the pair's
  rows of `x`; the key and value arrays receive at each even step the projected third into block `8 + j` and at
  each odd step the cached block into block `j`; the two shadows receive the cached blocks at the odd steps.
  Every written-back block is the restriction of one function of the whole arrays, and the written-back blocks
  cover each array, so each array ends at that function.
-/
import proofs.«412249_j74225624809935_3_alg».proof.Proof.Data0
import proofs.«412249_j74225624809935_3_alg».proof.Proof.Spec
import proofs.«412249_j74225624809935_3_alg».proof.Proof.Pay0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! ## The schedule in closed form -/

/-- The grid has 64 points. -/
theorem N0 : cfg0.N = 64 := N_0

/-- A point's step is even exactly when the body takes its projecting branch. -/
theorem even_iff0 : ∀ t : Fin cfg0.N, k0_cond1 (grid0.coords t) = 1#1 ↔ t.val % 2 = 0 :=
  (by decide +kernel : ∀ t : Fin grid0.N, k0_cond1 (grid0.coords t) = 1#1 ↔ t.val % 2 = 0)

/-- The block index of the input windows at a point: batch `t / 16`, pair index `(t % 16) / 2`. -/
theorem in_idx0 : ∀ t : Fin cfg0.N,
    (win0_0.index t (0 : Fin 3) = t.val / 16 ∧ win0_0.index t (1 : Fin 3) = t.val % 16 / 2 ∧ win0_0.index t (2 : Fin 3) = 0)
    ∧ (win0_1.index t (0 : Fin 3) = t.val / 16 ∧ win0_1.index t (1 : Fin 3) = t.val % 16 / 2 ∧ win0_1.index t (2 : Fin 3) = 0)
    ∧ (win0_2.index t (0 : Fin 3) = t.val / 16 ∧ win0_2.index t (1 : Fin 3) = t.val % 16 / 2 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- The block index of the result windows at a point: the query and shadow windows sit at the pair index; the key and
    value windows at `8 +` the pair index on an even step and at the pair index on an odd one. -/
theorem out_idx0 : ∀ t : Fin cfg0.N,
    (win0_5.index t (0 : Fin 3) = t.val / 16 ∧ win0_5.index t (1 : Fin 3) = t.val % 16 / 2 ∧ win0_5.index t (2 : Fin 3) = 0)
    ∧ (win0_6.index t (0 : Fin 3) = t.val / 16 ∧ win0_6.index t (1 : Fin 3) = (if t.val % 2 = 0 then 8 + t.val % 16 / 2 else t.val % 16 / 2) ∧ win0_6.index t (2 : Fin 3) = 0)
    ∧ (win0_7.index t (0 : Fin 3) = t.val / 16 ∧ win0_7.index t (1 : Fin 3) = (if t.val % 2 = 0 then 8 + t.val % 16 / 2 else t.val % 16 / 2) ∧ win0_7.index t (2 : Fin 3) = 0)
    ∧ (win0_8.index t (0 : Fin 3) = t.val / 16 ∧ win0_8.index t (1 : Fin 3) = t.val % 16 / 2 ∧ win0_8.index t (2 : Fin 3) = 0)
    ∧ (win0_9.index t (0 : Fin 3) = t.val / 16 ∧ win0_9.index t (1 : Fin 3) = t.val % 16 / 2 ∧ win0_9.index t (2 : Fin 3) = 0) :=
  (by decide +kernel : ∀ t : Fin grid0.N, _)

/-! ## The input blocks as entries of their arrays -/

/-- An entry of the cached-key block at a point is the array's entry at the block's offset. -/
theorem pk_blk0 (c : Dev nD) (t : Fin cfg0.N) (y : S1x256x1024.Idx) (i : S4x2048x1024.Idx)
    (h0 : (i 0).val = t.val / 16 + (y 0).val) (h1 : (i 1).val = 256 * (t.val % 16 / 2) + (y 1).val) (h2 : (i 2).val = (y 2).val) :
    (iblk0 (F := Ideal) V c 1 t : S1x256x1024.Idx → EReal) y = (V c main_arg1 : S4x2048x1024.Idx → EReal) i := by
  obtain ⟨-, ⟨e0, e1, e2⟩, -⟩ := in_idx0 t
  unfold iblk0
  rw [View.read_apply]
  show (V c main_arg1 : S4x2048x1024.Idx → EReal) _ = (V c main_arg1 : S4x2048x1024.Idx → EReal) i
  congr 1
  funext a
  apply Fin.ext
  match a with
  | ⟨0, _⟩ => show win0_1.index t (0 : Fin 3) * 1 + 1 * (y 0).val = (i 0).val; omega
  | ⟨1, _⟩ => show win0_1.index t (1 : Fin 3) * 256 + 1 * (y 1).val = (i 1).val; omega
  | ⟨2, _⟩ => show win0_1.index t (2 : Fin 3) * 1024 + 1 * (y 2).val = (i 2).val; omega

/-- An entry of the activation block at a point is the array's entry at the block's offset. -/
theorem x_blk0 (c : Dev nD) (t : Fin cfg0.N) (y : S1x256x1024.Idx) (i : S4x2048x1024.Idx)
    (h0 : (i 0).val = t.val / 16 + (y 0).val) (h1 : (i 1).val = 256 * (t.val % 16 / 2) + (y 1).val) (h2 : (i 2).val = (y 2).val) :
    (iblk0 (F := Ideal) V c 0 t : S1x256x1024.Idx → EReal) y = (V c main_arg0 : S4x2048x1024.Idx → EReal) i := by
  obtain ⟨⟨e0, e1, e2⟩, -⟩ := in_idx0 t
  unfold iblk0
  rw [View.read_apply]
  show (V c main_arg0 : S4x2048x1024.Idx → EReal) _ = (V c main_arg0 : S4x2048x1024.Idx → EReal) i
  congr 1
  funext a
  apply Fin.ext
  match a with
  | ⟨0, _⟩ => show win0_0.index t (0 : Fin 3) * 1 + 1 * (y 0).val = (i 0).val; omega
  | ⟨1, _⟩ => show win0_0.index t (1 : Fin 3) * 256 + 1 * (y 1).val = (i 1).val; omega
  | ⟨2, _⟩ => show win0_0.index t (2 : Fin 3) * 1024 + 1 * (y 2).val = (i 2).val; omega

/-- An entry of the cached-value block at a point is the array's entry at the block's offset. -/
theorem pv_blk0 (c : Dev nD) (t : Fin cfg0.N) (y : S1x256x1024.Idx) (i : S4x2048x1024.Idx)
    (h0 : (i 0).val = t.val / 16 + (y 0).val) (h1 : (i 1).val = 256 * (t.val % 16 / 2) + (y 1).val) (h2 : (i 2).val = (y 2).val) :
    (iblk0 (F := Ideal) V c 2 t : S1x256x1024.Idx → EReal) y = (V c main_arg2 : S4x2048x1024.Idx → EReal) i := by
  obtain ⟨-, -, ⟨e0, e1, e2⟩, -⟩ := in_idx0 t
  unfold iblk0
  rw [View.read_apply]
  show (V c main_arg2 : S4x2048x1024.Idx → EReal) _ = (V c main_arg2 : S4x2048x1024.Idx → EReal) i
  congr 1
  funext a
  apply Fin.ext
  match a with
  | ⟨0, _⟩ => show win0_2.index t (0 : Fin 3) * 1 + 1 * (y 0).val = (i 0).val; omega
  | ⟨1, _⟩ => show win0_2.index t (1 : Fin 3) * 256 + 1 * (y 1).val = (i 1).val; omega
  | ⟨2, _⟩ => show win0_2.index t (2 : Fin 3) * 1024 + 1 * (y 2).val = (i 2).val; omega

/-- The weight window's block is the whole fused weight matrix. -/
theorem W_blk0 (c : Dev nD) (t : Fin cfg0.N) (j : S1024x3072.Idx) :
    (iblk0 (F := Ideal) V c 3 t : S1024x3072.Idx → EReal) j = (V c main_v6 : S1024x3072.Idx → EReal) j := by
  obtain ⟨-, -, -, ⟨e0, e1⟩, -⟩ := in_idx0 t
  unfold iblk0
  rw [View.read_apply]
  show (V c main_v6 : S1024x3072.Idx → EReal) _ = (V c main_v6 : S1024x3072.Idx → EReal) j
  congr 1
  funext a
  apply Fin.ext
  match a with
  | ⟨0, _⟩ => show win0_3.index t (0 : Fin 2) * 1024 + 1 * (j 0).val = (j 0).val; omega
  | ⟨1, _⟩ => show win0_3.index t (1 : Fin 2) * 3072 + 1 * (j 1).val = (j 1).val; omega

/-- The bias window's block is the whole fused bias row. -/
theorem β_blk0 (c : Dev nD) (t : Fin cfg0.N) (j : S1x3072.Idx) :
    (iblk0 (F := Ideal) V c 4 t : S1x3072.Idx → EReal) j = (V c main_v8 : S1x3072.Idx → EReal) j := by
  obtain ⟨-, -, -, -, ⟨e0, e1⟩⟩ := in_idx0 t
  unfold iblk0
  rw [View.read_apply]
  show (V c main_v8 : S1x3072.Idx → EReal) _ = (V c main_v8 : S1x3072.Idx → EReal) j
  congr 1
  funext a
  apply Fin.ext
  match a with
  | ⟨0, _⟩ => show win0_4.index t (0 : Fin 2) * 1 + 1 * (j 0).val = (j 0).val; omega
  | ⟨1, _⟩ => show win0_4.index t (1 : Fin 2) * 3072 + 1 * (j 1).val = (j 1).val; omega

/-! ## One projected entry, from the block to the arrays -/

/-- A block index has batch coordinate 0. -/
theorem blk_ix0 (y : S1x256x1024.Idx) : y = ix3 0 (y 1) (y 2) := by
  funext a
  match a with
  | ⟨0, _⟩ => exact Fin.ext (by have h : (y 0).val < 1 := (y 0).isLt; show (y 0).val = 0; omega)
  | ⟨1, _⟩ => rfl
  | ⟨2, _⟩ => rfl

/-- The inner product of a row with a column of the weights plus the bias, read through blocks that agree with
    the arrays entry by entry. -/
theorem lin_congr0 (xb : S1x256x1024.Idx → EReal) (Wb : S1024x3072.Idx → EReal) (βb : S1x3072.Idx → EReal)
    (x : S4x2048x1024.Idx → EReal) (W : S1024x3072.Idx → EReal) (β : S1x3072.Idx → EReal)
    (r : Fin 256) (b : Fin 4) (s : Fin 2048) (e e' : Fin 3072) (he : e.val = e'.val)
    (hx : ∀ k : Fin 1024, xb (ix3 0 r k) = x (ix3 b s k)) (hW : ∀ j, Wb j = W j) (hβ : ∀ j, βb j = β j) :
    (∑ k : Fin 1024, xb (ix3 0 r k) * Wb (ix2 k e)) + βb (ix2 0 e) = (∑ k : Fin 1024, x (ix3 b s k) * W (ix2 k e')) + β (ix2 0 e') := by
  obtain rfl : e = e' := Fin.ext he
  rw [hβ]
  congr 1
  exact Finset.sum_congr rfl fun k _ => by rw [hx, hW]

/-! ## The shadow of the cached keys -/

/-- An index is in a point's block of the key shadow iff each coordinate is in the block's range. -/
theorem mem_blk8 (t : Fin cfg0.N) (i : S4x2048x1024.Idx) :
    i ∈ ((cfg0.win 8).blk t).view.set ↔ ∀ a : Fin 3, win0_8.index t a * S1x256x1024.size a ≤ (i a).val ∧ (i a).val < win0_8.index t a * S1x256x1024.size a + S1x256x1024.size a := by
  show i ∈ ((View.whole main_v9_3).slice (win0_8.rect t)).set ↔ _
  rw [View.set_slice_whole, Rect.mem_set_unit]
  exact Iff.rfl

/-- What a point writes back into the key shadow is its block of the cached keys. -/
theorem Kp_flushed (c : Dev nD) (t : Fin cfg0.N) :
    (dat0 (F := Ideal) V c).flushed 8 t = ((cfg0.win 8).blk t).view.read (Elt Ideal) (V c main_arg1 : S4x2048x1024.Idx → EReal) := by
  show (cfg0.win 8).cut (grid0.coords t) ((dat0 V c).after 8 t) = _
  rw [after0_8]
  obtain ⟨-, -, -, ⟨e0, e1, e2⟩, -⟩ := out_idx0 t
  funext y
  rw [View.read_apply]
  refine (proj_pay9_apply (iblk0 V c 1 t) y).trans ?_
  refine pk_blk0 V c t y _ ?_ ?_ ?_
  · show win0_8.index t (0 : Fin 3) * 1 + 1 * (y 0).val = _; omega
  · show win0_8.index t (1 : Fin 3) * 256 + 1 * (y 1).val = _; omega
  · show win0_8.index t (2 : Fin 3) * 1024 + 1 * (y 2).val = _; omega

/-- Every entry of the key shadow lies in the block some odd step writes back. -/
theorem Kp_cover (i : S4x2048x1024.Idx) :
    ∃ t : Fin cfg0.N, (cfg0.win 8).flush t = true ∧ i ∈ ((cfg0.win 8).blk t).view.set := by
  have h0 : (i 0).val < 4 := (i 0).isLt
  have h1 : (i 1).val < 2048 := (i 1).isLt
  have h2 : (i 2).val < 1024 := (i 2).isLt
  obtain ⟨t, ht⟩ : ∃ t : Fin cfg0.N, t.val = 16 * (i 0).val + 2 * ((i 1).val / 256) + 1 := ⟨⟨_, by rw [N0]; omega⟩, rfl⟩
  obtain ⟨-, -, -, ⟨e0, e1, e2⟩, -⟩ := out_idx0 t
  refine ⟨t, (flush0_8 t).mpr (by omega), ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 1024 ≤ (i 2).val ∧ (i 2).val < win0_8.index t (2 : Fin 3) * 1024 + 1024; omega

/-- The key shadow ends holding the cached keys. -/
theorem Kp_arr (c : Dev nD) : (dat0 (F := Ideal) V c).arrAt 8 cfg0.N = (V c main_arg1 : S4x2048x1024.Idx → EReal) :=
  (dat0 (F := Ideal) V c).arrAt_eq_of_cover 8 _ (fun t _ => Kp_flushed V c t) Kp_cover

/-! ## The shadow of the cached values -/

/-- An index is in a point's block of the value shadow iff each coordinate is in the block's range. -/
theorem mem_blk9 (t : Fin cfg0.N) (i : S4x2048x1024.Idx) :
    i ∈ ((cfg0.win 9).blk t).view.set ↔ ∀ a : Fin 3, win0_9.index t a * S1x256x1024.size a ≤ (i a).val ∧ (i a).val < win0_9.index t a * S1x256x1024.size a + S1x256x1024.size a := by
  show i ∈ ((View.whole main_v9_4).slice (win0_9.rect t)).set ↔ _
  rw [View.set_slice_whole, Rect.mem_set_unit]
  exact Iff.rfl

/-- What a point writes back into the value shadow is its block of the cached values. -/
theorem Vp_flushed (c : Dev nD) (t : Fin cfg0.N) :
    (dat0 (F := Ideal) V c).flushed 9 t = ((cfg0.win 9).blk t).view.read (Elt Ideal) (V c main_arg2 : S4x2048x1024.Idx → EReal) := by
  show (cfg0.win 9).cut (grid0.coords t) ((dat0 V c).after 9 t) = _
  rw [after0_9]
  obtain ⟨-, -, -, -, ⟨e0, e1, e2⟩⟩ := out_idx0 t
  funext y
  rw [View.read_apply]
  refine (proj_pay10_apply (iblk0 V c 2 t) y).trans ?_
  refine pv_blk0 V c t y _ ?_ ?_ ?_
  · show win0_9.index t (0 : Fin 3) * 1 + 1 * (y 0).val = _; omega
  · show win0_9.index t (1 : Fin 3) * 256 + 1 * (y 1).val = _; omega
  · show win0_9.index t (2 : Fin 3) * 1024 + 1 * (y 2).val = _; omega

/-- Every entry of the value shadow lies in the block some odd step writes back. -/
theorem Vp_cover (i : S4x2048x1024.Idx) :
    ∃ t : Fin cfg0.N, (cfg0.win 9).flush t = true ∧ i ∈ ((cfg0.win 9).blk t).view.set := by
  have h0 : (i 0).val < 4 := (i 0).isLt
  have h1 : (i 1).val < 2048 := (i 1).isLt
  have h2 : (i 2).val < 1024 := (i 2).isLt
  obtain ⟨t, ht⟩ : ∃ t : Fin cfg0.N, t.val = 16 * (i 0).val + 2 * ((i 1).val / 256) + 1 := ⟨⟨_, by rw [N0]; omega⟩, rfl⟩
  obtain ⟨-, -, -, -, ⟨e0, e1, e2⟩⟩ := out_idx0 t
  refine ⟨t, (flush0_9 t).mpr (by omega), ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 1024 ≤ (i 2).val ∧ (i 2).val < win0_9.index t (2 : Fin 3) * 1024 + 1024; omega

/-- The value shadow ends holding the cached values. -/
theorem Vp_arr (c : Dev nD) : (dat0 (F := Ideal) V c).arrAt 9 cfg0.N = (V c main_arg2 : S4x2048x1024.Idx → EReal) :=
  (dat0 (F := Ideal) V c).arrAt_eq_of_cover 9 _ (fun t _ => Vp_flushed V c t) Vp_cover

/-! ## The query array -/

/-- The query third of the projection of a row of `x`: entry `(b, s, d)` is row `(b, s)` of `x` against column `d` of the
    fused weights, plus the fused bias at `d`. -/
def GQ (x : S4x2048x1024.Idx → EReal) (W : S1024x3072.Idx → EReal) (β : S1x3072.Idx → EReal) (i : S4x2048x1024.Idx) : EReal :=
  (∑ k : Fin 1024, x (ix3 (i 0) (i 1) k) * W (ix2 k ⟨(i 2).val, by have h : (i 2).val < 1024 := (i 2).isLt; omega⟩))
    + β (ix2 0 ⟨(i 2).val, by have h : (i 2).val < 1024 := (i 2).isLt; omega⟩)

/-- One entry of the query third of a point's product is the array function at the entry's place in the array. -/
theorem Q_entry (c : Dev nD) (t : Fin cfg0.N) (y : S1x256x1024.Idx) (i : S4x2048x1024.Idx)
    (h0 : (i 0).val = t.val / 16 + (y 0).val) (h1 : (i 1).val = 256 * (t.val % 16 / 2) + (y 1).val) (h2 : (i 2).val = (y 2).val) :
    k0_pay2 (F := Ideal) (iblk0 V c 0 t) (iblk0 V c 3 t) (iblk0 V c 4 t) y = GQ (V c main_arg0) (V c main_v6) (V c main_v8) i := by
  have hy0 : (y 0).val < 1 := (y 0).isLt
  have hy2 : (y 2).val < 1024 := (y 2).isLt
  have hi2 : (i 2).val < 1024 := (i 2).isLt
  unfold GQ
  refine (congrArg (k0_pay2 (F := Ideal) (iblk0 V c 0 t) (iblk0 V c 3 t) (iblk0 V c 4 t)) (blk_ix0 y)).trans ?_
  refine (proj_pay2_apply (iblk0 V c 0 t) (iblk0 V c 3 t) (iblk0 V c 4 t) (y 1) (y 2)).trans ?_
  exact lin_congr0 (iblk0 V c 0 t) (iblk0 V c 3 t) (iblk0 V c 4 t) (V c main_arg0) (V c main_v6) (V c main_v8) (y 1) (i 0) (i 1)
    ⟨(y 2).val, by omega⟩ ⟨(i 2).val, by omega⟩ h2.symm
    (fun k => x_blk0 V c t (ix3 0 (y 1) k) (ix3 (i 0) (i 1) k) (show (i 0).val = t.val / 16 + 0 by omega) h1 rfl)
    (W_blk0 V c t) (β_blk0 V c t)

/-- An index is in a point's block of the query array iff each coordinate is in the block's range. -/
theorem mem_blk5 (t : Fin cfg0.N) (i : S4x2048x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v9_0).slice (win0_5.rect t)).set ↔ _
  rw [View.set_slice_whole, Rect.mem_set_unit]
  exact Iff.rfl

/-- What a point writes back into the query array is its block of `GQ`: the staging buffer holds the query third of
    the product of the pair's rows, at the even step that stored it and at the odd step that left it. -/
theorem Q_flushed (c : Dev nD) (t : Fin cfg0.N) :
    (dat0 (F := Ideal) V c).flushed 5 t
      = ((cfg0.win 5).blk t).view.read (Elt Ideal) (GQ (V c main_arg0) (V c main_v6) (V c main_v8) : S4x2048x1024.Idx → EReal) := by
  show (cfg0.win 5).cut (grid0.coords t) ((dat0 V c).after 5 t) = _
  rw [after0_5]
  obtain ⟨⟨e0, e1, e2⟩, -⟩ := out_idx0 t
  funext y
  rw [View.read_apply]
  refine Q_entry V c t y _ ?_ ?_ ?_
  · show win0_5.index t (0 : Fin 3) * 1 + 1 * (y 0).val = _; omega
  · show win0_5.index t (1 : Fin 3) * 256 + 1 * (y 1).val = _; omega
  · show win0_5.index t (2 : Fin 3) * 1024 + 1 * (y 2).val = _; omega

/-- Every entry of the query array lies in the block some odd step writes back. -/
theorem Q_cover (i : S4x2048x1024.Idx) :
    ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 1024 := (i 2).isLt
  obtain ⟨t, ht⟩ : ∃ t : Fin cfg0.N, t.val = 16 * (i 0).val + 2 * ((i 1).val / 256) + 1 := ⟨⟨_, by rw [N0]; omega⟩, rfl⟩
  obtain ⟨⟨e0, e1, e2⟩, -⟩ := out_idx0 t
  refine ⟨t, (flush0_5 t).mpr (by omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- The query array ends holding the query projection of every row of `x`. -/
theorem Q_arr (c : Dev nD) : (dat0 (F := Ideal) V c).arrAt 5 cfg0.N = GQ (V c main_arg0) (V c main_v6) (V c main_v8) :=
  (dat0 (F := Ideal) V c).arrAt_eq_of_cover 5 _ (fun t _ => Q_flushed V c t) Q_cover

/-! ## The key array -/

/-- The cached rows followed by the key third of the projection of each row of `x`: entry `(b, s, d)` is the cache's
    for `s < 2048`, and otherwise row `(b, s - 2048)` of `x` against column `1024 + d` of the fused weights, plus the fused
    bias there. -/
def GK (p x : S4x2048x1024.Idx → EReal) (W : S1024x3072.Idx → EReal) (β : S1x3072.Idx → EReal) (i : S4x4096x1024.Idx) : EReal :=
  if h : (i 1).val < 2048 then p (ix3 (i 0) ⟨(i 1).val, h⟩ (i 2))
  else (∑ k : Fin 1024, x (ix3 (i 0) ⟨(i 1).val - 2048, by have h1 : (i 1).val < 4096 := (i 1).isLt; omega⟩ k)
          * W (ix2 k ⟨1024 + (i 2).val, by have h2 : (i 2).val < 1024 := (i 2).isLt; omega⟩))
        + β (ix2 0 ⟨1024 + (i 2).val, by have h2 : (i 2).val < 1024 := (i 2).isLt; omega⟩)

/-- An entry of the projecting step's block is the array function at a row from 2048 on. -/
theorem K_entry_even (c : Dev nD) (t : Fin cfg0.N) (y : S1x256x1024.Idx) (i : S4x4096x1024.Idx)
    (h0 : (i 0).val = t.val / 16 + (y 0).val) (h1 : (i 1).val = 2048 + (256 * (t.val % 16 / 2) + (y 1).val)) (h2 : (i 2).val = (y 2).val) :
    k0_pay3 (F := Ideal) (iblk0 V c 0 t) (iblk0 V c 3 t) (iblk0 V c 4 t) y = GK (V c main_arg1) (V c main_arg0) (V c main_v6) (V c main_v8) i := by
  have hy0 : (y 0).val < 1 := (y 0).isLt
  have hy1 : (y 1).val < 256 := (y 1).isLt
  have hy2 : (y 2).val < 1024 := (y 2).isLt
  have hi1 : (i 1).val < 4096 := (i 1).isLt
  have hi2 : (i 2).val < 1024 := (i 2).isLt
  unfold GK
  rw [dif_neg (by omega)]
  refine (congrArg (k0_pay3 (F := Ideal) (iblk0 V c 0 t) (iblk0 V c 3 t) (iblk0 V c 4 t)) (blk_ix0 y)).trans ?_
  refine (proj_pay3_apply (iblk0 V c 0 t) (iblk0 V c 3 t) (iblk0 V c 4 t) (y 1) (y 2)).trans ?_
  exact lin_congr0 (iblk0 V c 0 t) (iblk0 V c 3 t) (iblk0 V c 4 t) (V c main_arg0) (V c main_v6) (V c main_v8) (y 1) (i 0) ⟨(i 1).val - 2048, by omega⟩
    ⟨1024 + (y 2).val, by omega⟩ ⟨1024 + (i 2).val, by omega⟩ (show 1024 + (y 2).val = 1024 + (i 2).val by omega)
    (fun k => x_blk0 V c t (ix3 0 (y 1) k) (ix3 (i 0) ⟨(i 1).val - 2048, by omega⟩ k) (show (i 0).val = t.val / 16 + 0 by omega)
      (show (i 1).val - 2048 = 256 * (t.val % 16 / 2) + (y 1).val by omega) rfl)
    (W_blk0 V c t) (β_blk0 V c t)

/-- An entry of the copying step's block is the array function at a row below 2048. -/
theorem K_entry_odd (c : Dev nD) (t : Fin cfg0.N) (y : S1x256x1024.Idx) (i : S4x4096x1024.Idx)
    (h0 : (i 0).val = t.val / 16 + (y 0).val) (h1 : (i 1).val = 256 * (t.val % 16 / 2) + (y 1).val) (h2 : (i 2).val = (y 2).val) :
    k0_pay7 (F := Ideal) (iblk0 V c 1 t) y = GK (V c main_arg1) (V c main_arg0) (V c main_v6) (V c main_v8) i := by
  have hy1 : (y 1).val < 256 := (y 1).isLt
  have hlt : (i 1).val < 2048 := by omega
  unfold GK
  rw [dif_pos hlt]
  refine (proj_pay7_apply (iblk0 V c 1 t) y).trans ?_
  exact pk_blk0 V c t y (ix3 (i 0) ⟨(i 1).val, hlt⟩ (i 2)) h0 h1 h2

/-- An index is in a point's block of the key array iff each coordinate is in the block's range. -/
theorem mem_blk6 (t : Fin cfg0.N) (i : S4x4096x1024.Idx) :
    i ∈ ((cfg0.win 6).blk t).view.set ↔ ∀ a : Fin 3, win0_6.index t a * S1x256x1024.size a ≤ (i a).val ∧ (i a).val < win0_6.index t a * S1x256x1024.size a + S1x256x1024.size a := by
  show i ∈ ((View.whole main_v9_1).slice (win0_6.rect t)).set ↔ _
  rw [View.set_slice_whole, Rect.mem_set_unit]
  exact Iff.rfl

/-- What a point writes back into the key array is its block of `GK`: an even step wrote the key third of the
    pair's product into block `8 +` the pair index (rows from 2048 on), an odd step the cached block into the
    pair index's block (rows below 2048). -/
theorem K_flushed (c : Dev nD) (t : Fin cfg0.N) :
    (dat0 (F := Ideal) V c).flushed 6 t
      = ((cfg0.win 6).blk t).view.read (Elt Ideal) (GK (V c main_arg1) (V c main_arg0) (V c main_v6) (V c main_v8) : S4x4096x1024.Idx → EReal) := by
  show (cfg0.win 6).cut (grid0.coords t) ((dat0 V c).after 6 t) = _
  rw [after0_6]
  obtain ⟨-, ⟨e0, e1, e2⟩, -⟩ := out_idx0 t
  funext y
  rw [View.read_apply]
  by_cases hp : t.val % 2 = 0
  · rw [if_pos hp] at e1
    rw [if_pos ((even_iff0 t).mpr hp)]
    refine K_entry_even V c t y _ ?_ ?_ ?_
    · show win0_6.index t (0 : Fin 3) * 1 + 1 * (y 0).val = _; omega
    · show win0_6.index t (1 : Fin 3) * 256 + 1 * (y 1).val = _; omega
    · show win0_6.index t (2 : Fin 3) * 1024 + 1 * (y 2).val = _; omega
  · rw [if_neg hp] at e1
    rw [if_neg (fun h => hp ((even_iff0 t).mp h))]
    refine K_entry_odd V c t y _ ?_ ?_ ?_
    · show win0_6.index t (0 : Fin 3) * 1 + 1 * (y 0).val = _; omega
    · show win0_6.index t (1 : Fin 3) * 256 + 1 * (y 1).val = _; omega
    · show win0_6.index t (2 : Fin 3) * 1024 + 1 * (y 2).val = _; omega

/-- Every entry of the key array lies in a written-back block: a row below 2048 in the block an odd step copies,
    a row from 2048 on in the block an even step projects. -/
theorem K_cover (i : S4x4096x1024.Idx) :
    ∃ t : Fin cfg0.N, (cfg0.win 6).flush t = true ∧ i ∈ ((cfg0.win 6).blk t).view.set := by
  have h0 : (i 0).val < 4 := (i 0).isLt
  have h1 : (i 1).val < 4096 := (i 1).isLt
  have h2 : (i 2).val < 1024 := (i 2).isLt
  by_cases hlo : (i 1).val < 2048
  · obtain ⟨t, ht⟩ : ∃ t : Fin cfg0.N, t.val = 16 * (i 0).val + 2 * ((i 1).val / 256) + 1 := ⟨⟨_, by rw [N0]; omega⟩, rfl⟩
    obtain ⟨-, ⟨e0, e1, e2⟩, -⟩ := out_idx0 t
    rw [if_neg (by omega)] at e1
    refine ⟨t, flush0_6 t, ?_⟩
    rw [mem_blk6]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 256 ≤ (i 1).val ∧ (i 1).val < win0_6.index t (1 : Fin 3) * 256 + 256; omega
    | ⟨2, _⟩ => show win0_6.index t (2 : Fin 3) * 1024 ≤ (i 2).val ∧ (i 2).val < win0_6.index t (2 : Fin 3) * 1024 + 1024; omega
  · obtain ⟨t, ht⟩ : ∃ t : Fin cfg0.N, t.val = 16 * (i 0).val + 2 * (((i 1).val - 2048) / 256) := ⟨⟨_, by rw [N0]; omega⟩, rfl⟩
    obtain ⟨-, ⟨e0, e1, e2⟩, -⟩ := out_idx0 t
    rw [if_pos (by omega)] at e1
    refine ⟨t, flush0_6 t, ?_⟩
    rw [mem_blk6]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 256 ≤ (i 1).val ∧ (i 1).val < win0_6.index t (1 : Fin 3) * 256 + 256; omega
    | ⟨2, _⟩ => show win0_6.index t (2 : Fin 3) * 1024 ≤ (i 2).val ∧ (i 2).val < win0_6.index t (2 : Fin 3) * 1024 + 1024; omega

/-- The key array ends holding the cached rows followed by the key projection of every row of `x`. -/
theorem K_arr (c : Dev nD) :
    (dat0 (F := Ideal) V c).arrAt 6 cfg0.N = GK (V c main_arg1) (V c main_arg0) (V c main_v6) (V c main_v8) :=
  (dat0 (F := Ideal) V c).arrAt_eq_of_cover 6 _ (fun t _ => K_flushed V c t) K_cover

/-! ## The value array -/

/-- The cached rows followed by the value third of the projection of each row of `x`: entry `(b, s, d)` is the cache's
    for `s < 2048`, and otherwise row `(b, s - 2048)` of `x` against column `2048 + d` of the fused weights, plus the fused
    bias there. -/
def GV (p x : S4x2048x1024.Idx → EReal) (W : S1024x3072.Idx → EReal) (β : S1x3072.Idx → EReal) (i : S4x4096x1024.Idx) : EReal :=
  if h : (i 1).val < 2048 then p (ix3 (i 0) ⟨(i 1).val, h⟩ (i 2))
  else (∑ k : Fin 1024, x (ix3 (i 0) ⟨(i 1).val - 2048, by have h1 : (i 1).val < 4096 := (i 1).isLt; omega⟩ k)
          * W (ix2 k ⟨2048 + (i 2).val, by have h2 : (i 2).val < 1024 := (i 2).isLt; omega⟩))
        + β (ix2 0 ⟨2048 + (i 2).val, by have h2 : (i 2).val < 1024 := (i 2).isLt; omega⟩)

/-- An entry of the projecting step's block is the array function at a row from 2048 on. -/
theorem V_entry_even (c : Dev nD) (t : Fin cfg0.N) (y : S1x256x1024.Idx) (i : S4x4096x1024.Idx)
    (h0 : (i 0).val = t.val / 16 + (y 0).val) (h1 : (i 1).val = 2048 + (256 * (t.val % 16 / 2) + (y 1).val)) (h2 : (i 2).val = (y 2).val) :
    k0_pay4 (F := Ideal) (iblk0 V c 0 t) (iblk0 V c 3 t) (iblk0 V c 4 t) y = GV (V c main_arg2) (V c main_arg0) (V c main_v6) (V c main_v8) i := by
  have hy0 : (y 0).val < 1 := (y 0).isLt
  have hy1 : (y 1).val < 256 := (y 1).isLt
  have hy2 : (y 2).val < 1024 := (y 2).isLt
  have hi1 : (i 1).val < 4096 := (i 1).isLt
  have hi2 : (i 2).val < 1024 := (i 2).isLt
  unfold GV
  rw [dif_neg (by omega)]
  refine (congrArg (k0_pay4 (F := Ideal) (iblk0 V c 0 t) (iblk0 V c 3 t) (iblk0 V c 4 t)) (blk_ix0 y)).trans ?_
  refine (proj_pay4_apply (iblk0 V c 0 t) (iblk0 V c 3 t) (iblk0 V c 4 t) (y 1) (y 2)).trans ?_
  exact lin_congr0 (iblk0 V c 0 t) (iblk0 V c 3 t) (iblk0 V c 4 t) (V c main_arg0) (V c main_v6) (V c main_v8) (y 1) (i 0) ⟨(i 1).val - 2048, by omega⟩
    ⟨2048 + (y 2).val, by omega⟩ ⟨2048 + (i 2).val, by omega⟩ (show 2048 + (y 2).val = 2048 + (i 2).val by omega)
    (fun k => x_blk0 V c t (ix3 0 (y 1) k) (ix3 (i 0) ⟨(i 1).val - 2048, by omega⟩ k) (show (i 0).val = t.val / 16 + 0 by omega)
      (show (i 1).val - 2048 = 256 * (t.val % 16 / 2) + (y 1).val by omega) rfl)
    (W_blk0 V c t) (β_blk0 V c t)

/-- An entry of the copying step's block is the array function at a row below 2048. -/
theorem V_entry_odd (c : Dev nD) (t : Fin cfg0.N) (y : S1x256x1024.Idx) (i : S4x4096x1024.Idx)
    (h0 : (i 0).val = t.val / 16 + (y 0).val) (h1 : (i 1).val = 256 * (t.val % 16 / 2) + (y 1).val) (h2 : (i 2).val = (y 2).val) :
    k0_pay8 (F := Ideal) (iblk0 V c 2 t) y = GV (V c main_arg2) (V c main_arg0) (V c main_v6) (V c main_v8) i := by
  have hy1 : (y 1).val < 256 := (y 1).isLt
  have hlt : (i 1).val < 2048 := by omega
  unfold GV
  rw [dif_pos hlt]
  refine (proj_pay8_apply (iblk0 V c 2 t) y).trans ?_
  exact pv_blk0 V c t y (ix3 (i 0) ⟨(i 1).val, hlt⟩ (i 2)) h0 h1 h2

/-- An index is in a point's block of the value array iff each coordinate is in the block's range. -/
theorem mem_blk7 (t : Fin cfg0.N) (i : S4x4096x1024.Idx) :
    i ∈ ((cfg0.win 7).blk t).view.set ↔ ∀ a : Fin 3, win0_7.index t a * S1x256x1024.size a ≤ (i a).val ∧ (i a).val < win0_7.index t a * S1x256x1024.size a + S1x256x1024.size a := by
  show i ∈ ((View.whole main_v9_2).slice (win0_7.rect t)).set ↔ _
  rw [View.set_slice_whole, Rect.mem_set_unit]
  exact Iff.rfl

/-- What a point writes back into the value array is its block of `GV`: an even step wrote the value third of the
    pair's product into block `8 +` the pair index (rows from 2048 on), an odd step the cached block into the
    pair index's block (rows below 2048). -/
theorem V_flushed (c : Dev nD) (t : Fin cfg0.N) :
    (dat0 (F := Ideal) V c).flushed 7 t
      = ((cfg0.win 7).blk t).view.read (Elt Ideal) (GV (V c main_arg2) (V c main_arg0) (V c main_v6) (V c main_v8) : S4x4096x1024.Idx → EReal) := by
  show (cfg0.win 7).cut (grid0.coords t) ((dat0 V c).after 7 t) = _
  rw [after0_7]
  obtain ⟨-, -, ⟨e0, e1, e2⟩, -⟩ := out_idx0 t
  funext y
  rw [View.read_apply]
  by_cases hp : t.val % 2 = 0
  · rw [if_pos hp] at e1
    rw [if_pos ((even_iff0 t).mpr hp)]
    refine V_entry_even V c t y _ ?_ ?_ ?_
    · show win0_7.index t (0 : Fin 3) * 1 + 1 * (y 0).val = _; omega
    · show win0_7.index t (1 : Fin 3) * 256 + 1 * (y 1).val = _; omega
    · show win0_7.index t (2 : Fin 3) * 1024 + 1 * (y 2).val = _; omega
  · rw [if_neg hp] at e1
    rw [if_neg (fun h => hp ((even_iff0 t).mp h))]
    refine V_entry_odd V c t y _ ?_ ?_ ?_
    · show win0_7.index t (0 : Fin 3) * 1 + 1 * (y 0).val = _; omega
    · show win0_7.index t (1 : Fin 3) * 256 + 1 * (y 1).val = _; omega
    · show win0_7.index t (2 : Fin 3) * 1024 + 1 * (y 2).val = _; omega

/-- Every entry of the value array lies in a written-back block: a row below 2048 in the block an odd step copies,
    a row from 2048 on in the block an even step projects. -/
theorem V_cover (i : S4x4096x1024.Idx) :
    ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 1024 := (i 2).isLt
  by_cases hlo : (i 1).val < 2048
  · obtain ⟨t, ht⟩ : ∃ t : Fin cfg0.N, t.val = 16 * (i 0).val + 2 * ((i 1).val / 256) + 1 := ⟨⟨_, by rw [N0]; omega⟩, rfl⟩
    obtain ⟨-, -, ⟨e0, e1, e2⟩, -⟩ := out_idx0 t
    rw [if_neg (by omega)] at e1
    refine ⟨t, flush0_7 t, ?_⟩
    rw [mem_blk7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 256 ≤ (i 1).val ∧ (i 1).val < win0_7.index t (1 : Fin 3) * 256 + 256; omega
    | ⟨2, _⟩ => show win0_7.index t (2 : Fin 3) * 1024 ≤ (i 2).val ∧ (i 2).val < win0_7.index t (2 : Fin 3) * 1024 + 1024; omega
  · obtain ⟨t, ht⟩ : ∃ t : Fin cfg0.N, t.val = 16 * (i 0).val + 2 * (((i 1).val - 2048) / 256) := ⟨⟨_, by rw [N0]; omega⟩, rfl⟩
    obtain ⟨-, -, ⟨e0, e1, e2⟩, -⟩ := out_idx0 t
    rw [if_pos (by omega)] at e1
    refine ⟨t, flush0_7 t, ?_⟩
    rw [mem_blk7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 256 ≤ (i 1).val ∧ (i 1).val < win0_7.index t (1 : Fin 3) * 256 + 256; omega
    | ⟨2, _⟩ => show win0_7.index t (2 : Fin 3) * 1024 ≤ (i 2).val ∧ (i 2).val < win0_7.index t (2 : Fin 3) * 1024 + 1024; omega

/-- The value array ends holding the cached rows followed by the value projection of every row of `x`. -/
theorem V_arr (c : Dev nD) :
    (dat0 (F := Ideal) V c).arrAt 7 cfg0.N = GV (V c main_arg2) (V c main_arg0) (V c main_v6) (V c main_v8) :=
  (dat0 (F := Ideal) V c).arrAt_eq_of_cover 7 _ (fun t _ => V_flushed V c t) V_cover

end Cert.KernelIdeal.Hand

end
-- ==== Proof.LibOnlineSoftmax.lean ====
/-
  The blockwise "online softmax" recurrence computes softmax-weighted sums.

  A row of scores is visited block by block.  The recurrence keeps a running maximum m,
  a running normaliser l and a running weighted sum a, all taken RELATIVE to the current
  maximum; when a new block raises the maximum from μ to μ', the old totals are rescaled by
  exp (μ - μ'), because exp (μ - μ') · exp (x - μ) = exp (x - μ').  After all blocks,
  a / l = (∑ exp (x - M) · v) / (∑ exp (x - M)) with M the global maximum, which is the
  softmax-weighted sum.  Masked scores are ⊥ and weigh exp ⊥ = 0 at every stage.
-/
import Idealize.ShloMosaic.PureOps.Ideal
import Mathlib.Data.EReal.Operations
import Mathlib.Data.Finset.Fold
import Mathlib.Data.Fintype.BigOperators
import Mathlib.Algebra.BigOperators.Group.Finset.Basic
import Mathlib.Algebra.Order.BigOperators.Group.Finset

namespace OnlineSoftmax
open Idealize.ShloMosaic
open scoped BigOperators

variable {B : ℕ}

noncomputable def stepM (m : EReal) (s : Fin B → EReal) : EReal :=
  max m ((Finset.univ : Finset (Fin B)).fold max ⊥ s)

noncomputable def stepL (m l : EReal) (s : Fin B → EReal) : EReal :=
  Ideal.exp (m - stepM m s) * l + ∑ j, Ideal.exp (s j - stepM m s)

noncomputable def stepA (m a : EReal) (s v : Fin B → EReal) : EReal :=
  Ideal.exp (m - stepM m s) * a + ∑ j, Ideal.exp (s j - stepM m s) * v j

/-- the state (m, l, a) after the first n blocks -/
noncomputable def run (s v : ℕ → Fin B → EReal) : ℕ → EReal × EReal × EReal
  | 0 => (⊥, 0, 0)
  | n + 1 => (stepM (run s v n).1 (s n), stepL (run s v n).1 (run s v n).2.1 (s n),
      stepA (run s v n).1 (run s v n).2.2 (s n) (v n))

/-- real or masked -/
def RealOrBot (x : EReal) : Prop := x = ⊥ ∨ ∃ r : ℝ, x = (r : EReal)

theorem run_succ (s v : ℕ → Fin B → EReal) (n : ℕ) :
    run s v (n + 1) = (stepM (run s v n).1 (s n), stepL (run s v n).1 (run s v n).2.1 (s n),
      stepA (run s v n).1 (run s v n).2.2 (s n) (v n)) := rfl

/-! ### The weight of a score relative to a real level -/

/-- exp (x - μ) as a real number, with the masked score weighing 0. -/
noncomputable def wt (x : EReal) (μ : ℝ) : ℝ := if x = ⊥ then 0 else Real.exp (x.toReal - μ)

theorem wt_bot (μ : ℝ) : wt ⊥ μ = 0 := if_pos rfl

theorem wt_coe (r μ : ℝ) : wt (r : EReal) μ = Real.exp (r - μ) := by
  rw [wt, if_neg (EReal.coe_ne_bot r), EReal.toReal_coe]

theorem wt_nonneg (x : EReal) (μ : ℝ) : 0 ≤ wt x μ := by
  unfold wt
  split_ifs
  · exact le_rfl
  · exact (Real.exp_pos _).le

/-- Raising the level from μ to μ' rescales every weight by exp (μ - μ'). -/
theorem wt_rescale (x : EReal) (μ μ' : ℝ) : Real.exp (μ - μ') * wt x μ = wt x μ' := by
  unfold wt
  split_ifs
  · exact mul_zero _
  · rw [← Real.exp_add]
    congr 1
    ring

theorem exp_sub_coe {x : EReal} (hx : RealOrBot x) (μ : ℝ) :
    Ideal.exp (x - (μ : EReal)) = ((wt x μ : ℝ) : EReal) := by
  rcases hx with rfl | ⟨r, rfl⟩
  · rw [EReal.bot_sub, Ideal.exp_bot, wt_bot, EReal.coe_zero]
  · rw [← EReal.coe_sub, Ideal.exp_coe, wt_coe]

/-- The coercion of the reals into the extended reals commutes with finite sums. -/
theorem coe_sum {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-! ### Maxima of real-or-masked families -/

theorem realOrBot_max {x y : EReal} (hx : RealOrBot x) (hy : RealOrBot y) :
    RealOrBot (max x y) := by
  rcases max_choice x y with h | h <;> rw [h] <;> assumption

theorem realOrBot_fold {ι : Type*} (t : Finset ι) (f : ι → EReal)
    (hf : ∀ i ∈ t, RealOrBot (f i)) : RealOrBot (t.fold max ⊥ f) := by
  classical
  induction t using Finset.induction_on with
  | empty => exact Or.inl rfl
  | insert a t ha ih =>
    rw [Finset.fold_insert ha]
    exact realOrBot_max (hf a (Finset.mem_insert_self _ _))
      (ih fun i hi => hf i (Finset.mem_insert_of_mem hi))

theorem real_of_le {x : EReal} (hx : RealOrBot x) {r : ℝ} (h : (r : EReal) ≤ x) :
    ∃ μ : ℝ, x = (μ : EReal) := by
  rcases hx with rfl | h'
  · exact absurd (le_bot_iff.mp h) (EReal.coe_ne_bot r)
  · exact h'

/-- The running maximum is the maximum over all visited scores. -/
theorem run_max (s v : ℕ → Fin B → EReal) (n : ℕ) :
    (run s v n).1
      = (Finset.range n).fold max ⊥ (fun k => (Finset.univ : Finset (Fin B)).fold max ⊥ (s k)) := by
  induction n with
  | zero => rfl
  | succ n ih =>
    rw [run_succ, Finset.range_add_one, Finset.fold_insert Finset.notMem_range_self, ← ih]
    exact max_comm _ _

/-! ### One block -/

/-- One block, from a real-or-masked maximum and real totals, when the new maximum is real. -/
theorem step_state {m : EReal} (hm : RealOrBot m) (L A : ℝ) {s v : Fin B → EReal}
    (hs : ∀ j, RealOrBot (s j)) (hv : ∀ j, ∃ r : ℝ, v j = (r : EReal)) {r : ℝ}
    (hr : (r : EReal) ≤ stepM m s) :
    ∃ μ' : ℝ, stepM m s = (μ' : EReal)
      ∧ stepL m (L : EReal) s = ((wt m μ' * L + ∑ j, wt (s j) μ' : ℝ) : EReal)
      ∧ stepA m (A : EReal) s v
          = ((wt m μ' * A + ∑ j, wt (s j) μ' * (v j).toReal : ℝ) : EReal) := by
  have hM : RealOrBot (stepM m s) :=
    realOrBot_max hm (realOrBot_fold _ _ fun j _ => hs j)
  obtain ⟨μ', hμ⟩ := real_of_le hM hr
  refine ⟨μ', hμ, ?_, ?_⟩
  · have h1 : ∑ j, Ideal.exp (s j - (μ' : EReal)) = ∑ j, ((wt (s j) μ' : ℝ) : EReal) :=
      Finset.sum_congr rfl fun j _ => exp_sub_coe (hs j) μ'
    rw [stepL, hμ, exp_sub_coe hm, h1, coe_sum, ← EReal.coe_mul, ← EReal.coe_add]
  · have h1 : ∑ j, Ideal.exp (s j - (μ' : EReal)) * v j
        = ∑ j, ((wt (s j) μ' * (v j).toReal : ℝ) : EReal) :=
      Finset.sum_congr rfl fun j _ => by
        obtain ⟨q, hq⟩ := hv j
        rw [exp_sub_coe (hs j) μ', hq, EReal.toReal_coe, ← EReal.coe_mul]
    rw [stepA, hμ, exp_sub_coe hm, h1, coe_sum, ← EReal.coe_mul, ← EReal.coe_add]

/-! ### The totals over the visited scores, relative to a level -/

noncomputable def Lr (s : ℕ → Fin B → EReal) (n : ℕ) (μ : ℝ) : ℝ :=
  ∑ k ∈ Finset.range n, ∑ j, wt (s k j) μ

noncomputable def Ar (s v : ℕ → Fin B → EReal) (n : ℕ) (μ : ℝ) : ℝ :=
  ∑ k ∈ Finset.range n, ∑ j, wt (s k j) μ * (v k j).toReal

theorem Lr_rescale (s : ℕ → Fin B → EReal) (n : ℕ) (μ μ' : ℝ) :
    Real.exp (μ - μ') * Lr s n μ = Lr s n μ' := by
  unfold Lr
  rw [Finset.mul_sum]
  refine Finset.sum_congr rfl fun k _ => ?_
  rw [Finset.mul_sum]
  exact Finset.sum_congr rfl fun j _ => wt_rescale _ _ _

theorem Ar_rescale (s v : ℕ → Fin B → EReal) (n : ℕ) (μ μ' : ℝ) :
    Real.exp (μ - μ') * Ar s v n μ = Ar s v n μ' := by
  unfold Ar
  rw [Finset.mul_sum]
  refine Finset.sum_congr rfl fun k _ => ?_
  rw [Finset.mul_sum]
  refine Finset.sum_congr rfl fun j _ => ?_
  rw [← mul_assoc, wt_rescale]

theorem Lr_pos (s : ℕ → Fin B → EReal) {n : ℕ} (hn : 0 < n) (μ : ℝ) {j0 : Fin B} {r : ℝ}
    (h0 : s 0 j0 = (r : EReal)) : 0 < Lr s n μ := by
  unfold Lr
  refine Finset.sum_pos' (fun k _ => Finset.sum_nonneg fun j _ => wt_nonneg _ _)
    ⟨0, Finset.mem_range.mpr hn, ?_⟩
  refine Finset.sum_pos' (fun j _ => wt_nonneg _ _) ⟨j0, Finset.mem_univ _, ?_⟩
  rw [h0, wt_coe]
  exact Real.exp_pos _

/-- After n + 1 blocks the state is (μ, ∑ exp (x - μ), ∑ exp (x - μ) · v) over the visited
    scores, for a real μ. -/
theorem run_inv (s v : ℕ → Fin B → EReal) (h0 : ∃ j, ∃ r : ℝ, s 0 j = (r : EReal)) (n : ℕ) :
    (∀ k < n + 1, ∀ j, RealOrBot (s k j)) → (∀ k < n + 1, ∀ j, ∃ r : ℝ, v k j = (r : EReal)) →
      ∃ μ : ℝ, run s v (n + 1)
        = ((μ : EReal), ((Lr s (n + 1) μ : ℝ) : EReal), ((Ar s v (n + 1) μ : ℝ) : EReal)) := by
  induction n with
  | zero =>
    intro hs hv
    obtain ⟨j0, r, hr0⟩ := h0
    have hr : (r : EReal) ≤ stepM ⊥ (s 0) := by
      refine le_max_of_le_right ?_
      exact (Finset.le_fold_max _).mpr (Or.inr ⟨j0, Finset.mem_univ _, hr0.ge⟩)
    obtain ⟨μ', hM, hL, hA⟩ := step_state (Or.inl rfl) 0 0 (hs 0 (by omega)) (hv 0 (by omega)) hr
    rw [EReal.coe_zero] at hL hA
    refine ⟨μ', ?_⟩
    have e1 : wt ⊥ μ' * 0 + ∑ j, wt (s 0 j) μ' = Lr s (0 + 1) μ' := by
      unfold Lr
      rw [Finset.sum_range_one, mul_zero, zero_add]
    have e2 : wt ⊥ μ' * 0 + ∑ j, wt (s 0 j) μ' * (v 0 j).toReal = Ar s v (0 + 1) μ' := by
      unfold Ar
      rw [Finset.sum_range_one, mul_zero, zero_add]
    rw [e1] at hL
    rw [e2] at hA
    rw [run_succ]
    show (stepM ⊥ (s 0), stepL ⊥ 0 (s 0), stepA ⊥ 0 (s 0) (v 0)) = _
    rw [hM, hL, hA]
  | succ n ih =>
    intro hs hv
    obtain ⟨μ, hμ⟩ := ih (fun k hk => hs k (by omega)) (fun k hk => hv k (by omega))
    have hr : (μ : EReal) ≤ stepM (μ : EReal) (s (n + 1)) := le_max_left _ _
    obtain ⟨μ', hM, hL, hA⟩ := step_state (Or.inr ⟨μ, rfl⟩) (Lr s (n + 1) μ) (Ar s v (n + 1) μ)
      (hs (n + 1) (by omega)) (hv (n + 1) (by omega)) hr
    refine ⟨μ', ?_⟩
    have e1 : wt (μ : EReal) μ' * Lr s (n + 1) μ + ∑ j, wt (s (n + 1) j) μ'
        = Lr s (n + 1 + 1) μ' := by
      rw [wt_coe, Lr_rescale]
      unfold Lr
      rw [Finset.sum_range_succ _ (n + 1)]
    have e2 : wt (μ : EReal) μ' * Ar s v (n + 1) μ + ∑ j, wt (s (n + 1) j) μ' * (v (n + 1) j).toReal
        = Ar s v (n + 1 + 1) μ' := by
      rw [wt_coe, Ar_rescale]
      unfold Ar
      rw [Finset.sum_range_succ _ (n + 1)]
    rw [e1] at hL
    rw [e2] at hA
    rw [run_succ, hμ]
    show (stepM (μ : EReal) (s (n + 1)), stepL (μ : EReal) _ (s (n + 1)),
      stepA (μ : EReal) _ (s (n + 1)) (v (n + 1))) = _
    rw [hM, hL, hA]

/-! ### Reindexing a sum over all keys by the visited ones -/

theorem sum_visited {κ : Type} [Fintype κ] {n : ℕ} (e : Fin n × Fin B → κ)
    (he : Function.Injective e) (g : κ → ℝ) (f : ℕ → Fin B → ℝ)
    (hg : ∀ x, x ∉ Set.range e → g x = 0) (hf : ∀ p, g (e p) = f p.1.val p.2) :
    ∑ x, g x = ∑ k ∈ Finset.range n, ∑ j, f k j :=
  calc ∑ x, g x = ∑ p : Fin n × Fin B, f p.1.val p.2 :=
        (Fintype.sum_of_injective e he _ g hg (fun p => (hf p).symm)).symm
    _ = ∑ k : Fin n, ∑ j, f k.val j := Fintype.sum_prod_type _
    _ = ∑ k ∈ Finset.range n, ∑ j, f k j := Fin.sum_univ_eq_sum_range (fun k => ∑ j, f k j) n

/-- The maximum over all keys is the maximum over the visited scores: the others are masked. -/
theorem fold_all_eq_visited {κ : Type} [Fintype κ] {n : ℕ} (s : ℕ → Fin B → EReal)
    (S : κ → EReal) (e : Fin n × Fin B → κ) (hS : ∀ p, S (e p) = s p.1.val p.2)
    (hout : ∀ x, x ∉ Set.range e → S x = ⊥) :
    (Finset.univ : Finset κ).fold max ⊥ S
      = (Finset.range n).fold max ⊥ (fun k => (Finset.univ : Finset (Fin B)).fold max ⊥ (s k)) := by
  refine eq_of_forall_ge_iff fun c => ?_
  rw [Finset.fold_max_le, Finset.fold_max_le]
  constructor
  · rintro ⟨hb, h⟩
    refine ⟨hb, fun k hk => ?_⟩
    rw [Finset.fold_max_le]
    refine ⟨hb, fun j _ => ?_⟩
    have := h (e (⟨k, Finset.mem_range.mp hk⟩, j)) (Finset.mem_univ _)
    rwa [hS] at this
  · rintro ⟨hb, h⟩
    refine ⟨hb, fun x _ => ?_⟩
    by_cases hx : x ∈ Set.range e
    · obtain ⟨p, rfl⟩ := hx
      rw [hS]
      have := h p.1.val (Finset.mem_range.mpr p.1.isLt)
      rw [Finset.fold_max_le] at this
      exact this.2 p.2 (Finset.mem_univ _)
    · rw [hout x hx]
      exact hb

theorem run_eq_softmax {κ : Type} [Fintype κ] (s v : ℕ → Fin B → EReal) (n : ℕ) (hn : 0 < n)
    (S V : κ → EReal) (e : Fin n × Fin B → κ) (he : Function.Injective e)
    (hS : ∀ p, S (e p) = s p.1.val p.2) (hV : ∀ p, V (e p) = v p.1.val p.2)
    (hout : ∀ x, x ∉ Set.range e → S x = ⊥)
    (hs : ∀ k < n, ∀ j, RealOrBot (s k j)) (h0 : ∃ j, ∃ r : ℝ, s 0 j = (r : EReal))
    (hv : ∀ x, ∃ r : ℝ, V x = (r : EReal)) :
    Ideal.div (run s v n).2.2 (run s v n).2.1
      = ∑ x : κ, Ideal.div (Ideal.exp (S x - (Finset.univ : Finset κ).fold max ⊥ S))
          (∑ y : κ, Ideal.exp (S y - (Finset.univ : Finset κ).fold max ⊥ S)) * V x := by
  obtain ⟨n', rfl⟩ := Nat.exists_eq_succ_of_ne_zero hn.ne'
  have hvv : ∀ k < n' + 1, ∀ j, ∃ r : ℝ, v k j = (r : EReal) := fun k hk j => by
    obtain ⟨r, hr⟩ := hv (e (⟨k, hk⟩, j))
    exact ⟨r, by rw [← hr, hV]⟩
  obtain ⟨μ, hμ⟩ := run_inv s v h0 n' hs hvv
  -- the global maximum is the running maximum μ
  have hM : (Finset.univ : Finset κ).fold max ⊥ S = (μ : EReal) := by
    rw [fold_all_eq_visited s S e hS hout, ← run_max s v, hμ]
  have hSr : ∀ x, RealOrBot (S x) := fun x => by
    by_cases hx : x ∈ Set.range e
    · obtain ⟨p, rfl⟩ := hx
      rw [hS]
      exact hs _ p.1.isLt _
    · exact Or.inl (hout x hx)
  obtain ⟨j0, r0, hr0⟩ := h0
  have hLpos : 0 < Lr s (n' + 1) μ := Lr_pos s (Nat.succ_pos _) μ hr0
  have hLne : Lr s (n' + 1) μ ≠ 0 := hLpos.ne'
  -- the normaliser over all keys is the normaliser over the visited scores
  have hL : ∑ y, wt (S y) μ = Lr s (n' + 1) μ :=
    sum_visited e he (fun y => wt (S y) μ) (fun k j => wt (s k j) μ)
      (fun x hx => by show wt (S x) μ = 0; rw [hout x hx, wt_bot])
      (fun p => by show wt (S (e p)) μ = _; rw [hS])
  have hA : ∑ x, wt (S x) μ * (V x).toReal = Ar s v (n' + 1) μ :=
    sum_visited e he (fun x => wt (S x) μ * (V x).toReal)
      (fun k j => wt (s k j) μ * (v k j).toReal)
      (fun x hx => by show wt (S x) μ * _ = 0; rw [hout x hx, wt_bot, zero_mul])
      (fun p => by show wt (S (e p)) μ * (V (e p)).toReal = _; rw [hS, hV])
  have hden : ∑ y, Ideal.exp (S y - (μ : EReal)) = ((Lr s (n' + 1) μ : ℝ) : EReal) := by
    rw [← hL, ← coe_sum]
    exact Finset.sum_congr rfl fun y _ => exp_sub_coe (hSr y) μ
  have hterm : ∀ x, Ideal.div (Ideal.exp (S x - (μ : EReal))) ((Lr s (n' + 1) μ : ℝ) : EReal) * V x
      = ((wt (S x) μ * (V x).toReal * (1 / Lr s (n' + 1) μ) : ℝ) : EReal) := fun x => by
    obtain ⟨q, hq⟩ := hv x
    rw [Ideal.div_coe hLne, exp_sub_coe (hSr x) μ, hq, EReal.toReal_coe, ← EReal.coe_mul,
      ← EReal.coe_mul]
    congr 1
    ring
  rw [hM, hden, Finset.sum_congr rfl fun x _ => hterm x, coe_sum, ← Finset.sum_mul, hA, hμ]
  show Ideal.div ((Ar s v (n' + 1) μ : ℝ) : EReal) ((Lr s (n' + 1) μ : ℝ) : EReal) = _
  rw [Ideal.div_coe hLne, ← EReal.coe_mul]

end OnlineSoftmax
-- ==== Proof.Val1Defs.lean ====
/-
  The attention kernel's schedule and per-row sequences, as plain functions.

  A batch's ten steps visit the pairs (query block q, key block kv ≤ q) row by row; row q ends at step 0, 2, 5, 9.
  For query row r of block q, the k-th key block contributes the 512 masked scores `sc … k` and, per output column,
  the 512 values `vv … k`; the running (maximum, normaliser, weighted sum) after the row's last step is the
  blockwise recurrence over the first q + 1 blocks.
-/
import proofs.«412249_j74225624809935_3_alg».proof.Proof.Data1
import proofs.«412249_j74225624809935_3_alg».proof.Proof.LibOnlineSoftmax
import Idealize.ShloMosaic.Lib.ValueIdx

noncomputable section

namespace Cert.KernelIdeal.Hand

open Cert.KernelIdeal Cert.KernelIdeal.Gen
open Idealize.ShloMosaic Idealize.ShloMosaic.ValueIdx

/-- The query block and the key block of a batch's step. -/
def qOf : Fin 10 → ℕ := fun | 0 => 0 | 1 => 1 | 2 => 1 | 3 => 2 | 4 => 2 | 5 => 2 | 6 => 3 | 7 => 3 | 8 => 3 | 9 => 3
def kvOf : Fin 10 → ℕ := fun | 0 => 0 | 1 => 0 | 2 => 1 | 3 => 0 | 4 => 1 | 5 => 2 | 6 => 0 | 7 => 1 | 8 => 2 | 9 => 3
/-- The last step of query block `q`'s row, and its first. -/
def lastStep : Fin 4 → Fin 10 := fun | 0 => 0 | 1 => 2 | 2 => 5 | 3 => 9
def firstStep : Fin 4 → Fin 10 := fun | 0 => 0 | 1 => 1 | 2 => 3 | 3 => 6

/-- Row `r` of block `k` on the 2048-long time axis. -/
def rowIx (k : Fin 4) (r : Fin 512) : Fin 2048 := ⟨512 * k.val + r.val, by have := k.isLt; have := r.isLt; omega⟩

abbrev SQ : Shape := ⟨3, ![4, 2048, 1024]⟩

/-- Query row `r` of block `q` against key block `k`: the scaled scores, `-∞` after the query's position (and for a
    block index past the cache's four). -/
def sc (Qa Ka : SQ.Idx → EReal) (b : Fin 4) (q : Fin 4) (r : Fin 512) : ℕ → Fin 512 → EReal := fun k j =>
  if h : k < 4 then
    (if k * 512 + j.val ≤ q.val * 512 + r.val then
      (∑ c : Fin 1024, Qa (ix3 b (rowIx q r) c) * Ka (ix3 b (rowIx ⟨k, h⟩ j) c)) * ((1 / 32 : ℝ) : EReal) else ⊥)
  else ⊥

/-- Column `d` of key block `k`'s value rows. -/
def vv (Va : SQ.Idx → EReal) (b : Fin 4) (d : Fin 1024) : ℕ → Fin 512 → EReal := fun k j =>
  if h : k < 4 then Va (ix3 b (rowIx ⟨k, h⟩ j) d) else 0

end Cert.KernelIdeal.Hand

end
-- ==== Proof.Pay1.lean ====
/-
  The flash-attention tile arithmetic read at an index, over the extended reals.

  A query row r of query block q meets a key row j of key block kv.  The score is the inner
  product of the two rows scaled by 1/32 (the head dimension is 1024, and 1/32 = 1/√1024),
  or ⊥ when the key position kv·512 + j lies after the query position q·512 + r (the causal
  mask).  From a tile of scores the running maximum m, the running normaliser l and the
  running weighted sum a take one step of the online-softmax recurrence; the last tile
  divides a by l.  Every statement below is one entry of one of these arrays, written with
  explicit row and column coordinates.
-/
import proofs.«412249_j74225624809935_3_alg».proof.Proof.Gen.KernelIdeal.Skeleton
import proofs.«412249_j74225624809935_3_alg».proof.Proof.LibOnlineSoftmax
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws
import Idealize.ShloMosaic.PureOps.IdealRules

noncomputable section

namespace Cert.KernelIdeal.Hand

open Cert.KernelIdeal Cert.KernelIdeal.Gen Idealize.ShloMosaic Idealize.ShloMosaic.ValueIdx
open scoped BigOperators

/-! ## The constants -/

/-- the pattern of -∞ denotes ⊥ -/
theorem ofBits_neg_inf : Ideal.ofBits .f32 0xFF800000#32 = ⊥ := by
  simp [Ideal.ofBits, Ideal.ieee]

/-- the pattern of 0.03125 denotes 1/32 -/
theorem ofBits_scale : Ideal.ofBits .f32 0x3D000000#32 = ((1 / 32 : ℝ) : EReal) := by
  simp [Ideal.ofBits, Ideal.ieee, -EReal.coe_mul]; norm_num

/-- the masking constant is ⊥ over the extended reals -/
theorem neg_big : Named.named (F := Ideal) κ "neg_big" (φ := .f32) 0xFF333332#32 = ⊥ :=
  IdealRules.named_const.ideal_named_scalar _ _ _ _ rfl

/-! ## The initial state -/

theorem pay6_apply (r : Fin 512) : k1_pay6 (F := Ideal) (ix2 r 0) = ⊥ := by
  unfold k1_pay6
  rw [shapeCast_self]
  exact ofBits_neg_inf

theorem pay7_apply (r : Fin 512) : k1_pay7 (F := Ideal) (ix2 r 0) = 0 := by
  unfold k1_pay7
  rw [shapeCast_self]
  exact Ideal.ofBits_zero_f32

theorem pay8_apply (r : Fin 512) (d : Fin 1024) : k1_pay8 (F := Ideal) (ix2 r d) = 0 := by
  unfold k1_pay8
  rw [shapeCast_self]
  exact Ideal.ofBits_zero_f32

/-! ## Layout operations at explicit coordinates -/

section Layout
variable {α : Type}

/-- a column [a, 1] spread over n lanes reads, at (p, c), the column's entry p -/
theorem broadcastTo_col_apply {a n : ℕ} (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    exact (if_pos rfl).symm

/-- a vector [a] cast to a column [a, 1] reads, at (i, u), the vector's entry i -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- the index a lane reduction of a [512, 512] tile inserts: row r, lane k -/
theorem lift_row (r : Fin 512) (k : Fin (S512x512.size 1)) :
    reduces_S512x512_S512.lift (ValueIdx.ix1 r) k = ix2 r k :=
  funext fun a => Fin.ext (match a with | ⟨0, _⟩ => rfl | ⟨1, _⟩ => rfl)

/-! ## The two products -/

/-- the score product contracts the second axis of its left operand … -/
theorem qk_lhs_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem qk_lhs_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
/-- … and the first axis of its right operand -/
theorem qk_rhs_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem qk_rhs_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- the product of a [512, 1024] block with a [1024, 512] block into zero: entry (r, j) is the
    sum over the shared axis -/
theorem qk_apply (x : FVec Ideal S512x1024 .bf16) (y : FVec Ideal S1024x512 .bf16) (r j : Fin 512) :
    matmul dot_S512x1024_S1024x512_S512x512_1_0_0_1_n_n none x y (constant (F := Ideal) S512x512 .f32 0x00000000#32) (ix2 r j)
      = ∑ c : Fin 1024, x (ix2 r c) * y (ix2 c j) := by
  simp only [matmul]
  rw [Ideal.matmul_constant_zero_apply, ← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have el : dot_S512x1024_S1024x512_S512x512_1_0_0_1_n_n.lhsIdx (ix2 r j) ((ValueIdx.contrEquiv1 dot_S512x1024_S1024x512_S512x512_1_0_0_1_n_n 1024 rfl rfl).symm k) = ix2 r k := funext fun a => Fin.ext (by
    match a with
    | ⟨0, _⟩ => exact qk_lhs_0 _ _
    | ⟨1, _⟩ => exact (qk_lhs_1 _ _).trans hk)
  have er : dot_S512x1024_S1024x512_S512x512_1_0_0_1_n_n.rhsIdx (ix2 r j) ((ValueIdx.contrEquiv1 dot_S512x1024_S1024x512_S512x512_1_0_0_1_n_n 1024 rfl rfl).symm k) = ix2 k j := funext fun a => Fin.ext (by
    match a with
    | ⟨0, _⟩ => exact (qk_rhs_0 _ _).trans hk
    | ⟨1, _⟩ => exact qk_rhs_1 _ _)
  rw [el, er]

/-- the weighted-sum product contracts the second axis of its left operand … -/
theorem pv_lhs_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem pv_lhs_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
/-- … and the first axis of its right operand -/
theorem pv_rhs_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem pv_rhs_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- the product of a [512, 512] tile of weights with a [512, 1024] block of values into zero:
    entry (r, d) is the sum over the tile's key rows -/
theorem pv_apply (x : FVec Ideal S512x512 .bf16) (y : FVec Ideal S512x1024 .bf16) (r : Fin 512) (d : Fin 1024) :
    matmul dot_S512x512_S512x1024_S512x1024_1_0_0_1_n_n none x y (constant (F := Ideal) S512x1024 .f32 0x00000000#32) (ix2 r d)
      = ∑ j : Fin 512, x (ix2 r j) * y (ix2 j d) := by
  simp only [matmul]
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 r d) ((ValueIdx.contrEquiv1 dot_S512x512_S512x1024_S512x1024_1_0_0_1_n_n 512 rfl rfl).symm k) = ix2 r k := funext fun a => Fin.ext (by
    match a with
    | ⟨0, _⟩ => exact pv_lhs_0 _ _
    | ⟨1, _⟩ => exact (pv_lhs_1 _ _).trans hk)
  have er : dot_S512x512_S512x1024_S512x1024_1_0_0_1_n_n.rhsIdx (ix2 r d) ((ValueIdx.contrEquiv1 dot_S512x512_S512x1024_S512x1024_1_0_0_1_n_n 512 rfl rfl).symm k) = ix2 k d := funext fun a => Fin.ext (by
    match a with
    | ⟨0, _⟩ => exact (pv_rhs_0 _ _).trans hk
    | ⟨1, _⟩ => exact pv_rhs_1 _ _)
  rw [el, er]

/-! ## The causal mask -/

/-- a block number below 4 times 512 plus a coordinate below 512, computed on 32-bit words, is
    that natural number -/
theorem pos_toNat (v : BitVec 32) (hv : v.toNat < 4) (x : Fin 512) :
    (IntOp.addi (Scalar.muli v 512#32) (BitVec.ofNat 32 x.val)).toNat = v.toNat * 512 + x.val := by
  have hx := x.isLt
  unfold IntOp.addi Scalar.muli IntOp.muli
  simp only [BitVec.toNat_add, BitVec.toNat_mul, BitVec.toNat_ofNat]
  omega

/-- the tile's mask bit at (r, j) is set exactly when key position kv·512 + j is not after
    query position q·512 + r -/
theorem mask_apply (v1 v3 : BitVec 32) (hq : v1.toNat < 4) (hk : v3.toNat < 4) (r j : Fin 512) :
    cmpi .sle (addi (broadcast S512x512 (Scalar.muli v3 512#32)) (iota .tc S512x512 32 [1] iota_S512x512_d1_w32))
        (addi (broadcast S512x512 (Scalar.muli v1 512#32)) (iota .tc S512x512 32 [0] iota_S512x512_d0_w32)) (ix2 r j) = 1#1
      ↔ v3.toNat * 512 + j.val ≤ v1.toNat * 512 + r.val := by
  show IntOp.cmpi .sle (IntOp.addi (Scalar.muli v3 512#32) (iota .tc S512x512 32 [1] iota_S512x512_d1_w32 (ix2 r j)))
      (IntOp.addi (Scalar.muli v1 512#32) (iota .tc S512x512 32 [0] iota_S512x512_d0_w32 (ix2 r j))) = 1#1 ↔ _
  rw [iota_single_apply, iota_single_apply]
  show IntOp.cmpi .sle (IntOp.addi (Scalar.muli v3 512#32) (BitVec.ofNat 32 j.val))
      (IntOp.addi (Scalar.muli v1 512#32) (BitVec.ofNat 32 r.val)) = 1#1 ↔ _
  have hr := r.isLt
  have hj := j.isLt
  rw [StableHlo.Predicate.sle_iff_toNat (by rw [pos_toNat v3 hk j]; omega) (by rw [pos_toNat v1 hq r]; omega),
    pos_toNat v3 hk j, pos_toNat v1 hq r]

/-! ## The tile of scores -/

/-- the tile's masked, scaled score of query row r (of query block q) against key row j (of
    key block kv) -/
def tileScore (q kv : ℕ) (qb kb : Vec Ideal S1x512x1024 .bf16) (r j : Fin 512) : EReal :=
  if kv * 512 + j.val ≤ q * 512 + r.val then
    (∑ c : Fin 1024, qb (ix3 0 r c) * kb (ix3 0 j c)) * ((1 / 32 : ℝ) : EReal)
  else ⊥

theorem pay10_apply (v1 v3 : BitVec 32) (hq : v1.toNat < 4) (hk : v3.toNat < 4)
    (qb kb : Vec Ideal S1x512x1024 .bf16) (r j : Fin 512) :
    k1_pay10 (F := Ideal) v1 v3 qb kb (ix2 r j) = tileScore v1.toNat v3.toNat qb kb r j := by
  unfold k1_pay10 tileScore
  dsimp only
  rw [select_apply, mulf_apply, broadcast_apply, broadcast_apply, qk_apply]
  by_cases h : v3.toNat * 512 + j.val ≤ v1.toNat * 512 + r.val
  · rw [(mask_apply v1 v3 hq hk r j).mpr h, select_one, if_pos h]
    refine congrArg₂ (· * ·) (Finset.sum_congr rfl fun c _ => ?_) ofBits_scale
    rw [shapeCast_1ab_ab_apply, transpose_ix2_apply, shapeCast_1ab_ab_apply]
  · rw [eq_zero_of_ne_one (mt (mask_apply v1 v3 hq hk r j).mp h), select_zero, if_neg h]
    exact neg_big

/-! ## The running maximum -/

/-- row r of the new maximum: the larger of the old maximum and the row's largest score -/
theorem pay11_apply (v1 v3 : BitVec 32) (hq : v1.toNat < 4) (hk : v3.toNat < 4)
    (qb kb : Vec Ideal S1x512x1024 .bf16) (pm : Vec Ideal S512x1 .f32) (r : Fin 512) :
    k1_pay11 (F := Ideal) v1 v3 qb kb pm (ix2 r 0)
      = OnlineSoftmax.stepM (pm (ix2 r 0)) (tileScore v1.toNat v3.toNat qb kb r) := by
  unfold k1_pay11 OnlineSoftmax.stepM
  rw [maximumf_apply, shapeCast_a_a1_apply]
  refine congrArg (max _) ((Ideal.multiReduction_maximumf_single (k1_pay10 (F := Ideal) v1 v3 qb kb) 0xFF800000#32
    reduces_S512x512_S512 (.inl rfl) rfl (ValueIdx.ix1 r)).trans ?_)
  have e : (k1_pay10 (F := Ideal) v1 v3 qb kb ∘ reduces_S512x512_S512.lift (ValueIdx.ix1 r))
      = tileScore v1.toNat v3.toNat qb kb r :=
    funext fun k =>
      (congrArg (k1_pay10 (F := Ideal) v1 v3 qb kb) (lift_row r k)).trans (pay10_apply v1 v3 hq hk qb kb r k)
  rw [e]
  exact congrArg (fun b => Finset.univ.fold max b _) ofBits_neg_inf

theorem pay4_11_apply (v1 v3 : BitVec 32) (hq : v1.toNat < 4) (hk : v3.toNat < 4)
    (qb kb : Vec Ideal S1x512x1024 .bf16) (pm : Vec Ideal S512x1 .f32) (r : Fin 512) :
    k1_pay4 (F := Ideal) (k1_pay11 v1 v3 qb kb pm) (ix2 r 0)
      = OnlineSoftmax.stepM (pm (ix2 r 0)) (tileScore v1.toNat v3.toNat qb kb r) := by
  unfold k1_pay4
  rw [shapeCast_self]
  exact pay11_apply v1 v3 hq hk qb kb pm r

/-- the factor that rescales the old totals of row r: exp (old maximum - new maximum) -/
theorem pay12_apply (v1 v3 : BitVec 32) (hq : v1.toNat < 4) (hk : v3.toNat < 4)
    (qb kb : Vec Ideal S1x512x1024 .bf16) (pm : Vec Ideal S512x1 .f32) (r : Fin 512) :
    k1_pay12 (F := Ideal) v1 v3 qb kb pm pm (ix2 r 0)
      = Ideal.exp (pm (ix2 r 0) - OnlineSoftmax.stepM (pm (ix2 r 0)) (tileScore v1.toNat v3.toNat qb kb r)) := by
  unfold k1_pay12
  show Ideal.exp (pm (ix2 r 0) - k1_pay11 (F := Ideal) v1 v3 qb kb pm (ix2 r 0)) = _
  rw [pay11_apply v1 v3 hq hk]

/-- the new maximum of row r, spread over the tile's lanes -/
theorem pay13_apply (v1 v3 : BitVec 32) (hq : v1.toNat < 4) (hk : v3.toNat < 4)
    (qb kb : Vec Ideal S1x512x1024 .bf16) (pm : Vec Ideal S512x1 .f32) (r j : Fin 512) :
    k1_pay13 (F := Ideal) v1 v3 qb kb pm (ix2 r j)
      = OnlineSoftmax.stepM (pm (ix2 r 0)) (tileScore v1.toNat v3.toNat qb kb r) := by
  unfold k1_pay13
  rw [broadcastTo_col_apply, pay11_apply v1 v3 hq hk]

/-! ## The running normaliser -/

/-- over any scores s, levels t and rescaling column e: row r of the new normaliser is the
    rescaled old one plus the row's sum of exp (score - level) -/
theorem pay2_core (s t : FVec Ideal S512x512 .f32) (e : FVec Ideal S512x1 .f32) (pl : Vec Ideal S512x1 .f32)
    (r : Fin 512) :
    k1_pay2 (F := Ideal) s e t pl (ix2 r 0)
      = e (ix2 r 0) * pl (ix2 r 0) + ∑ j : Fin 512, Ideal.exp (s (ix2 r j) - t (ix2 r j)) := by
  unfold k1_pay2
  rw [shapeCast_self, addf_apply, mulf_apply, shapeCast_a_a1_apply]
  refine congrArg (_ + ·) ((Ideal.multiReduction_add_single (k1_pay1 (F := Ideal) s t) 0x00000000#32
    reduces_S512x512_S512 (.inl rfl) rfl (ValueIdx.ix1 r)).trans (Finset.sum_congr rfl fun k _ => ?_))
  rw [lift_row]
  rfl

theorem pay2_apply (v1 v3 : BitVec 32) (hq : v1.toNat < 4) (hk : v3.toNat < 4)
    (qb kb : Vec Ideal S1x512x1024 .bf16) (pm pl : Vec Ideal S512x1 .f32) (r : Fin 512) :
    k1_pay2 (F := Ideal) (k1_pay10 v1 v3 qb kb) (k1_pay12 v1 v3 qb kb pm pm) (k1_pay13 v1 v3 qb kb pm) pl (ix2 r 0)
      = OnlineSoftmax.stepL (pm (ix2 r 0)) (pl (ix2 r 0)) (tileScore v1.toNat v3.toNat qb kb r) := by
  rw [pay2_core, pay12_apply v1 v3 hq hk]
  unfold OnlineSoftmax.stepL
  refine congrArg (_ + ·) (Finset.sum_congr rfl fun j _ => ?_)
  rw [pay10_apply v1 v3 hq hk, pay13_apply v1 v3 hq hk]

/-! ## The running weighted sum -/

/-- over any values vv, scores s, levels t and rescaling column e: entry (r, d) of the new
    weighted sum is the rescaled old one plus the row's sum of exp (score - level) · value -/
theorem pay3_core (vv : FVec Ideal S512x1024 .bf16) (s t : FVec Ideal S512x512 .f32) (e : FVec Ideal S512x1 .f32)
    (pa : Vec Ideal S512x1024 .f32) (r : Fin 512) (d : Fin 1024) :
    k1_pay3 (F := Ideal) vv s e t pa (ix2 r d)
      = e (ix2 r 0) * pa (ix2 r d) + ∑ j : Fin 512, Ideal.exp (s (ix2 r j) - t (ix2 r j)) * vv (ix2 j d) := by
  unfold k1_pay3
  rw [shapeCast_self, addf_apply, mulf_apply, broadcastTo_col_apply, pv_apply]
  rfl

/-- a loaded [1, 512, 1024] block of values as a [512, 1024] matrix -/
theorem pay9_apply (vb : Vec Ideal S1x512x1024 .bf16) (j : Fin 512) (d : Fin 1024) :
    k1_pay9 (F := Ideal) vb (ix2 j d) = vb (ix3 0 j d) := by
  unfold k1_pay9
  rw [shapeCast_1ab_ab_apply]

theorem pay3_apply (v1 v3 : BitVec 32) (hq : v1.toNat < 4) (hk : v3.toNat < 4)
    (qb kb vb : Vec Ideal S1x512x1024 .bf16) (pm : Vec Ideal S512x1 .f32) (pa : Vec Ideal S512x1024 .f32)
    (r : Fin 512) (d : Fin 1024) :
    k1_pay3 (F := Ideal) (k1_pay9 vb) (k1_pay10 v1 v3 qb kb) (k1_pay12 v1 v3 qb kb pm pm) (k1_pay13 v1 v3 qb kb pm) pa (ix2 r d)
      = OnlineSoftmax.stepA (pm (ix2 r 0)) (pa (ix2 r d)) (tileScore v1.toNat v3.toNat qb kb r)
          (fun j => vb (ix3 0 j d)) := by
  rw [pay3_core, pay12_apply v1 v3 hq hk]
  unfold OnlineSoftmax.stepA
  refine congrArg (_ + ·) (Finset.sum_congr rfl fun j _ => ?_)
  rw [pay10_apply v1 v3 hq hk, pay13_apply v1 v3 hq hk, pay9_apply]

/-! ## The last step: the weighted sum over the normaliser -/

theorem pay5_apply (a : Vec Ideal S512x1024 .f32) (l : Vec Ideal S512x1 .f32) (r : Fin 512) (d : Fin 1024) :
    k1_pay5 (F := Ideal) a l (ix3 0 r d) = Ideal.div (a (ix2 r d)) (l (ix2 r 0)) := by
  unfold k1_pay5
  rw [shapeCast_ab_1ab_apply, divf_apply, broadcastTo_col_apply]

end Cert.KernelIdeal.Hand

end
-- ==== Proof.Val1Traj.lean ====
/-
  The attention kernel's scratch trajectory along a row of the block schedule.

  A batch's ten steps visit the pairs (query block q, key block kv ≤ q) row by row.  At step s of batch b the
  kernel reads query block qOf s and key/value block kvOf s: the block of an array at a step starts, on the time
  axis, at 512 times the block index the step's table entry names.  The step's tile of masked scores is therefore
  the sequence sc … (kvOf s) of the query row against key block kvOf s, and its values are vv … (kvOf s).
  One step maps the running (maximum, normaliser, weighted sum) of a query row by the blockwise online-softmax
  step, starting over from (-∞, 0, 0) when kvOf s = 0.  Since a row's steps are consecutive and its key blocks
  are 0, 1, …, q in order, the contents after the row's last step are the recurrence over the first q + 1 blocks.
-/
import proofs.«412249_j74225624809935_3_alg».proof.Proof.Val1Defs
import proofs.«412249_j74225624809935_3_alg».proof.Proof.Pay1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open Idealize.ShloMosaic.Pipeline (Dat Cfg Window BodyObligation cellOf)

variable (hok : ok1 (F := Ideal) (tbl (F := Ideal)))

/-- The grid has 4 × 10 = 40 points. -/
theorem cfgA_N : (cfgA (F := Ideal) hok).N = 40 := N_1

/-- point 10·b + s of the 40-point grid -/
def pt (b : Fin 4) (s : Fin 10) : Fin (cfgA (F := Ideal) hok).N :=
  ⟨10 * b.val + s.val, by rw [cfgA_N]; have := b.isLt; have := s.isLt; omega⟩

/-- Consecutive points share a batch ten at a time; the step is the fastest axis. -/
theorem stride0 : (cfgA (F := Ideal) hok).grid.stride 0 = 10 := (by decide : grid1.stride 0 = 10)
theorem stride1 : (cfgA (F := Ideal) hok).grid.stride 1 = 1 := (by decide : grid1.stride 1 = 1)

/-- Point 10·b + s has coordinates (b, s). -/
theorem coords_pt0 (b : Fin 4) (s : Fin 10) : (((cfgA (F := Ideal) hok).grid.coords (pt hok b s)) 0).val = b.val := by
  show (10 * b.val + s.val) / (cfgA (F := Ideal) hok).grid.stride 0 % 4 = b.val
  rw [stride0]; have := b.isLt; have := s.isLt; omega

theorem coords_pt1 (b : Fin 4) (s : Fin 10) : (((cfgA (F := Ideal) hok).grid.coords (pt hok b s)) 1).val = s.val := by
  show (10 * b.val + s.val) / (cfgA (F := Ideal) hok).grid.stride 1 % 10 = s.val
  rw [stride1]; have := b.isLt; have := s.isLt; omega

/-- The query-block table holds qOf s at step s. -/
theorem qWord_of (i : grid1.Coords) (s : Fin 10) (h : (i 1).val = s.val) : qWord (F := Ideal) i = BitVec.ofNat 32 (qOf s) := by
  have hi : i 1 = s := Fin.ext h
  unfold qWord k1_off1
  simp only [hi]
  fin_cases s <;> rfl

/-- The key-block table holds kvOf s at step s. -/
theorem kvWord_of (i : grid1.Coords) (s : Fin 10) (h : (i 1).val = s.val) : kvWord (F := Ideal) i = BitVec.ofNat 32 (kvOf s) := by
  have hi : i 1 = s := Fin.ext h
  unfold kvWord k1_off1
  simp only [hi]
  fin_cases s <;> rfl

/-- The body's reset test succeeds exactly at a step whose key block is 0. -/
theorem reset_iff (s : Fin 10) :
    (Scalar.cmpi .ne (Scalar.extui (Scalar.cmpi .eq (BitVec.ofNat 32 (kvOf s)) 0#32)) 0#32 = 1#1) ↔ kvOf s = 0 := by
  fin_cases s <;> decide

/-- The query window's block index at (b, s) is (b, qOf s, 0). -/
theorem transform0_of (i : grid1.Coords) (b : Fin 4) (s : Fin 10) (h0 : (i 0).val = b.val) (h1 : (i 1).val = s.val) :
    cc1_transform_0 k1_off1_inb numel1_S1 (tbl (F := Ideal)) i 0 = b.val ∧
    cc1_transform_0 k1_off1_inb numel1_S1 (tbl (F := Ideal)) i 1 = qOf s ∧
    cc1_transform_0 k1_off1_inb numel1_S1 (tbl (F := Ideal)) i 2 = 0 := by
  have hi0 : i 0 = b := Fin.ext h0
  have hi1 : i 1 = s := Fin.ext h1
  unfold cc1_transform_0
  simp only [hi0, hi1]
  fin_cases b <;> fin_cases s <;> exact ⟨rfl, rfl, rfl⟩

variable (V : (c : Dev nD) → (b : Ref sig .tc) → Buf (Elt Ideal) ((c : Thread nD τ).loc b))

/-- Row r of the query block at (b, s) is row 512 · qOf s + r of batch b of the query array. -/
theorem iblk_q (c : Dev nD) (t : Fin (cfgA (F := Ideal) hok).N) (b : Fin 4) (s : Fin 10)
    (h0 : ((cfgA (F := Ideal) hok).grid.coords t 0).val = b.val) (h1 : ((cfgA (F := Ideal) hok).grid.coords t 1).val = s.val)
    (hq : qOf s < 4) (r : Fin 512) (cc : Fin 1024) :
    (iblk1 hok V c 0 t : S1x512x1024.Idx → EReal) (ix3 0 r cc) = (V c main_v9_0 : SQ.Idx → EReal) (ix3 b (rowIx ⟨qOf s, hq⟩ r) cc) := by
  obtain ⟨e0, e1, e2⟩ := transform0_of ((cfgA (F := Ideal) hok).grid.coords t) b s h0 h1
  have key : ∀ a : Fin 3, (((((cfgA (F := Ideal) hok).win 0).blk t).view.emb (ix3 0 r cc) : SQ.Idx) a : ℕ)
      = cc1_transform_0 k1_off1_inb numel1_S1 (tbl (F := Ideal)) ((cfgA (F := Ideal) hok).grid.coords t) a * S1x512x1024.size a + ((ix3 (0 : Fin 1) r cc : S1x512x1024.Idx) a : ℕ) :=
    fun a => Window.rect_emb_val ((cfgA (F := Ideal) hok).win 0) t (ix3 0 r cc) a
  have hidx : ((((cfgA (F := Ideal) hok).win 0).blk t).view.emb (ix3 0 r cc) : SQ.Idx) = ix3 b (rowIx ⟨qOf s, hq⟩ r) cc := by
    funext a
    apply Fin.ext
    match a with
    | ⟨0, _⟩ => exact (key 0).trans (by rw [e0]; show b.val * 1 + 0 = b.val; omega)
    | ⟨1, _⟩ => exact (key 1).trans (by rw [e1]; show qOf s * 512 + r.val = 512 * qOf s + r.val; omega)
    | ⟨2, _⟩ => exact (key 2).trans (by rw [e2]; show 0 * 1024 + cc.val = cc.val; omega)
  unfold iblk1
  show (V c main_v9_0 : SQ.Idx → EReal) ((((cfgA (F := Ideal) hok).win 0).blk t).view.emb (ix3 0 r cc)) = _
  rw [hidx]

/-- The key window's block index at (b, s) is (b, kvOf s, 0). -/
theorem transform1_of (i : grid1.Coords) (b : Fin 4) (s : Fin 10) (h0 : (i 0).val = b.val) (h1 : (i 1).val = s.val) :
    cc1_transform_1 k1_off1_inb numel1_S1 (tbl (F := Ideal)) i 0 = b.val ∧
    cc1_transform_1 k1_off1_inb numel1_S1 (tbl (F := Ideal)) i 1 = kvOf s ∧
    cc1_transform_1 k1_off1_inb numel1_S1 (tbl (F := Ideal)) i 2 = 0 := by
  have hi0 : i 0 = b := Fin.ext h0
  have hi1 : i 1 = s := Fin.ext h1
  unfold cc1_transform_1
  simp only [hi0, hi1]
  fin_cases b <;> fin_cases s <;> exact ⟨rfl, rfl, rfl⟩

/-- The value window's block index at (b, s) is (b, kvOf s, 0). -/
theorem transform2_of (i : grid1.Coords) (b : Fin 4) (s : Fin 10) (h0 : (i 0).val = b.val) (h1 : (i 1).val = s.val) :
    cc1_transform_2 k1_off1_inb numel1_S1 (tbl (F := Ideal)) i 0 = b.val ∧
    cc1_transform_2 k1_off1_inb numel1_S1 (tbl (F := Ideal)) i 1 = kvOf s ∧
    cc1_transform_2 k1_off1_inb numel1_S1 (tbl (F := Ideal)) i 2 = 0 := by
  have hi0 : i 0 = b := Fin.ext h0
  have hi1 : i 1 = s := Fin.ext h1
  unfold cc1_transform_2
  simp only [hi0, hi1]
  fin_cases b <;> fin_cases s <;> exact ⟨rfl, rfl, rfl⟩

/-- Row j of the key block at (b, s) is row 512 · kvOf s + j of batch b of the key array. -/
theorem iblk_k (c : Dev nD) (t : Fin (cfgA (F := Ideal) hok).N) (b : Fin 4) (s : Fin 10)
    (h0 : ((cfgA (F := Ideal) hok).grid.coords t 0).val = b.val) (h1 : ((cfgA (F := Ideal) hok).grid.coords t 1).val = s.val)
    (hk : kvOf s < 4) (j : Fin 512) (cc : Fin 1024) :
    (iblk1 hok V c 1 t : S1x512x1024.Idx → EReal) (ix3 0 j cc) = (V c main_v9_3 : SQ.Idx → EReal) (ix3 b (rowIx ⟨kvOf s, hk⟩ j) cc) := by
  obtain ⟨e0, e1, e2⟩ := transform1_of ((cfgA (F := Ideal) hok).grid.coords t) b s h0 h1
  have key : ∀ a : Fin 3, (((((cfgA (F := Ideal) hok).win 1).blk t).view.emb (ix3 0 j cc) : SQ.Idx) a : ℕ)
      = cc1_transform_1 k1_off1_inb numel1_S1 (tbl (F := Ideal)) ((cfgA (F := Ideal) hok).grid.coords t) a * S1x512x1024.size a + ((ix3 (0 : Fin 1) j cc : S1x512x1024.Idx) a : ℕ) :=
    fun a => Window.rect_emb_val ((cfgA (F := Ideal) hok).win 1) t (ix3 0 j cc) a
  have hidx : ((((cfgA (F := Ideal) hok).win 1).blk t).view.emb (ix3 0 j cc) : SQ.Idx) = ix3 b (rowIx ⟨kvOf s, hk⟩ j) cc := by
    funext a
    apply Fin.ext
    match a with
    | ⟨0, _⟩ => exact (key 0).trans (by rw [e0]; show b.val * 1 + 0 = b.val; omega)
    | ⟨1, _⟩ => exact (key 1).trans (by rw [e1]; show kvOf s * 512 + j.val = 512 * kvOf s + j.val; omega)
    | ⟨2, _⟩ => exact (key 2).trans (by rw [e2]; show 0 * 1024 + cc.val = cc.val; omega)
  unfold iblk1
  show (V c main_v9_3 : SQ.Idx → EReal) ((((cfgA (F := Ideal) hok).win 1).blk t).view.emb (ix3 0 j cc)) = _
  rw [hidx]

/-- Row j of the value block at (b, s) is row 512 · kvOf s + j of batch b of the value array. -/
theorem iblk_v (c : Dev nD) (t : Fin (cfgA (F := Ideal) hok).N) (b : Fin 4) (s : Fin 10)
    (h0 : ((cfgA (F := Ideal) hok).grid.coords t 0).val = b.val) (h1 : ((cfgA (F := Ideal) hok).grid.coords t 1).val = s.val)
    (hk : kvOf s < 4) (j : Fin 512) (cc : Fin 1024) :
    (iblk1 hok V c 2 t : S1x512x1024.Idx → EReal) (ix3 0 j cc) = (V c main_v9_4 : SQ.Idx → EReal) (ix3 b (rowIx ⟨kvOf s, hk⟩ j) cc) := by
  obtain ⟨e0, e1, e2⟩ := transform2_of ((cfgA (F := Ideal) hok).grid.coords t) b s h0 h1
  have key : ∀ a : Fin 3, (((((cfgA (F := Ideal) hok).win 2).blk t).view.emb (ix3 0 j cc) : SQ.Idx) a : ℕ)
      = cc1_transform_2 k1_off1_inb numel1_S1 (tbl (F := Ideal)) ((cfgA (F := Ideal) hok).grid.coords t) a * S1x512x1024.size a + ((ix3 (0 : Fin 1) j cc : S1x512x1024.Idx) a : ℕ) :=
    fun a => Window.rect_emb_val ((cfgA (F := Ideal) hok).win 2) t (ix3 0 j cc) a
  have hidx : ((((cfgA (F := Ideal) hok).win 2).blk t).view.emb (ix3 0 j cc) : SQ.Idx) = ix3 b (rowIx ⟨kvOf s, hk⟩ j) cc := by
    funext a
    apply Fin.ext
    match a with
    | ⟨0, _⟩ => exact (key 0).trans (by rw [e0]; show b.val * 1 + 0 = b.val; omega)
    | ⟨1, _⟩ => exact (key 1).trans (by rw [e1]; show kvOf s * 512 + j.val = 512 * kvOf s + j.val; omega)
    | ⟨2, _⟩ => exact (key 2).trans (by rw [e2]; show 0 * 1024 + cc.val = cc.val; omega)
  unfold iblk1
  show (V c main_v9_4 : SQ.Idx → EReal) ((((cfgA (F := Ideal) hok).win 2).blk t).view.emb (ix3 0 j cc)) = _
  rw [hidx]

theorem qOf_lt (s : Fin 10) : qOf s < 4 := by fin_cases s <;> decide
theorem kvOf_lt (s : Fin 10) : kvOf s < 4 := by fin_cases s <;> decide

/-- The step's tile of masked scores, read off the arrays: row r of query block qOf s against key block kvOf s. -/
theorem tile_eq (c : Dev nD) (b : Fin 4) (s : Fin 10) (r : Fin 512) :
    tileScore (qOf s) (kvOf s) (iblk1 hok V c 0 (pt hok b s)) (iblk1 hok V c 1 (pt hok b s)) r
      = sc (V c main_v9_0) (V c main_v9_3) b ⟨qOf s, qOf_lt s⟩ r (kvOf s) := by
  funext j
  unfold tileScore sc
  rw [dif_pos (kvOf_lt s)]
  by_cases hc : kvOf s * 512 + j.val ≤ qOf s * 512 + r.val
  · rw [if_pos hc, if_pos hc]
    congr 1
    refine Finset.sum_congr rfl fun cc _ => ?_
    rw [iblk_q hok V c (pt hok b s) b s (coords_pt0 hok b s) (coords_pt1 hok b s) (qOf_lt s),
      iblk_k hok V c (pt hok b s) b s (coords_pt0 hok b s) (coords_pt1 hok b s) (kvOf_lt s)]
  · rw [if_neg hc, if_neg hc]

/-- Column d of the step's value block, read off the value array. -/
theorem vals_eq (c : Dev nD) (b : Fin 4) (s : Fin 10) (d : Fin 1024) :
    (fun j : Fin 512 => (iblk1 hok V c 2 (pt hok b s) : S1x512x1024.Idx → EReal) (ix3 0 j d)) = vv (V c main_v9_4) b d (kvOf s) := by
  funext j
  unfold vv
  rw [dif_pos (kvOf_lt s)]
  exact iblk_v hok V c (pt hok b s) b s (coords_pt0 hok b s) (coords_pt1 hok b s) (kvOf_lt s) j d

/-- The contents a step starts from: the reset contents when its key block is the row's first. -/
def pOf (s : Fin 10) (prev : St1 Ideal) : St1 Ideal := if kvOf s = 0 then (k1_pay6 (F := Ideal), k1_pay7 (F := Ideal), k1_pay8 (F := Ideal)) else prev

theorem toNat_q (s : Fin 10) : (BitVec.ofNat 32 (qOf s)).toNat = qOf s := by fin_cases s <;> rfl
theorem toNat_kv (s : Fin 10) : (BitVec.ofNat 32 (kvOf s)).toNat = kvOf s := by fin_cases s <;> rfl

/-- ONE STEP at row r and column d: the online-softmax step on the contents the step starts from. -/
theorem step1_at (c : Dev nD) (b : Fin 4) (s : Fin 10) (prev : St1 Ideal) (r : Fin 512) (d : Fin 1024) :
    (step1 hok V c (pt hok b s) prev).1 (ix2 r 0)
        = OnlineSoftmax.stepM ((pOf s prev).1 (ix2 r 0)) (sc (V c main_v9_0) (V c main_v9_3) b ⟨qOf s, qOf_lt s⟩ r (kvOf s))
    ∧ (step1 hok V c (pt hok b s) prev).2.1 (ix2 r 0)
        = OnlineSoftmax.stepL ((pOf s prev).1 (ix2 r 0)) ((pOf s prev).2.1 (ix2 r 0)) (sc (V c main_v9_0) (V c main_v9_3) b ⟨qOf s, qOf_lt s⟩ r (kvOf s))
    ∧ (step1 hok V c (pt hok b s) prev).2.2 (ix2 r d)
        = OnlineSoftmax.stepA ((pOf s prev).1 (ix2 r 0)) ((pOf s prev).2.2 (ix2 r d)) (sc (V c main_v9_0) (V c main_v9_3) b ⟨qOf s, qOf_lt s⟩ r (kvOf s))
            (vv (V c main_v9_4) b d (kvOf s)) := by
  have hq := qWord_of ((cfgA (F := Ideal) hok).grid.coords (pt hok b s)) s (coords_pt1 hok b s)
  have hk := kvWord_of ((cfgA (F := Ideal) hok).grid.coords (pt hok b s)) s (coords_pt1 hok b s)
  have hq4 : (BitVec.ofNat 32 (qOf s)).toNat < 4 := by rw [toNat_q]; exact qOf_lt s
  have hk4 : (BitVec.ofNat 32 (kvOf s)).toNat < 4 := by rw [toNat_kv]; exact kvOf_lt s
  have hp : (if Scalar.cmpi .ne (Scalar.extui (Scalar.cmpi .eq (kvWord (F := Ideal) ((cfgA (F := Ideal) hok).grid.coords (pt hok b s))) 0#32)) 0#32 = 1#1
      then (k1_pay6 (F := Ideal), k1_pay7 (F := Ideal), k1_pay8 (F := Ideal)) else prev : St1 Ideal) = pOf s prev := by
    rw [hk]
    unfold pOf
    by_cases hz : kvOf s = 0
    · rw [if_pos hz, if_pos ((reset_iff s).mpr hz)]
    · rw [if_neg hz, if_neg (mt (reset_iff s).mp hz)]
  unfold step1
  dsimp only
  rw [hp, hq, hk]
  refine ⟨?_, ?_, ?_⟩
  · refine (pay4_11_apply _ _ hq4 hk4 (iblk1 hok V c 0 (pt hok b s)) (iblk1 hok V c 1 (pt hok b s)) (pOf s prev).1 r).trans ?_
    rw [toNat_q, toNat_kv, tile_eq]
  · refine (pay2_apply _ _ hq4 hk4 (iblk1 hok V c 0 (pt hok b s)) (iblk1 hok V c 1 (pt hok b s)) (pOf s prev).1 (pOf s prev).2.1 r).trans ?_
    rw [toNat_q, toNat_kv, tile_eq]
  · refine (pay3_apply _ _ hq4 hk4 (iblk1 hok V c 0 (pt hok b s)) (iblk1 hok V c 1 (pt hok b s)) (iblk1 hok V c 2 (pt hok b s)) (pOf s prev).1 (pOf s prev).2.2 r d).trans ?_
    rw [toNat_q, toNat_kv, tile_eq, vals_eq]

theorem pt_val (b : Fin 4) (s : Fin 10) : (pt hok b s).val = 10 * b.val + s.val := rfl

/-- The trajectory depends on the point's number only. -/
theorem traj1_congr (c : Dev nD) : ∀ (n₁ n₂ : ℕ) (e : n₁ = n₂) (h₁ : n₁ < (cfgA (F := Ideal) hok).N) (h₂ : n₂ < (cfgA (F := Ideal) hok).N),
    traj1 hok V c n₁ h₁ = traj1 hok V c n₂ h₂ := by
  intro n₁ n₂ e
  subst e
  intro h₁ h₂
  rfl

/-- The claim at a step of a batch: the trajectory there, at row r and column d, is the recurrence over
    the key blocks 0 … kvOf s of the step's query block. -/
def RowOK (c : Dev nD) (b : Fin 4) (r : Fin 512) (d : Fin 1024) (s : Fin 10) : Prop :=
  (traj1 hok V c (pt hok b s).val (pt hok b s).isLt).1 (ix2 r 0)
      = (OnlineSoftmax.run (sc (V c main_v9_0) (V c main_v9_3) b ⟨qOf s, qOf_lt s⟩ r) (vv (V c main_v9_4) b d) (kvOf s + 1)).1
  ∧ (traj1 hok V c (pt hok b s).val (pt hok b s).isLt).2.1 (ix2 r 0)
      = (OnlineSoftmax.run (sc (V c main_v9_0) (V c main_v9_3) b ⟨qOf s, qOf_lt s⟩ r) (vv (V c main_v9_4) b d) (kvOf s + 1)).2.1
  ∧ (traj1 hok V c (pt hok b s).val (pt hok b s).isLt).2.2 (ix2 r d)
      = (OnlineSoftmax.run (sc (V c main_v9_0) (V c main_v9_3) b ⟨qOf s, qOf_lt s⟩ r) (vv (V c main_v9_4) b d) (kvOf s + 1)).2.2

/-- A step whose key block is 0 starts the recurrence: one block from (-∞, 0, 0). -/
theorem row_reset (c : Dev nD) (b : Fin 4) (r : Fin 512) (d : Fin 1024) (s : Fin 10) (hz : kvOf s = 0) :
    RowOK hok V c b r d s := by
  unfold RowOK
  obtain ⟨e1, e2, e3⟩ := step1_at hok V c b s (prev1 hok V c (pt hok b s)) r d
  have hp1 : (pOf s (prev1 hok V c (pt hok b s))).1 (ix2 r 0) = ⊥ := by
    unfold pOf; rw [if_pos hz]; exact pay6_apply r
  have hp2 : (pOf s (prev1 hok V c (pt hok b s))).2.1 (ix2 r 0) = 0 := by
    unfold pOf; rw [if_pos hz]; exact pay7_apply r
  have hp3 : (pOf s (prev1 hok V c (pt hok b s))).2.2 (ix2 r d) = 0 := by
    unfold pOf; rw [if_pos hz]; exact pay8_apply r d
  rw [traj1_eq hok V c (pt hok b s), e1, e2, e3, hp1, hp2, hp3, hz, OnlineSoftmax.run_succ]
  exact ⟨rfl, rfl, rfl⟩

/-- A step whose key block is not 0 continues the row of the step before it: same query block, next key block. -/
theorem row_cont (c : Dev nD) (b : Fin 4) (r : Fin 512) (d : Fin 1024) (s s' : Fin 10) (hs : s.val = s'.val + 1)
    (hqq : qOf s' = qOf s) (hkk : kvOf s = kvOf s' + 1) (ih : RowOK hok V c b r d s') :
    RowOK hok V c b r d s := by
  unfold RowOK at ih ⊢
  have hqF : (⟨qOf s', qOf_lt s'⟩ : Fin 4) = ⟨qOf s, qOf_lt s⟩ := Fin.ext hqq
  rw [hqF, ← hkk] at ih
  obtain ⟨i1, i2, i3⟩ := ih
  have hz : kvOf s ≠ 0 := by omega
  have hprev : prev1 hok V c (pt hok b s) = traj1 hok V c (pt hok b s').val (pt hok b s').isLt := by
    unfold prev1
    rw [dif_neg (by rw [pt_val]; omega)]
    exact traj1_congr hok V c _ _ (by rw [pt_val, pt_val]; omega) _ _
  obtain ⟨e1, e2, e3⟩ := step1_at hok V c b s (prev1 hok V c (pt hok b s)) r d
  have hp : pOf s (prev1 hok V c (pt hok b s)) = prev1 hok V c (pt hok b s) := if_neg hz
  rw [traj1_eq hok V c (pt hok b s), e1, e2, e3, hp, hprev, i1, i2, i3, OnlineSoftmax.run_succ]
  exact ⟨rfl, rfl, rfl⟩

/-- Within a row the schedule keeps the query block and advances the key block by one. -/
theorem sched : ∀ s : Fin 9, kvOf s.succ ≠ 0 → qOf s.castSucc = qOf s.succ ∧ kvOf s.succ = kvOf s.castSucc + 1 := by decide

/-- Every step of a batch carries the recurrence over its row's key blocks so far. -/
theorem row_all (c : Dev nD) (b : Fin 4) (r : Fin 512) (d : Fin 1024) : ∀ s : Fin 10, RowOK hok V c b r d s := by
  intro s
  induction s using Fin.induction with
  | zero => exact row_reset hok V c b r d 0 rfl
  | succ s ih =>
    by_cases hz : kvOf s.succ = 0
    · exact row_reset hok V c b r d s.succ hz
    · obtain ⟨hqq, hkk⟩ := sched s hz
      exact row_cont hok V c b r d s.succ s.castSucc (by simp) hqq hkk ih

/-- After the last step of query block q's row the scratch contents, at row r and column d, are the blockwise
    recurrence over the first q + 1 key blocks. -/
theorem traj_last (c : Dev nD) (b q : Fin 4) (r : Fin 512) (d : Fin 1024) :
    let T := traj1 hok V c (pt hok b (lastStep q)).val (pt hok b (lastStep q)).isLt
    let R := OnlineSoftmax.run (sc (V c main_v9_0) (V c main_v9_3) b q r) (vv (V c main_v9_4) b d) (q.val + 1)
    T.1 (ix2 r 0) = R.1 ∧ T.2.1 (ix2 r 0) = R.2.1 ∧ T.2.2 (ix2 r d) = R.2.2 := by
  intro T R
  have h := row_all hok V c b r d (lastStep q)
  unfold RowOK at h
  have e1 : (⟨qOf (lastStep q), qOf_lt (lastStep q)⟩ : Fin 4) = q := by fin_cases q <;> rfl
  have e2 : kvOf (lastStep q) = q.val := by fin_cases q <;> rfl
  rw [e1, e2] at h
  exact h

end Cert.KernelIdeal.Hand
end
-- ==== Proof.Val1.lean ====
/-
  What the causal attention call leaves in its output array, over the extended reals.

  The call visits, batch by batch, the lower triangle of a 4 × 4 matrix of (query block, key block) pairs row
  by row.  Along the row of query block q the running maximum, normaliser and weighted sum of every query row
  take one step of the blockwise recurrence per key block; at the row's last pair the quotient of the weighted
  sum by the normaliser is stored and the block (b, q) of the output is written back.  The blockwise recurrence
  over the first q + 1 key blocks is softmax attention over ALL 4096 keys, because every later key lies after
  every query position of block q and is masked.  The four write-backs of a batch tile its 2048 rows, so the
  output array ends holding softmax attention at every index.
-/
import proofs.«412249_j74225624809935_3_alg».proof.Proof.Val1Defs
import proofs.«412249_j74225624809935_3_alg».proof.Proof.Spec
import proofs.«412249_j74225624809935_3_alg».proof.Proof.Pay1
import proofs.«412249_j74225624809935_3_alg».proof.Proof.Val1Traj
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## The schedule of the output window -/

/-- The output window's block index at point `t`: (batch, the step's query block, 0). -/
theorem index3 (hok : ok1 (F := Ideal) tbl) : ∀ t : Fin (cfgA (F := Ideal) hok).N,
    ((cfgA hok).win 3).index t = ![t.val / 10, qOf ⟨t.val % 10, Nat.mod_lt _ (by decide)⟩, 0] :=
  (by decide +kernel : ∀ t : Fin grid1.N, cc1_transform_3 k1_off1_inb numel1_S1 (tbl (F := Ideal)) (grid1.coords t)
      = ![t.val / 10, qOf ⟨t.val % 10, Nat.mod_lt _ (by decide)⟩, 0])

/-- The output window is written back exactly at the last step of a query block's row. -/
theorem flush3 (hok : ok1 (F := Ideal) tbl) : ∀ t : Fin (cfgA (F := Ideal) hok).N,
    ((cfgA hok).win 3).flush t = true ↔ (t.val % 10 = 0 ∨ t.val % 10 = 2 ∨ t.val % 10 = 5 ∨ t.val % 10 = 9) :=
  (by decide +kernel : ∀ t : Fin grid1.N,
    (true && (decide (t.val + 1 = grid1.N) || decide (∃ h : t.val + 1 < grid1.N,
      cc1_transform_3 k1_off1_inb numel1_S1 (tbl (F := Ideal)) (grid1.coords ⟨t.val + 1, h⟩)
        ≠ cc1_transform_3 k1_off1_inb numel1_S1 (tbl (F := Ideal)) (grid1.coords t)))) = true
      ↔ (t.val % 10 = 0 ∨ t.val % 10 = 2 ∨ t.val % 10 = 5 ∨ t.val % 10 = 9))

/-- A point that writes the output back is the last step of some query block's row of some batch. -/
theorem flush3_pt (hok : ok1 (F := Ideal) tbl) (t : Fin (cfgA (F := Ideal) hok).N) (hf : ((cfgA hok).win 3).flush t = true) :
    ∃ (b q : Fin 4), t = pt hok b (lastStep q) := by
  have hN : t.val < 40 := t.isLt
  have h := (flush3 hok t).mp hf
  refine ⟨⟨t.val / 10, by omega⟩, ?_⟩
  rcases h with h | h | h | h
  · exact ⟨0, Fin.ext (by show t.val = 10 * (t.val / 10) + 0; omega)⟩
  · exact ⟨1, Fin.ext (by show t.val = 10 * (t.val / 10) + 2; omega)⟩
  · exact ⟨2, Fin.ext (by show t.val = 10 * (t.val / 10) + 5; omega)⟩
  · exact ⟨3, Fin.ext (by show t.val = 10 * (t.val / 10) + 9; omega)⟩

theorem flush3_last (hok : ok1 (F := Ideal) tbl) (b q : Fin 4) : ((cfgA hok).win 3).flush (pt hok b (lastStep q)) = true := by
  refine (flush3 hok _).mpr ?_
  show (10 * b.val + (lastStep q).val) % 10 = 0 ∨ (10 * b.val + (lastStep q).val) % 10 = 2 ∨ (10 * b.val + (lastStep q).val) % 10 = 5 ∨ (10 * b.val + (lastStep q).val) % 10 = 9
  match q with
  | ⟨0, _⟩ => left; show (10 * b.val + 0) % 10 = 0; omega
  | ⟨1, _⟩ => right; left; show (10 * b.val + 2) % 10 = 2; omega
  | ⟨2, _⟩ => right; right; left; show (10 * b.val + 5) % 10 = 5; omega
  | ⟨3, _⟩ => right; right; right; show (10 * b.val + 9) % 10 = 9; omega

/-- At the last step of query block `q`'s row in batch `b` the output block index is (b, q, 0). -/
theorem index3_last (hok : ok1 (F := Ideal) tbl) (b q : Fin 4) :
    ((cfgA hok).win 3).index (pt hok b (lastStep q)) (0 : Fin 3) = b.val
    ∧ ((cfgA hok).win 3).index (pt hok b (lastStep q)) (1 : Fin 3) = q.val
    ∧ ((cfgA hok).win 3).index (pt hok b (lastStep q)) (2 : Fin 3) = 0 := by
  have hb := b.isLt
  rw [index3 hok]
  refine ⟨?_, ?_, rfl⟩
  · show (10 * b.val + (lastStep q).val) / 10 = b.val
    have : (lastStep q).val < 10 := (lastStep q).isLt
    omega
  · show qOf ⟨(10 * b.val + (lastStep q).val) % 10, _⟩ = q.val
    have e : (⟨(10 * b.val + (lastStep q).val) % 10, Nat.mod_lt _ (by decide)⟩ : Fin 10) = lastStep q :=
      Fin.ext (by show (10 * b.val + (lastStep q).val) % 10 = (lastStep q).val; have : (lastStep q).val < 10 := (lastStep q).isLt; omega)
    rw [e]
    match q with
    | ⟨0, _⟩ => rfl
    | ⟨1, _⟩ => rfl
    | ⟨2, _⟩ => rfl
    | ⟨3, _⟩ => rfl

/-! ## One output row: the blockwise recurrence is softmax attention over all keys -/

/-- A finite sum of products of reals is a real. -/
theorem real_sum_mul {ι : Type} (t : Finset ι) (f g : ι → EReal) (hf : ∀ i, ∃ x : ℝ, f i = (x : EReal))
    (hg : ∀ i, ∃ x : ℝ, g i = (x : EReal)) : ∃ x : ℝ, ∑ i ∈ t, f i * g i = (x : EReal) := by
  choose ff hff using hf
  choose gg hgg using hg
  refine ⟨∑ i ∈ t, ff i * gg i, ?_⟩
  rw [← OnlineSoftmax.coe_sum]
  exact Finset.sum_congr rfl fun i _ => by rw [hff, hgg, EReal.coe_mul]

section Row

variable (Qa Ka Va : SQ.Idx → EReal) (k v : Fin 4 → Fin 4096 → Fin 1024 → EReal)
variable (hk : ∀ (b : Fin 4) (s : Fin 4096) (h : s.val < 2048) (e : Fin 1024), k b s e = Ka (ix3 b ⟨s.val, h⟩ e))
variable (hv : ∀ (b : Fin 4) (s : Fin 4096) (h : s.val < 2048) (e : Fin 1024), v b s e = Va (ix3 b ⟨s.val, h⟩ e))
variable (hqr : ∀ i, ∃ x : ℝ, Qa i = (x : EReal)) (hkr : ∀ i, ∃ x : ℝ, Ka i = (x : EReal))
variable (hvr : ∀ b s e, ∃ x : ℝ, v b s e = (x : EReal))

include hqr hkr in
/-- A scaled score of two real rows is real. -/
theorem real_score (b : Fin 4) (t u : Fin 2048) :
    ∃ x : ℝ, (∑ c : Fin 1024, Qa (ix3 b t c) * Ka (ix3 b u c)) * ((1 / 32 : ℝ) : EReal) = (x : EReal) := by
  obtain ⟨y, hy⟩ := real_sum_mul Finset.univ (fun c : Fin 1024 => Qa (ix3 b t c)) (fun c => Ka (ix3 b u c))
    (fun c => hqr _) (fun c => hkr _)
  exact ⟨y * (1 / 32), by rw [hy, EReal.coe_mul]⟩

include hqr hkr in
/-- Every entry of a tile of masked scores is a real or masked. -/
theorem sc_realOrBot (b q : Fin 4) (r : Fin 512) (k1 : ℕ) (j1 : Fin 512) :
    OnlineSoftmax.RealOrBot (sc Qa Ka b q r k1 j1) := by
  unfold sc
  split
  · split
    · exact Or.inr (real_score Qa Ka hqr hkr b _ _)
    · exact Or.inl rfl
  · exact Or.inl rfl

include hk in
/-- The specification's masked score of query row (q, r) against key 512·k₁ + j₁ (a cached key) is the tile's entry. -/
theorem masked_eq_sc (b q : Fin 4) (r : Fin 512) (k1 : ℕ) (hk1 : k1 < 4) (j1 : Fin 512) (x : Fin 4096)
    (hx : x.val = 512 * k1 + j1.val) :
    Cert.Attn.masked (fun b t e => Qa (ix3 b t e)) k b (rowIx q r) x = sc Qa Ka b q r k1 j1 := by
  have hj := j1.isLt
  have hx2 : x.val < 2048 := by omega
  have hcond : x.val ≤ (rowIx q r).val ↔ k1 * 512 + j1.val ≤ q.val * 512 + r.val := by
    show x.val ≤ 512 * q.val + r.val ↔ _
    omega
  have ex : (⟨x.val, hx2⟩ : Fin 2048) = rowIx ⟨k1, hk1⟩ j1 := Fin.ext hx
  unfold Cert.Attn.masked sc
  rw [dif_pos hk1]
  by_cases hc : k1 * 512 + j1.val ≤ q.val * 512 + r.val
  · rw [if_pos hc, if_pos (hcond.mpr hc)]
    unfold Cert.Attn.score
    refine congrArg (· * ((1 / 32 : ℝ) : EReal)) (Finset.sum_congr rfl fun c _ => ?_)
    show Qa (ix3 b (rowIx q r) c) * k b x c = _
    rw [hk b x hx2 c, ex]
  · rw [if_neg hc, if_neg (fun h => hc (hcond.mp h))]

include hk hv hqr hkr hvr in
/-- THE ROW: the quotient the recurrence over the first q + 1 key blocks ends with is softmax attention of the
    row over all 4096 keys — the keys of later blocks lie after every query position of block q. -/
theorem softmax_row (b q : Fin 4) (r : Fin 512) (d : Fin 1024) :
    Ideal.div (OnlineSoftmax.run (sc Qa Ka b q r) (vv Va b d) (q.val + 1)).2.2
        (OnlineSoftmax.run (sc Qa Ka b q r) (vv Va b d) (q.val + 1)).2.1
      = Cert.Attn.attn (fun b t e => Qa (ix3 b t e)) k v b (rowIx q r) d := by
  have hq := q.isLt
  have hr := r.isLt
  refine (OnlineSoftmax.run_eq_softmax (κ := Fin 4096) (sc Qa Ka b q r) (vv Va b d) (q.val + 1) (Nat.succ_pos _)
    (Cert.Attn.masked (fun b t e => Qa (ix3 b t e)) k b (rowIx q r)) (fun x => v b x d)
    (fun p => ⟨512 * p.1.val + p.2.val, by have := p.1.isLt; have := p.2.isLt; omega⟩) ?_ ?_ ?_ ?_ ?_ ?_ ?_).trans ?_
  · -- the keys of the visited blocks are distinct
    rintro ⟨k1, j1⟩ ⟨k2, j2⟩ h
    have h' : 512 * k1.val + j1.val = 512 * k2.val + j2.val := congrArg Fin.val h
    have := j1.isLt
    have := j2.isLt
    exact Prod.ext (Fin.ext (by show k1.val = k2.val; omega)) (Fin.ext (by show j1.val = j2.val; omega))
  · rintro ⟨k1, j1⟩
    exact masked_eq_sc Qa Ka k hk b q r k1.val (by have := k1.isLt; omega) j1 _ rfl
  · rintro ⟨k1, j1⟩
    have hk1 : k1.val < 4 := by have := k1.isLt; omega
    have hj := j1.isLt
    show v b ⟨512 * k1.val + j1.val, _⟩ d = vv Va b d k1.val j1
    unfold vv
    rw [dif_pos hk1, hv b _ (by show 512 * k1.val + j1.val < 2048; omega) d]
    rfl
  · -- a key outside the visited blocks lies after the query position
    intro x hx
    unfold Cert.Attn.masked
    refine if_neg fun hle => hx ?_
    have hle' : x.val ≤ 512 * q.val + r.val := hle
    exact ⟨(⟨x.val / 512, by omega⟩, ⟨x.val % 512, Nat.mod_lt _ (by decide)⟩),
      Fin.ext (by show 512 * (x.val / 512) + x.val % 512 = x.val; omega)⟩
  · exact fun k1 _ j1 => sc_realOrBot Qa Ka hqr hkr b q r k1 j1
  · -- key 0 is at or before every query position
    refine ⟨0, ?_⟩
    obtain ⟨y, hy⟩ := real_score Qa Ka hqr hkr b (rowIx q r) (rowIx ⟨0, by decide⟩ 0)
    refine ⟨y, ?_⟩
    unfold sc
    rw [dif_pos (by decide : 0 < 4), if_pos (by show 0 * 512 + 0 ≤ q.val * 512 + r.val; omega)]
    exact hy
  · exact fun x => hvr b x d
  · rfl

end Row

/-! ## From the written-back blocks to the array -/

section Final

variable (hok : ok1 (F := Ideal) tbl) (V : (c : Dev nD) → (b : Ref sig .tc) → Buf (Elt Ideal) ((c : Thread nD τ).loc b)) (c : Dev nD)
variable (k v : Fin 4 → Fin 4096 → Fin 1024 → EReal)

/-- Softmax attention of the query array over the (extended) keys and values, as one array. -/
abbrev attnArr : S4x2048x1024.Idx → EReal :=
  fun i => Cert.Attn.attn (fun b t e => V c main_v9_0 (ix3 b t e)) k v (i 0) (i 1) (i 2)

variable (hk : ∀ (b : Fin 4) (s : Fin 4096) (h : s.val < 2048) (e : Fin 1024), k b s e = V c main_v9_3 (ix3 b ⟨s.val, h⟩ e))
variable (hv : ∀ (b : Fin 4) (s : Fin 4096) (h : s.val < 2048) (e : Fin 1024), v b s e = V c main_v9_4 (ix3 b ⟨s.val, h⟩ e))
variable (hqr : ∀ i, ∃ x : ℝ, V c main_v9_0 i = (x : EReal)) (hkr : ∀ i, ∃ x : ℝ, V c main_v9_3 i = (x : EReal))
variable (hvr : ∀ b s e, ∃ x : ℝ, v b s e = (x : EReal))

include hk hv hqr hkr hvr in
/-- What the last step of query block `q`'s row stores at row `r`, column `d`: attention of query row 512·q + r. -/
theorem out1_row (b q : Fin 4) (r : Fin 512) (d : Fin 1024) :
    out1 hok V c (pt hok b (lastStep q)) (ix3 0 r d)
      = Cert.Attn.attn (fun b t e => V c main_v9_0 (ix3 b t e)) k v b (rowIx q r) d := by
  obtain ⟨-, h2, h3⟩ := traj_last hok V c b q r d
  unfold out1
  refine (pay5_apply _ _ r d).trans ?_
  refine (congrArg₂ Ideal.div h3 h2).trans ?_
  exact softmax_row (V c main_v9_0) (V c main_v9_3) (V c main_v9_4) k v hk hv hqr hkr hvr b q r d

variable (dat : Dat τ (Elt Ideal) Unit ℕ (UR sig nD τ) ℕ (cfgA hok) c) (haft : ∀ t, dat.after 3 t = out1 hok V c t)

include hk hv hqr hkr hvr haft in
/-- WHAT A WRITE-BACK WRITES is its block of the attention array. -/
theorem flushed3_eq (t : Fin (cfgA hok).N) (hf : ((cfgA hok).win 3).flush t = true) :
    dat.flushed 3 t = (((cfgA hok).win 3).blk t).view.read (Elt Ideal) (attnArr V c k v) := by
  obtain ⟨b, q, rfl⟩ := flush3_pt hok t hf
  obtain ⟨e0, e1, e2⟩ := index3_last hok b q
  show ((cfgA hok).win 3).cut ((cfgA hok).grid.coords (pt hok b (lastStep q))) (dat.after 3 (pt hok b (lastStep q))) = _
  rw [haft]
  funext j
  have hj0 : (j (0 : Fin 3)).val < 1 := (j (0 : Fin 3)).isLt
  have hj1 : (j (1 : Fin 3)).val < 512 := (j (1 : Fin 3)).isLt
  have hj2 : (j (2 : Fin 3)).val < 1024 := (j (2 : Fin 3)).isLt
  show out1 hok V c (pt hok b (lastStep q)) (((cfgA hok).win 3).xinj ((cfgA hok).grid.coords (pt hok b (lastStep q))) j)
    = attnArr V c k v ((((cfgA hok).win 3).blk (pt hok b (lastStep q))).view.emb j)
  have hL : ((cfgA hok).win 3).xinj ((cfgA hok).grid.coords (pt hok b (lastStep q))) j
      = ix3 (0 : Fin 1) (⟨(j (1 : Fin 3)).val, hj1⟩ : Fin 512) (⟨(j (2 : Fin 3)).val, hj2⟩ : Fin 1024) := by
    funext a
    apply Fin.ext
    match a with
    | ⟨0, _⟩ => show (j (0 : Fin 3)).val = 0; omega
    | ⟨1, _⟩ => rfl
    | ⟨2, _⟩ => rfl
  have hR : (((cfgA hok).win 3).blk (pt hok b (lastStep q))).view.emb j
      = ix3 b (rowIx q ⟨(j (1 : Fin 3)).val, hj1⟩) (⟨(j (2 : Fin 3)).val, hj2⟩ : Fin 1024) := by
    funext a
    apply Fin.ext
    match a with
    | ⟨0, _⟩ =>
      show ((cfgA hok).win 3).index (pt hok b (lastStep q)) (0 : Fin 3) * 1 + 1 * (j (0 : Fin 3)).val = b.val
      rw [e0]; omega
    | ⟨1, _⟩ =>
      show ((cfgA hok).win 3).index (pt hok b (lastStep q)) (1 : Fin 3) * 512 + 1 * (j (1 : Fin 3)).val = 512 * q.val + (j (1 : Fin 3)).val
      rw [e1]; omega
    | ⟨2, _⟩ =>
      show ((cfgA hok).win 3).index (pt hok b (lastStep q)) (2 : Fin 3) * 1024 + 1 * (j (2 : Fin 3)).val = (j (2 : Fin 3)).val
      rw [e2]; omega
  refine (congrArg (out1 hok V c (pt hok b (lastStep q))) hL).trans ?_
  refine Eq.trans ?_ (congrArg (attnArr V c k v) hR).symm
  exact out1_row hok V c k v hk hv hqr hkr hvr b q ⟨(j (1 : Fin 3)).val, hj1⟩ ⟨(j (2 : Fin 3)).val, hj2⟩

/-- EVERY INDEX IS COVERED: row t of batch b lies in the block written back at the last step of query block t / 512. -/
theorem cover3 (i : S4x2048x1024.Idx) :
    ∃ t : Fin (cfgA hok).N, ((cfgA hok).win 3).flush t = true ∧ i ∈ (((cfgA hok).win 3).blk t).view.set := by
  have h0 : (i 0).val < 4 := (i 0).isLt
  have h1 : (i 1).val < 2048 := (i 1).isLt
  have h2 : (i 2).val < 1024 := (i 2).isLt
  have hq : (i 1).val / 512 < 4 := by omega
  obtain ⟨e0, e1, e2⟩ := index3_last hok (i 0) ⟨(i 1).val / 512, hq⟩
  refine ⟨pt hok (i 0) (lastStep ⟨(i 1).val / 512, hq⟩), flush3_last hok _ _, ?_⟩
  refine (Finset.ext_iff.mp (View.set_slice_whole main_v10 (((cfgA hok).win 3).rect (pt hok (i 0) (lastStep ⟨(i 1).val / 512, hq⟩)))) i).mpr ?_
  refine Rect.mem_set_unit.mpr fun a => ?_
  match a with
  | ⟨0, _⟩ =>
    show ((cfgA hok).win 3).index (pt hok (i 0) (lastStep ⟨(i 1).val / 512, hq⟩)) (0 : Fin 3) * 1 ≤ (i 0).val
      ∧ (i 0).val < ((cfgA hok).win 3).index (pt hok (i 0) (lastStep ⟨(i 1).val / 512, hq⟩)) (0 : Fin 3) * 1 + 1
    rw [e0]; omega
  | ⟨1, _⟩ =>
    show ((cfgA hok).win 3).index (pt hok (i 0) (lastStep ⟨(i 1).val / 512, hq⟩)) (1 : Fin 3) * 512 ≤ (i 1).val
      ∧ (i 1).val < ((cfgA hok).win 3).index (pt hok (i 0) (lastStep ⟨(i 1).val / 512, hq⟩)) (1 : Fin 3) * 512 + 512
    rw [e1]
    show (i 1).val / 512 * 512 ≤ (i 1).val ∧ (i 1).val < (i 1).val / 512 * 512 + 512
    omega
  | ⟨2, _⟩ =>
    show ((cfgA hok).win 3).index (pt hok (i 0) (lastStep ⟨(i 1).val / 512, hq⟩)) (2 : Fin 3) * 1024 ≤ (i 2).val
      ∧ (i 2).val < ((cfgA hok).win 3).index (pt hok (i 0) (lastStep ⟨(i 1).val / 512, hq⟩)) (2 : Fin 3) * 1024 + 1024
    rw [e2]; omega

end Final

/-- THE OUTPUT ARRAY after the call: softmax attention of the query array over the keys and values, index by index —
    for any proof data over this pipeline whose output window holds `out1` after the body. -/
theorem O_arr (hok : ok1 (F := Ideal) tbl) (V : (c : Dev nD) → (b : Ref sig .tc) → Buf (Elt Ideal) ((c : Thread nD τ).loc b)) (c : Dev nD)
    (dat : Dat τ (Elt Ideal) Unit ℕ (UR sig nD τ) ℕ (cfgA hok) c) (haft : ∀ t, dat.after 3 t = out1 hok V c t)
    (k v : Fin 4 → Fin 4096 → Fin 1024 → EReal)
    (hk : ∀ (b : Fin 4) (s : Fin 4096) (h : s.val < 2048) (e : Fin 1024), k b s e = V c main_v9_3 (ix3 b ⟨s.val, h⟩ e))
    (hv : ∀ (b : Fin 4) (s : Fin 4096) (h : s.val < 2048) (e : Fin 1024), v b s e = V c main_v9_4 (ix3 b ⟨s.val, h⟩ e))
    (hqr : ∀ i, ∃ x : ℝ, V c main_v9_0 i = (x : EReal)) (hkr : ∀ i, ∃ x : ℝ, V c main_v9_3 i = (x : EReal)) (hvr : ∀ b s e, ∃ x : ℝ, v b s e = (x : EReal)) :
    dat.arrAt 3 (cfgA hok).N = fun i : S4x2048x1024.Idx => Cert.Attn.attn (fun b t e => V c main_v9_0 (ix3 b t e)) k v (i 0) (i 1) (i 2) :=
  dat.arrAt_eq_of_cover 3 (attnArr V c k v)
    (fun t hf => flushed3_eq hok V c k v hk hv hqr hkr hvr dat haft t hf) (cover3 hok)

end Cert.KernelIdeal.Hand

end
-- ==== Proof.Finite.lean ====
/-
  Finiteness. The precondition says that every entry of the nine argument arrays has absolute value below
  +∞. Over the extended reals an absolute value max x (-x) is below +∞ exactly when x is neither infinity,
  that is, when x is a real number. A linear layer's output is a finite sum of products of reals plus a real,
  hence real; and the concatenation of a real cache with such rows is real.
-/
import proofs.«412249_j74225624809935_3_alg».proof.Defs
import proofs.«412249_j74225624809935_3_alg».proof.Proof.Gen.Pre_finite_inputs
import proofs.«412249_j74225624809935_3_alg».proof.Proof.Spec
import Idealize.ShloMosaic.Lib.ReduceAll
import Idealize.ShloMosaic.Lib.ValueIdx
import Idealize.ShloMosaic.PureOps.Ideal.Laws

noncomputable section

namespace Cert.Attn.Fin

open Idealize.ShloMosaic Idealize.SL.Sem Idealize.ShloMosaic.ValueIdx

/-- every entry a real number -/
def AllReal {ι : Type} (f : ι → EReal) : Prop := ∀ i, ∃ r : ℝ, f i = (r : EReal)

/-- The pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) compares below +∞ is a real number:
    at +∞ the maximum is +∞, at -∞ its negation is. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- One conjunct of the precondition, at any shape: if the conjunction over all indices of
    |x i| < +∞ is true then every entry of x is real. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x)
            (broadcastInDim s ![] hb (constant (F := Ideal) Cert.Pre_finite_inputs.S_ .f32 0x7F800000#32)))
          init hr hu ix0 = 1#1) : AllReal x := by
  intro i
  have hi := Host.reduce_andi_all _ init hr hu ix0 e i
  exact real_of_abs_lt_top (x i) hi

/-- The precondition read back: on every device each of the nine argument arrays holds only real numbers.
    The printed predicate is the conjunction of nine "all |x| < +∞"; a conjunction of bits is 1 exactly when
    each is. -/
theorem args_real [hP : Cert.Pre_finite_inputs.Facts] [hK : Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
      ∧ AllReal (m ((c.tc : Thread Cert.KernelIdeal.nD Cert.KernelIdeal.τ).loc Cert.KernelIdeal.main_arg1))
      ∧ AllReal (m ((c.tc : Thread Cert.KernelIdeal.nD Cert.KernelIdeal.τ).loc Cert.KernelIdeal.main_arg2))
      ∧ AllReal (m ((c.tc : Thread Cert.KernelIdeal.nD Cert.KernelIdeal.τ).loc Cert.KernelIdeal.main_arg3))
      ∧ AllReal (m ((c.tc : Thread Cert.KernelIdeal.nD Cert.KernelIdeal.τ).loc Cert.KernelIdeal.main_arg4))
      ∧ AllReal (m ((c.tc : Thread Cert.KernelIdeal.nD Cert.KernelIdeal.τ).loc Cert.KernelIdeal.main_arg5))
      ∧ AllReal (m ((c.tc : Thread Cert.KernelIdeal.nD Cert.KernelIdeal.τ).loc Cert.KernelIdeal.main_arg6))
      ∧ AllReal (m ((c.tc : Thread Cert.KernelIdeal.nD Cert.KernelIdeal.τ).loc Cert.KernelIdeal.main_arg7))
      ∧ AllReal (m ((c.tc : Thread Cert.KernelIdeal.nD Cert.KernelIdeal.τ).loc Cert.KernelIdeal.main_arg8)) := by
  have h0 := congrFun (h c) ix0
  dsimp only [Cert.Pre_finite_inputs.fn, Cert.Pre_finite_inputs.fn_part1, Cert.Pre_finite_inputs.fn_part2, andi] at h0
  simp only [IntOp.andi_eq_one, and_assoc] at h0
  obtain ⟨h0, h1, h2, h3, h4, h5, h6, h7, h8⟩ := h0
  exact ⟨allReal_of_all _ _ _ _ _ h0, allReal_of_all _ _ _ _ _ h1, allReal_of_all _ _ _ _ _ h2,
    allReal_of_all _ _ _ _ _ h3, allReal_of_all _ _ _ _ _ h4, allReal_of_all _ _ _ _ _ h5,
    allReal_of_all _ _ _ _ _ h6, allReal_of_all _ _ _ _ _ h7, allReal_of_all _ _ _ _ _ h8⟩

/-- A finite sum of real numbers, taken in the extended reals, is a real number. -/
theorem sum_real {α : Type} (s : Finset α) (f : α → EReal) (hf : ∀ a ∈ s, ∃ r : ℝ, f a = (r : EReal)) :
    ∃ r : ℝ, ∑ a ∈ s, f a = (r : EReal) := by
  classical
  induction s using Finset.induction_on with
  | empty => exact ⟨0, by simp⟩
  | insert a s ha ih =>
    obtain ⟨r1, h1⟩ := hf a (Finset.mem_insert_self a s)
    obtain ⟨r2, h2⟩ := ih (fun b hb => hf b (Finset.mem_insert_of_mem hb))
    exact ⟨r1 + r2, by rw [Finset.sum_insert ha, h1, h2, EReal.coe_add]⟩

/-- A linear layer of real data is real: each product of two reals is real, their finite sum is, and so is
    that sum plus the real bias. -/
theorem lin_real (x : Cert.Attn.SX.Idx → EReal) (W : Cert.Attn.SW.Idx → EReal) (β : Cert.Attn.SB.Idx → EReal)
    (hx : AllReal x) (hW : AllReal W) (hβ : AllReal β) (b : Fin 4) (t : Fin 2048) (d : Fin 1024) :
    ∃ r : ℝ, Cert.Attn.lin x W β b t d = (r : EReal) := by
  obtain ⟨rs, hs⟩ := sum_real Finset.univ (fun c : Fin 1024 => x (ix3 b t c) * W (ix2 d c)) (fun c _ => by
    obtain ⟨a, ha⟩ := hx (ix3 b t c)
    obtain ⟨w, hw⟩ := hW (ix2 d c)
    exact ⟨a * w, (congrArg₂ (· * ·) ha hw).trans (EReal.coe_mul a w).symm⟩)
  obtain ⟨rb, hb⟩ := hβ (ix1 d)
  exact ⟨rs + rb, (congrArg₂ (· + ·) hs hb).trans (EReal.coe_add rs rb).symm⟩

/-- The cache followed by the projected rows is real when the cache and the layer's data are. -/
theorem cat_real (p : Cert.Attn.SX.Idx → EReal) (x : Cert.Attn.SX.Idx → EReal) (W : Cert.Attn.SW.Idx → EReal)
    (β : Cert.Attn.SB.Idx → EReal) (hp : AllReal p) (hx : AllReal x) (hW : AllReal W) (hβ : AllReal β)
    (b : Fin 4) (s : Fin 4096) (d : Fin 1024) : ∃ r : ℝ, Cert.Attn.cat p x W β b s d = (r : EReal) := by
  unfold Cert.Attn.cat
  split
  · exact hp _
  · exact lin_real x W β hx hW hβ b _ d

end Cert.Attn.Fin

end
-- ==== Proof.RefIsSpec.lean ====
/-
  The reference program computes, index by index, the specification functions of Spec.lean.

  Each stage of the reference is read at explicit coordinates: a linear layer's row is `Σ_c x[b,t,c]·W[d,c] + β[d]`;
  the key and value arrays are the cache followed by the projected rows; a score is the inner product of a query row
  and a key row divided by `√1024 = 32`, i.e. multiplied by `1/32`; the causal mask keeps key `s` for query `t`
  exactly when `s ≤ t` (two small non-negative words compare as their values) and puts `-∞` elsewhere; a row's
  maximum from `-∞` is the fold of `max` from `⊥`; the weights are the exponentials relative to that maximum divided
  by their sum (from `0`); the output row is the weighted sum of the value rows. Every step is an unconditional
  identity on the extended reals.
-/
import proofs.«412249_j74225624809935_3_alg».proof.Proof.Gen.ReferenceIdeal.Read
import proofs.«412249_j74225624809935_3_alg».proof.Proof.Spec
import Idealize.ShloMosaic.PureOps.Reduce
import Idealize.ShloMosaic.Lib.StableHlo.Predicate

noncomputable section

namespace Cert.Attn.Ref

open Idealize.ShloMosaic Idealize.ShloMosaic.ValueIdx Cert.ReferenceIdeal Cert.ReferenceIdeal.Read

/-- An activation-shaped array, a weight matrix, a bias vector, a key/value-shaped array. -/
abbrev AX := (⟨S4x2048x1024, .f32⟩ : BufTy).Contents (Elt Ideal)
abbrev AW := (⟨S1024x1024, .f32⟩ : BufTy).Contents (Elt Ideal)
abbrev AB := (⟨S1024, .f32⟩ : BufTy).Contents (Elt Ideal)

/-! ## The linear layers -/

/-- A linear layer's row: the contraction over the input channel plus the broadcast bias. -/
theorem lin_v3 (x : AX) (W : AW) (β : AB) (b : Fin 4) (t : Fin 2048) (d : Fin 1024) :
    val_main_v3 (F := Ideal) x W β (ix3 b t d) = lin x W β b t d := by
  rw [val_main_v3_apply, val_main_v0_apply, val_main_v2_apply, val_main_v1_apply]
  have e1 : idx_main_v1 (idx_main_v2 (ix3 b t d)) = ix1 d :=
    funext fun a => Fin.ext (by match a with | ⟨0, _⟩ => rfl)
  rw [e1]
  show (∑ k : Fin 1024, x (lidx_main_v0 (ix3 b t d) k) * W (ridx_main_v0 (ix3 b t d) k)) + β (ix1 d) = _
  unfold lin
  refine congrArg (· + β (ix1 d)) (Finset.sum_congr rfl fun k _ => ?_)
  have el : lidx_main_v0 (ix3 b t d) k = ix3 b t k :=
    funext fun a => Fin.ext (by match a with | ⟨0, _⟩ => rfl | ⟨1, _⟩ => rfl | ⟨2, _⟩ => rfl)
  have er : ridx_main_v0 (ix3 b t d) k = ix2 d k :=
    funext fun a => Fin.ext (by match a with | ⟨0, _⟩ => rfl | ⟨1, _⟩ => rfl)
  rw [el, er]

theorem lin_v7 (x : AX) (W : AW) (β : AB) (b : Fin 4) (t : Fin 2048) (d : Fin 1024) :
    val_main_v7 (F := Ideal) x W β (ix3 b t d) = lin x W β b t d := lin_v3 x W β b t d

theorem lin_v11 (x : AX) (W : AW) (β : AB) (b : Fin 4) (t : Fin 2048) (d : Fin 1024) :
    val_main_v11 (F := Ideal) x W β (ix3 b t d) = lin x W β b t d := lin_v3 x W β b t d

/-! ## The cache followed by the projected rows -/

/-- A concatenation along the time axis of the cache `p` and an array `y`: the cache below 2048, `y` from there on. -/
theorem cat_pair (p y : AX) (h : Shape.Concatenates [S4x2048x1024, S4x2048x1024] S4x4096x1024 1)
    (b : Fin 4) (s : Fin 4096) (d : Fin 1024) :
    concatenate S4x4096x1024 1 [⟨S4x2048x1024, p⟩, ⟨S4x2048x1024, y⟩] h (ix3 b s d)
      = if h' : s.val < 2048 then p (ix3 b ⟨s.val, h'⟩ d)
        else y (ix3 b ⟨s.val - 2048, by have := s.isLt; omega⟩ d) := by
  by_cases h' : s.val < 2048
  · rw [dif_pos h']
    exact concatenate_pair_apply_left 1 p y h _ rfl _ (fun a => by
      match a with
      | ⟨0, _⟩ => rfl
      | ⟨1, _⟩ => rfl
      | ⟨2, _⟩ => rfl)
  · rw [dif_neg h']
    exact concatenate_pair_apply_right 1 p y h _ rfl rfl _
      (fun a ha => by
        match a with
        | ⟨0, _⟩ => rfl
        | ⟨1, _⟩ => exact absurd rfl ha
        | ⟨2, _⟩ => rfl)
      (by show (s.val - 2048) + 2048 = s.val; omega)

/-- The key array. -/
theorem cat_v12 (x p : AX) (W : AW) (β : AB) (b : Fin 4) (s : Fin 4096) (d : Fin 1024) :
    val_main_v12 (F := Ideal) x p W β (ix3 b s d) = cat p x W β b s d := by
  unfold val_main_v12 cat
  rw [cat_pair]
  by_cases h' : s.val < 2048
  · rw [dif_pos h', dif_pos h']
  · rw [dif_neg h', dif_neg h', lin_v7]

/-- The value array. -/
theorem cat_v13 (x p : AX) (W : AW) (β : AB) (b : Fin 4) (s : Fin 4096) (d : Fin 1024) :
    val_main_v13 (F := Ideal) x p W β (ix3 b s d) = cat p x W β b s d := by
  unfold val_main_v13 cat
  rw [cat_pair]
  by_cases h' : s.val < 2048
  · rw [dif_pos h', dif_pos h']
  · rw [dif_neg h', dif_neg h', lin_v11]

/-! ## The constants -/

/-- The pattern of `1024.0` denotes the real `1024`. -/
theorem ofBits_1024 : Ideal.ofBits .f32 0x44800000#32 = ((1024 : ℝ) : EReal) := by
  simp [Ideal.ofBits, Ideal.ieee, -EReal.coe_mul]; norm_num

/-- The pattern of `-∞` denotes the bottom of the extended reals. -/
theorem ofBits_negInf : Ideal.ofBits .f32 0xFF800000#32 = (⊥ : EReal) := by
  simp [Ideal.ofBits, Ideal.ieee]

/-- `√1024 = 32`. -/
theorem sqrt_1024 : Ideal.sqrt ((1024 : ℝ) : EReal) = ((32 : ℝ) : EReal) := by
  rw [Ideal.sqrt_coe, if_neg (by norm_num)]
  have e : Real.sqrt 1024 = 32 := by
    rw [show (1024 : ℝ) = 32 ^ 2 by norm_num]; exact Real.sqrt_sq (by norm_num)
  rw [e]

/-- The divisor of the scores: the square root of the constant `1024.0`, at every index. -/
theorem scale_v16 (i : S4x2048x4096.Idx) : val_main_v16 (F := Ideal) i = ((32 : ℝ) : EReal) := by
  rw [val_main_v16_apply, val_main_v15_apply, val_main_cst_apply]
  show Ideal.sqrt (Ideal.ofBits .f32 0x44800000#32) = _
  rw [ofBits_1024, sqrt_1024]

/-! ## The scores -/

/-- A scaled score: the inner product of a query row and a key row, times `1/32`. -/
theorem score_v17 (x0 x1 : AX) (x3 : AW) (x4 : AB) (x5 : AW) (x6 : AB) (b : Fin 4) (t : Fin 2048) (s : Fin 4096) :
    val_main_v17 (F := Ideal) x0 x1 x3 x4 x5 x6 (ix3 b t s)
      = score (lin x0 x3 x4) (cat x1 x0 x5 x6) b t s := by
  rw [val_main_v17_apply, scale_v16, val_main_v14_apply]
  show Ideal.div _ ((32 : ℝ) : EReal) = _
  rw [Ideal.div_coe (by norm_num : (32 : ℝ) ≠ 0)]
  unfold score
  refine congrArg (· * ((1 / 32 : ℝ) : EReal)) (Finset.sum_congr rfl fun k _ => ?_)
  have el : lidx_main_v14 (ix3 b t s) k = ix3 b t k :=
    funext fun a => Fin.ext (by match a with | ⟨0, _⟩ => rfl | ⟨1, _⟩ => rfl | ⟨2, _⟩ => rfl)
  have er : ridx_main_v14 (ix3 b t s) k = ix3 b s k :=
    funext fun a => Fin.ext (by match a with | ⟨0, _⟩ => rfl | ⟨1, _⟩ => rfl | ⟨2, _⟩ => rfl)
  rw [el, er, lin_v3, cat_v12]

/-! ## The causal mask -/

/-- Two coordinates, as signed 32-bit words, compare as they do as numbers: both are far below `2³¹`. -/
theorem mask_bit (s : Fin 4096) (t : Fin 2048) :
    IntOp.cmpi .sle (BitVec.ofNat 32 s.val) (BitVec.ofNat 32 t.val) = if s.val ≤ t.val then 1#1 else 0#1 := by
  have hs : s.val < 2 ^ 31 := by have := s.isLt; omega
  have ht : t.val < 2 ^ 31 := by have := t.isLt; omega
  have key : IntOp.cmpi .sle (BitVec.ofNat 32 s.val) (BitVec.ofNat 32 t.val) = 1#1 ↔ s.val ≤ t.val := by
    unfold IntOp.cmpi; exact StableHlo.Predicate.sle_ofNat_iff s.val t.val hs ht
  by_cases h : s.val ≤ t.val
  · rw [if_pos h]; exact key.2 h
  · rw [if_neg h]; exact eq_zero_of_ne_one fun e => h (key.1 e)

/-- The mask's bit at query `t`, key `s` (any batch): set exactly when `s ≤ t`. -/
theorem mask_call0_v1 (b : Fin 4) (t : Fin 2048) (s : Fin 4096) :
    val_main_call0_v1 (F := Ideal) (ix3 b t s) = if s.val ≤ t.val then 1#1 else 0#1 := by
  rw [val_main_call0_v1_apply, val_main_v25_apply, val_main_v24_apply, val_main_v22_apply, val_main_v19_apply,
    val_main_v18_apply, val_main_v23_apply, val_main_v21_apply, val_main_v20_apply]
  exact mask_bit s t

/-- The masked score: the score where `s ≤ t`, `-∞` elsewhere. -/
theorem masked_v26 (x0 x1 : AX) (x3 : AW) (x4 : AB) (x5 : AW) (x6 : AB) (b : Fin 4) (t : Fin 2048) (s : Fin 4096) :
    val_main_v26 (F := Ideal) x0 x1 x3 x4 x5 x6 (ix3 b t s)
      = masked (lin x0 x3 x4) (cat x1 x0 x5 x6) b t s := by
  rw [val_main_v26_apply, mask_call0_v1, score_v17, val_main_call0_v2_apply, val_main_call0_v0_apply,
    val_main_cst_0_apply]
  unfold masked
  by_cases h : s.val ≤ t.val
  · rw [if_pos h, if_pos h, select_one]
  · rw [if_neg h, if_neg h, select_zero]; exact ofBits_negInf

/-! ## The row maximum -/

theorem reduces_d2 : S4x2048x4096.Reduces [2] S4x2048 := by decide

/-- The row index `(b, t)` with key coordinate `k` put back is `(b, t, k)`. -/
theorem lift_d2 (h : S4x2048x4096.Reduces [2] S4x2048) (b : Fin 4) (t : Fin 2048) (k : Fin (S4x2048x4096.size 2)) :
    h.lift (ix2 b t) k = ix3 b t (⟨k.val, k.isLt⟩ : Fin 4096) := by
  funext c; apply Fin.ext
  match c with
  | ⟨0, _⟩ => rfl
  | ⟨1, _⟩ => rfl
  | ⟨2, _⟩ => rfl

/-- The maximum-reduce of the masked scores over the keys, from `-∞`: the fold of `max` from `⊥`. -/
theorem rowMax_v27 (x0 x1 : AX) (x3 : AW) (x4 : AB) (x5 : AW) (x6 : AB) (b : Fin 4) (t : Fin 2048) :
    val_main_v27 (F := Ideal) x0 x1 x3 x4 x5 x6 (ix2 b t) = rowMax (lin x0 x3 x4) (cat x1 x0 x5 x6) b t := by
  have h := Host.reduce_eq_fold_single (α := Ideal .f32) (FloatOps.maximumf (F := Ideal) (φ := .f32))
    (val_main_v26 (F := Ideal) x0 x1 x3 x4 x5 x6) (val_main_cst_1 (F := Ideal))
    Gen.reducesTo_S4x2048x4096_S4x2048_d2 reduces_d2 Gen.h_S_ (ix2 b t)
  refine h.trans ?_
  unfold rowMax
  have hf : (val_main_v26 (F := Ideal) x0 x1 x3 x4 x5 x6 ∘ reduces_d2.lift (ix2 b t))
      = masked (lin x0 x3 x4) (cat x1 x0 x5 x6) b t :=
    funext fun k => by
      show val_main_v26 (F := Ideal) x0 x1 x3 x4 x5 x6 (reduces_d2.lift (ix2 b t) k) = _
      rw [lift_d2, masked_v26]
      rfl
  rw [hf]
  show Finset.fold max (Ideal.ofBits .f32 0xFF800000#32) _ _ = _
  rw [ofBits_negInf]
  rfl

/-- The maximum against `-∞` changes nothing. -/
theorem rowMax_v29 (x0 x1 : AX) (x3 : AW) (x4 : AB) (x5 : AW) (x6 : AB) (b : Fin 4) (t : Fin 2048) :
    val_main_v29 (F := Ideal) x0 x1 x3 x4 x5 x6 (ix2 b t) = rowMax (lin x0 x3 x4) (cat x1 x0 x5 x6) b t := by
  rw [val_main_v29_apply, val_main_v28_apply, val_main_cst_2_apply, rowMax_v27]
  show max (Ideal.ofBits .f32 0xFF800000#32) _ = _
  rw [ofBits_negInf]; exact max_eq_right bot_le

/-! ## The softmax weights -/

/-- A key's unnormalised weight: the exponential of its masked score less the row's maximum. -/
theorem wexp_v33 (x0 x1 : AX) (x3 : AW) (x4 : AB) (x5 : AW) (x6 : AB) (b : Fin 4) (t : Fin 2048) (s : Fin 4096) :
    val_main_v33 (F := Ideal) x0 x1 x3 x4 x5 x6 (ix3 b t s)
      = wexp (lin x0 x3 x4) (cat x1 x0 x5 x6) b t s := by
  rw [val_main_v33_apply, val_main_v32_apply, val_main_v31_apply, val_main_v30_apply]
  have e : idx_main_v30 (idx_main_v31 (ix3 b t s)) = ix2 b t :=
    funext fun a => Fin.ext (by match a with | ⟨0, _⟩ => rfl | ⟨1, _⟩ => rfl)
  rw [e, rowMax_v29, masked_v26]
  rfl

/-- A row's normaliser: the sum of the weights over the keys, from `0`. -/
theorem rowSum_v34 (x0 x1 : AX) (x3 : AW) (x4 : AB) (x5 : AW) (x6 : AB) (b : Fin 4) (t : Fin 2048) :
    val_main_v34 (F := Ideal) x0 x1 x3 x4 x5 x6 (ix2 b t) = rowSum (lin x0 x3 x4) (cat x1 x0 x5 x6) b t := by
  rw [val_main_v34_apply, val_main_cst_3_apply]
  show Ideal.ofBits .f32 0x00000000#32 + _ = _
  rw [Ideal.ofBits_zero_f32, zero_add]
  unfold rowSum
  refine Finset.sum_congr rfl fun k _ => ?_
  have e : idx_main_v34 (ix2 b t) k = ix3 b t k :=
    funext fun a => Fin.ext (by match a with | ⟨0, _⟩ => rfl | ⟨1, _⟩ => rfl | ⟨2, _⟩ => rfl)
  rw [e, wexp_v33]

/-- A key's normalised weight. -/
theorem weight_v37 (x0 x1 : AX) (x3 : AW) (x4 : AB) (x5 : AW) (x6 : AB) (b : Fin 4) (t : Fin 2048) (s : Fin 4096) :
    val_main_v37 (F := Ideal) x0 x1 x3 x4 x5 x6 (ix3 b t s)
      = Ideal.div (wexp (lin x0 x3 x4) (cat x1 x0 x5 x6) b t s) (rowSum (lin x0 x3 x4) (cat x1 x0 x5 x6) b t) := by
  rw [val_main_v37_apply, val_main_v36_apply, val_main_v35_apply]
  have e : idx_main_v35 (idx_main_v36 (ix3 b t s)) = ix2 b t :=
    funext fun a => Fin.ext (by match a with | ⟨0, _⟩ => rfl | ⟨1, _⟩ => rfl)
  rw [e, rowSum_v34, wexp_v33]
  rfl

/-! ## The three results -/

/-- The attention output is the specification's. -/
theorem ref_out (x0 x1 x2 : (⟨Cert.ReferenceIdeal.S4x2048x1024, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal))
    (x5 : (⟨Cert.ReferenceIdeal.S1024x1024, .f32⟩ : BufTy).Contents (Elt Ideal))
    (x6 : (⟨Cert.ReferenceIdeal.S1024, .f32⟩ : BufTy).Contents (Elt Ideal))
    (x7 : (⟨Cert.ReferenceIdeal.S1024x1024, .f32⟩ : BufTy).Contents (Elt Ideal))
    (x8 : (⟨Cert.ReferenceIdeal.S1024, .f32⟩ : BufTy).Contents (Elt Ideal)) :
    Cert.ReferenceIdeal.Read.val_main_v38 (F := Ideal) x0 x1 x2 x3 x4 x5 x6 x7 x8
      = Cert.Attn.outO x0 x1 x2 x3 x4 x5 x6 x7 x8 := by
  funext i
  obtain ⟨b, t, c, rfl⟩ : ∃ b t c, i = ix3 b t c := ⟨i 0, i 1, i 2, eq_ix3 i⟩
  rw [val_main_v38_apply]
  show _ = attn (lin x0 x3 x4) (cat x1 x0 x5 x6) (cat x2 x0 x7 x8) b t c
  unfold attn
  refine Finset.sum_congr rfl fun k _ => ?_
  have el : lidx_main_v38 (ix3 b t c) k = ix3 b t k :=
    funext fun a => Fin.ext (by match a with | ⟨0, _⟩ => rfl | ⟨1, _⟩ => rfl | ⟨2, _⟩ => rfl)
  have er : ridx_main_v38 (ix3 b t c) k = ix3 b k c :=
    funext fun a => Fin.ext (by match a with | ⟨0, _⟩ => rfl | ⟨1, _⟩ => rfl | ⟨2, _⟩ => rfl)
  rw [el, er, weight_v37, cat_v13]

/-- The key array is the specification's. -/
theorem ref_K (x0 x1 : (⟨Cert.ReferenceIdeal.S4x2048x1024, .f32⟩ : BufTy).Contents (Elt Ideal))
    (x5 : (⟨Cert.ReferenceIdeal.S1024x1024, .f32⟩ : BufTy).Contents (Elt Ideal))
    (x6 : (⟨Cert.ReferenceIdeal.S1024, .f32⟩ : BufTy).Contents (Elt Ideal)) :
    Cert.ReferenceIdeal.Read.val_main_v12 (F := Ideal) x0 x1 x5 x6 = Cert.Attn.outK x1 x0 x5 x6 := by
  funext i
  obtain ⟨b, s, d, rfl⟩ : ∃ b s d, i = ix3 b s d := ⟨i 0, i 1, i 2, eq_ix3 i⟩
  exact cat_v12 x0 x1 x5 x6 b s d

/-- The value array is the specification's. -/
theorem ref_V (x0 x2 : (⟨Cert.ReferenceIdeal.S4x2048x1024, .f32⟩ : BufTy).Contents (Elt Ideal))
    (x7 : (⟨Cert.ReferenceIdeal.S1024x1024, .f32⟩ : BufTy).Contents (Elt Ideal))
    (x8 : (⟨Cert.ReferenceIdeal.S1024, .f32⟩ : BufTy).Contents (Elt Ideal)) :
    Cert.ReferenceIdeal.Read.val_main_v13 (F := Ideal) x0 x2 x7 x8 = Cert.Attn.outV x2 x0 x7 x8 := by
  funext i
  obtain ⟨b, s, d, rfl⟩ : ∃ b s d, i = ix3 b s d := ⟨i 0, i 1, i 2, eq_ix3 i⟩
  exact cat_v13 x0 x2 x7 x8 b s d

end Cert.Attn.Ref

end
-- ==== Proof.Assemble.lean ====
/-
  The five claims.

  The kernel program's run ends with every unscoped buffer at the last boundary's contents. Its three results there
  are: the attention kernel's output array — softmax attention of the projected queries over the cached keys and
  values, which is the reference's output because every key past the cache is masked for every query row —, and the
  two concatenated key and value arrays the projection kernel writes in place. The reference's run ends at its
  generated stages, which are the same functions of the arguments. The arguments end unchanged in all three programs.
-/
import proofs.«412249_j74225624809935_3_alg».proof.Defs
import proofs.«412249_j74225624809935_3_alg».proof.Proof.Gen.Pre_finite_inputs
import proofs.«412249_j74225624809935_3_alg».proof.Proof.Run
import proofs.«412249_j74225624809935_3_alg».proof.Proof.KRun
import proofs.«412249_j74225624809935_3_alg».proof.Proof.Reg1
import proofs.«412249_j74225624809935_3_alg».proof.Proof.Val0
import proofs.«412249_j74225624809935_3_alg».proof.Proof.Val1
import proofs.«412249_j74225624809935_3_alg».proof.Proof.Pay0
import proofs.«412249_j74225624809935_3_alg».proof.Proof.Finite
import proofs.«412249_j74225624809935_3_alg».proof.Proof.RefIsSpec
import Idealize.ShloMosaic.PureOps.IdealRules

set_option maxRecDepth 16384

noncomputable section

namespace Cert.Proof.Claims

open Cert.KernelIdeal Cert.KernelIdeal.Hand
open Idealize.ShloMosaic Idealize.ShloMosaic.TcCoe Idealize.ShloMosaic.ValueIdx
open Idealize.SL Idealize.SL.Sem
open Cert.Attn Cert.Attn.Fin

variable (m : (ℓ : Loc nD τ sig) → Buf (Elt Ideal) ℓ)

/-! ## The projection kernel's arrays, in the arguments -/

/-- The query array the attention kernel reads: the query layer of `x`. -/
theorem query_array (c : Dev nD) :
    (V2 (F := Ideal) m c main_v9_0 : S4x2048x1024.Idx → EReal) = fun i => lin (m ((c.tc : Thread nD τ).loc main_arg0)) (m ((c.tc : Thread nD τ).loc main_arg3)) (m ((c.tc : Thread nD τ).loc main_arg4)) (i 0) (i 1) (i 2) := by
  rw [V2_main_v9_0, Q_arr, V1_of_arg m c main_arg0 (by decide)]
  rw [show (V1 (F := Ideal) m c main_v6 : S1024x3072.Idx → EReal) = _ from host_W m c,
    show (V1 (F := Ideal) m c main_v8 : S1x3072.Idx → EReal) = _ from host_β m c]
  funext i
  exact lin_third_q _ _ _ _ _ _ _ (i 0) (i 1) (i 2)

/-- The two cache shadows are the cached keys and values. -/
theorem kshadow_array (c : Dev nD) : (V2 (F := Ideal) m c main_v9_3 : S4x2048x1024.Idx → EReal) = (m ((c.tc : Thread nD τ).loc main_arg1)) := by
  rw [V2_main_v9_3, Kp_arr, V1_of_arg m c main_arg1 (by decide)]
theorem vshadow_array (c : Dev nD) : (V2 (F := Ideal) m c main_v9_4 : S4x2048x1024.Idx → EReal) = (m ((c.tc : Thread nD τ).loc main_arg2)) := by
  rw [V2_main_v9_4, Vp_arr, V1_of_arg m c main_arg2 (by decide)]

/-- The key array: the cache, then the key layer of `x`. -/
theorem key_array (c : Dev nD) :
    ((dat0 (F := Ideal) (V1 m) c).arrAt 6 cfg0.N : S4x4096x1024.Idx → EReal) = outK (m ((c.tc : Thread nD τ).loc main_arg1)) (m ((c.tc : Thread nD τ).loc main_arg0)) (m ((c.tc : Thread nD τ).loc main_arg5)) (m ((c.tc : Thread nD τ).loc main_arg6)) := by
  rw [K_arr, V1_of_arg m c main_arg0 (by decide), V1_of_arg m c main_arg1 (by decide)]
  rw [show (V1 (F := Ideal) m c main_v6 : S1024x3072.Idx → EReal) = _ from host_W m c,
    show (V1 (F := Ideal) m c main_v8 : S1x3072.Idx → EReal) = _ from host_β m c]
  funext i
  unfold GK outK cat
  by_cases h : (i 1).val < 2048
  · rw [dif_pos h, dif_pos h]
  · rw [dif_neg h, dif_neg h]
    exact lin_third_k _ _ _ _ _ _ _ (i 0) ⟨(i 1).val - 2048, by have h4 : (i 1).val < 4096 := (i 1).isLt; omega⟩ (i 2)

theorem value_array (c : Dev nD) :
    ((dat0 (F := Ideal) (V1 m) c).arrAt 7 cfg0.N : S4x4096x1024.Idx → EReal) = outV (m ((c.tc : Thread nD τ).loc main_arg2)) (m ((c.tc : Thread nD τ).loc main_arg0)) (m ((c.tc : Thread nD τ).loc main_arg7)) (m ((c.tc : Thread nD τ).loc main_arg8)) := by
  rw [V_arr, V1_of_arg m c main_arg0 (by decide), V1_of_arg m c main_arg2 (by decide)]
  rw [show (V1 (F := Ideal) m c main_v6 : S1024x3072.Idx → EReal) = _ from host_W m c,
    show (V1 (F := Ideal) m c main_v8 : S1x3072.Idx → EReal) = _ from host_β m c]
  funext i
  unfold GV outV cat
  by_cases h : (i 1).val < 2048
  · rw [dif_pos h, dif_pos h]
  · rw [dif_neg h, dif_neg h]
    exact lin_third_v _ _ _ _ _ _ _ (i 0) ⟨(i 1).val - 2048, by have h4 : (i 1).val < 4096 := (i 1).isLt; omega⟩ (i 2)

/-! ## The attention kernel's array, in the arguments -/

/-- Under the precondition the output array is softmax attention of the three layers' arrays. -/
theorem output_array (hpre : Cert.Pre_KernelIdeal m) (c : Dev nD) :
    ((dat1 (tbl_ok (F := Ideal)) (V2 m) c).arrAt 3 (cfgA (tbl_ok (F := Ideal))).N : S4x2048x1024.Idx → EReal)
      = outO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  obtain ⟨r0, r1, r2, r3, r4, r5, r6, r7, r8⟩ := args_real m hpre c
  rw [O_arr (tbl_ok (F := Ideal)) (V2 m) c (dat1 (tbl_ok (F := Ideal)) (V2 m) c) (after1_3 (tbl_ok (F := Ideal)) (V2 m) c)
    (cat (m ((c.tc : Thread nD τ).loc main_arg1)) (m ((c.tc : Thread nD τ).loc main_arg0)) (m ((c.tc : Thread nD τ).loc main_arg5)) (m ((c.tc : Thread nD τ).loc main_arg6))) (cat (m ((c.tc : Thread nD τ).loc main_arg2)) (m ((c.tc : Thread nD τ).loc main_arg0)) (m ((c.tc : Thread nD τ).loc main_arg7)) (m ((c.tc : Thread nD τ).loc main_arg8)))
    (fun b s h e => by rw [kshadow_array]; unfold cat; rw [dif_pos h])
    (fun b s h e => by rw [vshadow_array]; unfold cat; rw [dif_pos h])
    (fun i => by rw [query_array]; exact lin_real _ _ _ r0 r3 r4 _ _ _)
    (fun i => by rw [kshadow_array]; exact r1 i)
    (fun b s e => cat_real _ _ _ _ r2 r0 r7 r8 b s e)]
  rw [query_array]
  rfl

/-! ## The claims -/

theorem frame_p : Cert.frame_Kernel := fun m ρ _ =>
  (θ_run Cert.Kernel.defs _ _).mono (fun r h c =>
    ⟨(h c _ (Cert.Kernel.Hand.mem_uc Cert.Kernel.main_arg0 (by decide))).trans (Cert.Kernel.Hand.W3_main_arg0 m c),
     (h c _ (Cert.Kernel.Hand.mem_uc Cert.Kernel.main_arg1 (by decide))).trans (Cert.Kernel.Hand.W3_main_arg1 m c),
     (h c _ (Cert.Kernel.Hand.mem_uc Cert.Kernel.main_arg2 (by decide))).trans (Cert.Kernel.Hand.W3_main_arg2 m c),
     (h c _ (Cert.Kernel.Hand.mem_uc Cert.Kernel.main_arg3 (by decide))).trans (Cert.Kernel.Hand.W3_main_arg3 m c),
     (h c _ (Cert.Kernel.Hand.mem_uc Cert.Kernel.main_arg4 (by decide))).trans (Cert.Kernel.Hand.W3_main_arg4 m c),
     (h c _ (Cert.Kernel.Hand.mem_uc Cert.Kernel.main_arg5 (by decide))).trans (Cert.Kernel.Hand.W3_main_arg5 m c),
     (h c _ (Cert.Kernel.Hand.mem_uc Cert.Kernel.main_arg6 (by decide))).trans (Cert.Kernel.Hand.W3_main_arg6 m c),
     (h c _ (Cert.Kernel.Hand.mem_uc Cert.Kernel.main_arg7 (by decide))).trans (Cert.Kernel.Hand.W3_main_arg7 m c),
     (h c _ (Cert.Kernel.Hand.mem_uc Cert.Kernel.main_arg8 (by decide))).trans (Cert.Kernel.Hand.W3_main_arg8 m c)⟩)
    (Cert.Kernel.Hand.run_main (F := Bits) m ρ)

/-- The arguments read off the last boundary. -/
theorem args_kept (r : PUnit × MemSt nD τ sig (Elt Ideal))
    (h : ∀ c : Dev nD, ∀ b ∈ Pipeline.ucRefs τ sig, r.2.mem ((c : Thread nD τ).1, b) = W3 m c b) (c : Dev nD) :
    r.2.mem ((c.tc : Thread nD τ).loc main_arg0) = (m ((c.tc : Thread nD τ).loc main_arg0)) ∧ r.2.mem ((c.tc : Thread nD τ).loc main_arg1) = (m ((c.tc : Thread nD τ).loc main_arg1))
    ∧ r.2.mem ((c.tc : Thread nD τ).loc main_arg2) = (m ((c.tc : Thread nD τ).loc main_arg2)) ∧ r.2.mem ((c.tc : Thread nD τ).loc main_arg3) = (m ((c.tc : Thread nD τ).loc main_arg3))
    ∧ r.2.mem ((c.tc : Thread nD τ).loc main_arg4) = (m ((c.tc : Thread nD τ).loc main_arg4)) ∧ r.2.mem ((c.tc : Thread nD τ).loc main_arg5) = (m ((c.tc : Thread nD τ).loc main_arg5))
    ∧ r.2.mem ((c.tc : Thread nD τ).loc main_arg6) = (m ((c.tc : Thread nD τ).loc main_arg6)) ∧ r.2.mem ((c.tc : Thread nD τ).loc main_arg7) = (m ((c.tc : Thread nD τ).loc main_arg7))
    ∧ r.2.mem ((c.tc : Thread nD τ).loc main_arg8) = (m ((c.tc : Thread nD τ).loc main_arg8)) :=
  ⟨(h c _ (mem_uc main_arg0 (by decide))).trans (W3_main_arg0 m c), (h c _ (mem_uc main_arg1 (by decide))).trans (W3_main_arg1 m c),
   (h c _ (mem_uc main_arg2 (by decide))).trans (W3_main_arg2 m c), (h c _ (mem_uc main_arg3 (by decide))).trans (W3_main_arg3 m c),
   (h c _ (mem_uc main_arg4 (by decide))).trans (W3_main_arg4 m c), (h c _ (mem_uc main_arg5 (by decide))).trans (W3_main_arg5 m c),
   (h c _ (mem_uc main_arg6 (by decide))).trans (W3_main_arg6 m c), (h c _ (mem_uc main_arg7 (by decide))).trans (W3_main_arg7 m c),
   (h c _ (mem_uc main_arg8 (by decide))).trans (W3_main_arg8 m c)⟩

theorem frame_pi : Cert.frame_KernelIdeal := fun m ρ _ =>
  (θ_run Cert.KernelIdeal.defs _ _).mono (fun r h c => args_kept m r h c) (run_main (F := Ideal) m ρ)

theorem frame_ri : Cert.frame_ReferenceIdeal := fun m ρ _ =>
  (θ_run Cert.ReferenceIdeal.defs _ _).mono (fun _ h c => (h c).2.2.2) (Cert.ReferenceIdeal.Value.run (F := Ideal) m ρ)

/-- The ledger's one entry: the mask fill is named `-∞`. -/
theorem preserves : Cert.preserves_Kernel_KernelIdeal :=
  IdealRules.named_const.statement Cert.KernelIdeal.κ "neg_big" .f32 0xFF333332#32 ⊥ rfl

theorem algebraic : Cert.algebraic_KernelIdeal_ReferenceIdeal := by
  intro m ρ m' ρ' hpre hagree
  refine ⟨fun c => outO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)),
    fun c => outK (m ((c.tc : Thread nD τ).loc main_arg1)) (m ((c.tc : Thread nD τ).loc main_arg0)) (m ((c.tc : Thread nD τ).loc main_arg5)) (m ((c.tc : Thread nD τ).loc main_arg6)),
    fun c => outV (m ((c.tc : Thread nD τ).loc main_arg2)) (m ((c.tc : Thread nD τ).loc main_arg0)) (m ((c.tc : Thread nD τ).loc main_arg7)) (m ((c.tc : Thread nD τ).loc main_arg8)), ?_, ?_⟩
  · refine (θ_run Cert.KernelIdeal.defs _ _).mono (fun r h c => ⟨?_, ?_, ?_, args_kept m r h c⟩) (run_main (F := Ideal) m ρ)
    · exact ((h c _ (mem_uc main_v10 (by decide))).trans (W3_main_v10 m c)).trans (output_array m hpre c)
    · exact ((h c _ (mem_uc main_v9_1 (by decide))).trans (W3_main_v9_1 m c)).trans (key_array m c)
    · exact ((h c _ (mem_uc main_v9_2 (by decide))).trans (W3_main_v9_2 m c)).trans (value_array m c)
  · refine (θ_run Cert.ReferenceIdeal.defs _ _).mono (fun r h c => ?_) (Cert.ReferenceIdeal.Value.run (F := Ideal) m' ρ')
    obtain ⟨h0, h1, h2, hrest⟩ := h c
    obtain ⟨a0, a1, a2, a3, a4, a5, a6, a7, a8⟩ := hagree c
    refine ⟨?_, ?_, ?_, hrest⟩
    · rw [h0, Cert.ReferenceIdeal.Read.val_main_v38_eq, Cert.Attn.Ref.ref_out, a0, a1, a2, a3, a4, a5, a6, a7, a8]
    · rw [h1, Cert.ReferenceIdeal.Read.val_main_v12_eq, Cert.Attn.Ref.ref_K, a0, a1, a5, a6]
    · rw [h2, Cert.ReferenceIdeal.Read.val_main_v13_eq, Cert.Attn.Ref.ref_V, a0, a2, a7, a8]

end Cert.Proof.Claims

end
-- ==== Proof.lean ====
/-
  The certificate's claim: the three programs run to the end and leave their arguments unchanged; the mask fill the
  idealized kernel names is `-∞`; and over the extended reals the kernel program and the reference end with equal
  results — causal softmax attention of the projected queries over the cached and projected keys and values,
  and the two concatenated key and value arrays. The kernel computes the attention by blocks with a running
  maximum over the cached keys only; that is the reference's value because a query row's position is always
  before the projected keys', so their scores are masked, and because the blockwise recurrence telescopes to the
  softmax-weighted sum when every input is finite.
-/
import proofs.«412249_j74225624809935_3_alg».proof.Defs
import proofs.«412249_j74225624809935_3_alg».proof.Proof.Gen.Kernel
import proofs.«412249_j74225624809935_3_alg».proof.Proof.Gen.Kernel.Skeleton
import proofs.«412249_j74225624809935_3_alg».proof.Proof.Gen.Kernel.Launch
import proofs.«412249_j74225624809935_3_alg».proof.Proof.Gen.Kernel.Regions
import proofs.«412249_j74225624809935_3_alg».proof.Proof.Gen.Kernel.Points
import proofs.«412249_j74225624809935_3_alg».proof.Proof.Gen.KernelIdeal
import proofs.«412249_j74225624809935_3_alg».proof.Proof.Gen.KernelIdeal.Skeleton
import proofs.«412249_j74225624809935_3_alg».proof.Proof.Gen.KernelIdeal.Launch
import proofs.«412249_j74225624809935_3_alg».proof.Proof.Gen.KernelIdeal.Regions
import proofs.«412249_j74225624809935_3_alg».proof.Proof.Gen.KernelIdeal.Points
import proofs.«412249_j74225624809935_3_alg».proof.Proof.Gen.ReferenceIdeal
import proofs.«412249_j74225624809935_3_alg».proof.Proof.Gen.Pre_finite_inputs
import proofs.«412249_j74225624809935_3_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
